-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S10000x16 : Shape := ⟨2, ![10000, 16]⟩
abbrev S128x64 : Shape := ⟨2, ![128, 64]⟩
abbrev S64 : Shape := ⟨1, ![64]⟩
abbrev S64x40 : Shape := ⟨2, ![64, 40]⟩
abbrev S40 : Shape := ⟨1, ![40]⟩
abbrev S16x64 : Shape := ⟨2, ![16, 64]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S10000x16 : S_.BroadcastsInDim S10000x16 (![] : Fin 0 → Fin S10000x16.rank)
  reducesTo_S10000x16_S_d0_1 : S10000x16.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_
  bcast_S_S16x64 : S_.BroadcastsInDim S16x64 (![] : Fin 0 → Fin S16x64.rank)
  reducesTo_S16x64_S_d0_1 : S16x64.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S16x64 .f32) (main_arg8 : FVec F S16 .f32) (main_v33 : IVec S_ 1) : IVec S_ 1 :=
  let main_v34 : FVec F S16x64 .f32 := Host.absf main_arg7
  let main_cst_12 : FVec F S_ .f32 := constant S_ .f32 0x7F800000#32
  let main_v35 : FVec F S16x64 .f32 := broadcastInDim S16x64 ![] bcast_S_S16x64 main_cst_12
  let main_v36 : IVec S16x64 1 := cmpf .olt main_v34 main_v35
  let main_c_13 : IVec S_ 1 := constantI S_ 1 1#1
  let main_v37 : IVec S_ 1 := (fun x v => Host.reduce IntOp.andi x v reducesTo_S16x64_S_d0_1 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg4 : FVec F S64 .f32) (main_arg5 : FVec F S64x40 .f32) (main_arg6 : FVec F S40 .f32) (main_arg7 : FVec F S16x64 .f32) (main_arg8 : FVec F S16 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x40 .f32 := Host.absf main_arg5
  let main_cst_8 : FVec F S_ .f32 := constant S_ .f32 0x7F800000#32
  let main_v25 : FVec F S64x40 .f32 := broadcastInDim S64x40 ![] bcast_S_S64x40 main_cst_8
  let main_v26 : IVec S64x40 1 := cmpf .olt main_v24 main_v25
  let main_c_9 : IVec S_ 1 := constantI S_ 1 1#1
  let main_v27 : IVec S_ 1 := (fun x v => Host.reduce IntOp.andi x v reducesTo_S64x40_S_d0_1 h_S_) main_v26 main_c_9
  let main_v28 : IVec S_ 1 := andi main_v23 main_v27
  let main_v29 : FVec F S40 .f32 := Host.absf main_arg6
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  fn_part2 (F := F) main_arg7 main_arg8 main_v33

def fn {F : FTy → Type} [FloatOps F] (main_arg0 : FVec F S10000x128 .f32) (main_arg1 : FVec F S10000x10000 .f32) (main_arg2 : FVec F S10000x16 .f32) (main_arg3 : FVec F S128x64 .f32) (main_arg4 : FVec F S64 .f32) (main_arg5 : FVec F S64x40 .f32) (main_arg6 : FVec F S40 .f32) (main_arg7 : FVec F S16x64 .f32) (main_arg8 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x16 .f32 := Host.absf main_arg2
  let main_cst_2 : FVec F S_ .f32 := constant S_ .f32 0x7F800000#32
  let main_v10 : FVec F S10000x16 .f32 := broadcastInDim S10000x16 ![] bcast_S_S10000x16 main_cst_2
  let main_v11 : IVec S10000x16 1 := cmpf .olt main_v9 main_v10
  let main_c_3 : IVec S_ 1 := constantI S_ 1 1#1
  let main_v12 : IVec S_ 1 := (fun x v => Host.reduce IntOp.andi x v reducesTo_S10000x16_S_d0_1 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_arg7 main_arg8 main_v13 main_v16
-- ==== Kernel.lean ====
abbrev S10000x128 : Shape := ⟨2, ![10000, 128]⟩
abbrev S10000x10000 : Shape := ⟨2, ![10000, 10000]⟩
abbrev S10000x16 : Shape := ⟨2, ![10000, 16]⟩
abbrev S128x64 : Shape := ⟨2, ![128, 64]⟩
abbrev S64 : Shape := ⟨1, ![64]⟩
abbrev S64x40 : Shape := ⟨2, ![64, 40]⟩
abbrev S40 : Shape := ⟨1, ![40]⟩
abbrev S16x64 : Shape := ⟨2, ![16, 64]⟩
abbrev S16 : Shape := ⟨1, ![16]⟩
abbrev S1x64 : Shape := ⟨2, ![1, 64]⟩
abbrev S1x40 : Shape := ⟨2, ![1, 40]⟩
abbrev S1x16 : Shape := ⟨2, ![1, 16]⟩
abbrev S10000x40 : Shape := ⟨2, ![10000, 40]⟩
abbrev S200x10000 : Shape := ⟨2, ![200, 10000]⟩
abbrev S400x16 : Shape := ⟨2, ![400, 16]⟩
abbrev S400x40 : Shape := ⟨2, ![400, 40]⟩
abbrev S10000x64 : Shape := ⟨2, ![10000, 64]⟩
abbrev S200x64 : Shape := ⟨2, ![200, 64]⟩
abbrev S200x40 : Shape := ⟨2, ![200, 40]⟩
abbrev S200x16 : Shape := ⟨2, ![200, 16]⟩
abbrev S200 : Shape := ⟨1, ![200]⟩
abbrev S200x1 : Shape := ⟨2, ![200, 1]⟩

abbrev nBuf : Space → Nat
  | .hbm => 14
  | .vmem => 19
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x16, .f32⟩
  | .hbm, ⟨3, _⟩ => ⟨S128x64, .f32⟩
  | .hbm, ⟨4, _⟩ => ⟨S64, .f32⟩
  | .hbm, ⟨5, _⟩ => ⟨S64x40, .f32⟩
  | .hbm, ⟨6, _⟩ => ⟨S40, .f32⟩
  | .hbm, ⟨7, _⟩ => ⟨S16x64, .f32⟩
  | .hbm, ⟨8, _⟩ => ⟨S16, .f32⟩
  | .hbm, ⟨9, _⟩ => ⟨S1x64, .f32⟩
  | .hbm, ⟨10, _⟩ => ⟨S1x40, .f32⟩
  | .hbm, ⟨11, _⟩ => ⟨S1x16, .f32⟩
  | .hbm, ⟨12, _⟩ => ⟨S10000x40, .f32⟩
  | .hbm, ⟨13, _⟩ => ⟨S10000x16, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x128, .f32⟩
  | .local _ .vmem, ⟨5, _⟩ => ⟨S128x64, .f32⟩
  | .local _ .vmem, ⟨6, _⟩ => ⟨S1x64, .f32⟩
  | .local _ .vmem, ⟨7, _⟩ => ⟨S64x40, .f32⟩
  | .local _ .vmem, ⟨8, _⟩ => ⟨S1x40, .f32⟩
  | .local _ .vmem, ⟨9, _⟩ => ⟨S16x64, .f32⟩
  | .local _ .vmem, ⟨10, _⟩ => ⟨S1x16, .f32⟩
  | .local _ .vmem, ⟨11, _⟩ => ⟨S400x16, .f32⟩
  | .local _ .vmem, ⟨12, _⟩ => ⟨S400x16, .f32⟩
  | .local _ .vmem, ⟨13, _⟩ => ⟨S400x40, .f32⟩
  | .local _ .vmem, ⟨14, _⟩ => ⟨S400x40, .f32⟩
  | .local _ .vmem, ⟨15, _⟩ => ⟨S400x16, .f32⟩
  | .local _ .vmem, ⟨16, _⟩ => ⟨S400x16, .f32⟩
  | .local _ .vmem, ⟨17, _⟩ => ⟨S10000x64, .f32⟩
  | .local _ .vmem, ⟨18, _⟩ => ⟨S10000x40, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) (c0_i32_14 : BitVec 32) : Fin 2 → Nat :=
  let arg1 : BitVec 32 := BitVec.ofNat 32 (i 1).val
  let c400_i32 : BitVec 32 := 400#32
  let v22 : BitVec 32 := Scalar.muli arg1 c400_i32
  let v23 : BitVec 32 := Scalar.addi v22 c0_i32_14
  let v24 : Index := Scalar.indexCast v23
  let c0_15 : Index := 0#32
  ![v24.toNat, 0]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c24_i32 : BitVec 32 := 24#32
  let v2 : BitVec 32 := Scalar.muli c24_i32 arg0
  let v3 : BitVec 32 := Scalar.addi v1 v2
  let c0_i32 : BitVec 32 := 0#32
  let c0_i32_0 : BitVec 32 := 0#32
  ![v3.toNat, c0_i32.toNat]

def cc0_transform_10 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c24_i32 : BitVec 32 := 24#32
  let v2 : BitVec 32 := Scalar.muli c24_i32 arg0
  let v3 : BitVec 32 := Scalar.addi v1 v2
  let c0_i32 : BitVec 32 := 0#32
  let c0_i32_0 : BitVec 32 := 0#32
  ![v3.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x40 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x40 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S400x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S400x40 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S400x16 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

class Facts₀ : Prop where
  shapeCasts_S64_S1x64 : S64.ShapeCasts S1x64
  shapeCasts_S40_S1x40 : S40.ShapeCasts S1x40
  shapeCasts_S16_S1x16 : S16.ShapeCasts S1x16
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S200x10000_S200x10000_0_0 : ∀ a, (![0, 0] : Fin 2 → Nat) a + S200x10000.size a ≤ S200x10000.size a
  h_S200x10000 : 0 < S200x10000.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S200x64 : S1x64.Broadcasts S200x64
  inb_S64x40_S64x40_0_0 : ∀ a, (![0, 0] : Fin 2 → Nat) a + S64x40.size a ≤ S64x40.size a
  h_S64x40 : 0 < S64x40.numel
  h_S200x40 : 0 < S200x40.numel
  shapeCasts_S200x40_S200x40 : S200x40.ShapeCasts S200x40
  inb_S16x64_S16x64_0_0 : ∀ a, (![0, 0] : Fin 2 → Nat) a + S16x64.size a ≤ S16x64.size a
  h_S16x64 : 0 < S16x64.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S200x16 : S1x16.Broadcasts S200x16
  inb_S400x16_S200x16_0_0 : ∀ a, (![0, 0] : Fin 2 → Nat) a + S200x16.size a ≤ S400x16.size a
  h_S200x16 : 0 < S200x16.numel
  inb_S400x16_S200x16_200_0 : ∀ a, (![200, 0] : Fin 2 → Nat) a + S200x16.size a ≤ S400x16.size a
  inb_S10000x40_S10000x40_0_0 : ∀ a, (![0, 0] : Fin 2 → Nat) a + S10000x40.size a ≤ S10000x40.size a
  h_S10000x40 : 0 < S10000x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S200x40 : S1x40.Broadcasts S200x40
  reduces_S200x40_S200 : S200x40.Reduces [1] S200
  shapeCasts_S200_S200x1 : S200.ShapeCasts S200x1
  broadcasts_S200x1_S200x40 : S200x1.Broadcasts S200x40
  inb_S400x40_S200x40_0_0 : ∀ a, (![0, 0] : Fin 2 → Nat) a + S200x40.size a ≤ S400x40.size a
  inb_S400x40_S200x40_200_0 : ∀ a, (![200, 0] : Fin 2 → Nat) a + S200x40.size a ≤ S400x40.size a
  dot_S10000x128_S128x64_S10000x64_1_0_0_1_n_n_wf : DotDims.WF S10000x128 S128x64 S10000x64 [1] [0] [0] [1] [] []
  dot_S200x10000_S10000x64_S200x64_1_0_0_1_n_n_wf : DotDims.WF S200x10000 S10000x64 S200x64 [1] [0] [0] [1] [] []
  dot_S200x64_S64x40_S200x40_1_0_0_1_n_n_wf : DotDims.WF S200x64 S64x40 S200x40 [1] [0] [0] [1] [] []
  dot_S200x64_S16x64_S200x16_1_1_0_0_n_n_wf : DotDims.WF S200x64 S16x64 S200x16 [1] [1] [0] [0] [] []
  dot_S200x10000_S10000x40_S200x40_1_0_0_1_n_n_wf : DotDims.WF S200x10000 S10000x40 S200x40 [1] [0] [0] [1] [] []
  hrank0 : 0 < grid0.rank
  k0_off1_inb : ∀ i : grid0.Coords, ∀ (k0_h2 : k0_cond2 i = 1#1), ∀ (r : Fin 2), ∀ a, (k0_off1 i (BitVec.ofNat 32 (200 * r.val))) a + S200x40.size a ≤ S10000x40.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x40.size a ≤ S64x40.size a
  hwx0_5 : ∀ i : grid0.Coords, EltTy.bits .f32 = 32 ∨ (Rect.block (s := S64x40) S64x40.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x40.size a ≤ S1x40.size a
  hwx0_6 : ∀ i : grid0.Coords, EltTy.bits .f32 = 32 ∨ (Rect.block (s := S1x40) S1x40.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x64.size a ≤ S16x64.size a
  hwx0_7 : ∀ i : grid0.Coords, EltTy.bits .f32 = 32 ∨ (Rect.block (s := S16x64) S16x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x16.size a ≤ S1x16.size a
  hwx0_8 : ∀ i : grid0.Coords, EltTy.bits .f32 = 32 ∨ (Rect.block (s := S1x16) S1x16.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S400x16.size a ≤ S10000x16.size a
  hwx0_9 : ∀ i : grid0.Coords, EltTy.bits .f32 = 32 ∨ (Rect.block (s := S10000x16) S400x16.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S400x40.size a ≤ S10000x40.size a
  hwx0_10 : ∀ i : grid0.Coords, EltTy.bits .f32 = 32 ∨ (Rect.block (s := S10000x40) S400x40.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S400x16.size a ≤ S10000x16.size a
  hwx0_11 : ∀ i : grid0.Coords, EltTy.bits .f32 = 32 ∨ (Rect.block (s := S10000x16) S400x16.size (cc0_transform_11 i) (hinb0_11 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S200x10000_S10000x64_S200x64_1_0_0_1_n_n : DotDims S200x10000 S10000x64 S200x64 where
  lhsContracting := [1]
  rhsContracting := [0]
  lhsNonContracting := [0]
  rhsNonContracting := [1]
  lhsBatch := []
  rhsBatch := []
  wf := dot_S200x10000_S10000x64_S200x64_1_0_0_1_n_n_wf
def dot_S200x64_S64x40_S200x40_1_0_0_1_n_n : DotDims S200x64 S64x40 S200x40 where
  lhsContracting := [1]
  rhsContracting := [0]
  lhsNonContracting := [0]
  rhsNonContracting := [1]
  lhsBatch := []
  rhsBatch := []
  wf := dot_S200x64_S64x40_S200x40_1_0_0_1_n_n_wf
def dot_S200x64_S16x64_S200x16_1_1_0_0_n_n : DotDims S200x64 S16x64 S200x16 where
  lhsContracting := [1]
  rhsContracting := [1]
  lhsNonContracting := [0]
  rhsNonContracting := [0]
  lhsBatch := []
  rhsBatch := []
  wf := dot_S200x64_S16x64_S200x16_1_1_0_0_n_n_wf
def dot_S200x10000_S10000x40_S200x40_1_0_0_1_n_n : DotDims S200x10000 S10000x40 S200x40 where
  lhsContracting := [1]
  rhsContracting := [0]
  lhsNonContracting := [0]
  rhsNonContracting := [1]
  lhsBatch := []
  rhsBatch := []
  wf := dot_S200x10000_S10000x40_S200x40_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x40.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x40.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S16x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S1x16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg2) S400x16.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v3_0) S400x40.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v3_1) S400x16.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond3 i == 1#1) | 11 => fun i => !(k0_cond2 i == 1#1) | ⟨_ + 12, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S10000x16 : Shape := ⟨2, ![10000, 16]⟩
abbrev S128x64 : Shape := ⟨2, ![128, 64]⟩
abbrev S64 : Shape := ⟨1, ![64]⟩
abbrev S64x40 : Shape := ⟨2, ![64, 40]⟩
abbrev S40 : Shape := ⟨1, ![40]⟩
abbrev S16x64 : Shape := ⟨2, ![16, 64]⟩
abbrev S16 : Shape := ⟨1, ![16]⟩
abbrev S10000x64 : Shape := ⟨2, ![10000, 64]⟩
abbrev S1x64 : Shape := ⟨2, ![1, 64]⟩
abbrev S_ : Shape := ⟨0, ![]⟩
abbrev S10000x40 : Shape := ⟨2, ![10000, 40]⟩
abbrev S1x40 : Shape := ⟨2, ![1, 40]⟩
abbrev S64x16 : Shape := ⟨2, ![64, 16]⟩
abbrev S1x16 : Shape := ⟨2, ![1, 16]⟩
abbrev S10000 : Shape := ⟨1, ![10000]⟩
abbrev S10000x1 : Shape := ⟨2, ![10000, 1]⟩

abbrev nBuf : Space → Nat
  | .hbm => 51
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x16, .f32⟩
  | .hbm, ⟨3, _⟩ => ⟨S128x64, .f32⟩
  | .hbm, ⟨4, _⟩ => ⟨S64, .f32⟩
  | .hbm, ⟨5, _⟩ => ⟨S64x40, .f32⟩
  | .hbm, ⟨6, _⟩ => ⟨S40, .f32⟩
  | .hbm, ⟨7, _⟩ => ⟨S16x64, .f32⟩
  | .hbm, ⟨8, _⟩ => ⟨S16, .f32⟩
  | .hbm, ⟨9, _⟩ => ⟨S10000x64, .f32⟩
  | .hbm, ⟨10, _⟩ => ⟨S10000x64, .f32⟩
  | .hbm, ⟨11, _⟩ => ⟨S1x64, .f32⟩
  | .hbm, ⟨12, _⟩ => ⟨S10000x64, .f32⟩
  | .hbm, ⟨13, _⟩ => ⟨S10000x64, .f32⟩
  | .hbm, ⟨14, _⟩ => ⟨S_, .f32⟩
  | .hbm, ⟨15, _⟩ => ⟨S10000x64, .f32⟩
  | .hbm, ⟨16, _⟩ => ⟨S10000x64, .f32⟩
  | .hbm, ⟨17, _⟩ => ⟨S10000x40, .f32⟩
  | .hbm, ⟨18, _⟩ => ⟨S10000x40, .f32⟩
  | .hbm, ⟨19, _⟩ => ⟨S1x40, .f32⟩
  | .hbm, ⟨20, _⟩ => ⟨S10000x40, .f32⟩
  | .hbm, ⟨21, _⟩ => ⟨S10000x40, .f32⟩
  | .hbm, ⟨22, _⟩ => ⟨S64x16, .f32⟩
  | .hbm, ⟨23, _⟩ => ⟨S10000x16, .f32⟩
  | .hbm, ⟨24, _⟩ => ⟨S1x16, .f32⟩
  | .hbm, ⟨25, _⟩ => ⟨S10000x16, .f32⟩
  | .hbm, ⟨26, _⟩ => ⟨S10000x16, .f32⟩
  | .hbm, ⟨27, _⟩ => ⟨S10000x16, .f32⟩
  | .hbm, ⟨28, _⟩ => ⟨S10000x16, .f32⟩
  | .hbm, ⟨29, _⟩ => ⟨S_, .f32⟩
  | .hbm, ⟨30, _⟩ => ⟨S10000x16, .f32⟩
  | .hbm, ⟨31, _⟩ => ⟨S10000x16, .f32⟩
  | .hbm, ⟨32, _⟩ => ⟨S_, .f32⟩
  | .hbm, ⟨33, _⟩ => ⟨S10000x16, .f32⟩
  | .hbm, ⟨34, _⟩ => ⟨S10000x16, .f32⟩
  | .hbm, ⟨35, _⟩ => ⟨S10000x16, .f32⟩
  | .hbm, ⟨36, _⟩ => ⟨S_, .f32⟩
  | .hbm, ⟨37, _⟩ => ⟨S10000, .f32⟩
  | .hbm, ⟨38, _⟩ => ⟨S_, .f32⟩
  | .hbm, ⟨39, _⟩ => ⟨S10000, .f32⟩
  | .hbm, ⟨40, _⟩ => ⟨S10000, .f32⟩
  | .hbm, ⟨41, _⟩ => ⟨S10000x1, .f32⟩
  | .hbm, ⟨42, _⟩ => ⟨S10000x40, .f32⟩
  | .hbm, ⟨43, _⟩ => ⟨S10000x40, .f32⟩
  | .hbm, ⟨44, _⟩ => ⟨S10000x40, .f32⟩
  | .hbm, ⟨45, _⟩ => ⟨S_, .f32⟩
  | .hbm, ⟨46, _⟩ => ⟨S10000, .f32⟩
  | .hbm, ⟨47, _⟩ => ⟨S10000x1, .f32⟩
  | .hbm, ⟨48, _⟩ => ⟨S10000x1, .f32⟩
  | .hbm, ⟨49, _⟩ => ⟨S10000x40, .f32⟩
  | .hbm, ⟨50, _⟩ => ⟨S10000x40, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_v19 : Ref sig .tc := ⟨.hbm, 31, rfl⟩
abbrev main_cst_0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call1_cst : Ref sig .tc := ⟨.hbm, 36, rfl⟩
abbrev main_call1_v0 : Ref sig .tc := ⟨.hbm, 37, rfl⟩
abbrev main_call1_cst_0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_cst_1 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_v23 : Ref sig .tc := ⟨.hbm, 50, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S40_S1x40_1 : S40.BroadcastsInDim S1x40 (![1] : Fin 1 → Fin S1x40.rank)
  bcast_S1x40_S10000x40_0_1 : S1x40.BroadcastsInDim S10000x40 (![0, 1] : Fin 2 → Fin S10000x40.rank)
  transposes_S16x64_S64x16_1_0 : S16x64.Transposes [1, 0] S64x16
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  reducesTo_S10000x40_S10000_d1 : S10000x40.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x40_0_1 : S10000x1.BroadcastsInDim S10000x40 (![0, 1] : Fin 2 → Fin S10000x40.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x40_S10000x40_1_0_0_1_n_n_wf : DotDims.WF S10000x64 S64x40 S10000x40 [1] [0] [0] [1] [] []
  dot_S10000x10000_S10000x40_S10000x40_1_0_0_1_n_n_wf : DotDims.WF S10000x10000 S10000x40 S10000x40 [1] [0] [0] [1] [] []
  dot_S10000x64_S64x16_S10000x16_1_0_0_1_n_n_wf : DotDims.WF S10000x64 S64x16 S10000x16 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf
def dot_S10000x10000_S10000x40_S10000x40_1_0_0_1_n_n : DotDims S10000x10000 S10000x40 S10000x40 where
  lhsContracting := [1]
  rhsContracting := [0]
  lhsNonContracting := [0]
  rhsNonContracting := [1]
  lhsBatch := []
  rhsBatch := []
  wf := dot_S10000x10000_S10000x40_S10000x40_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf

class Facts : Prop extends Facts₀ where

variable [Facts]
-- ==== Proof.Fr.Base.lean ====
/-
  The fused kernel's program, laid out for its frame proof: what the TensorCore's arrays hold when the one kernel
  region is entered (the three bias vectors reshaped to one-row matrices by the host lines before it, everything else
  as launched), each window's block of its array at a grid point, and the schedule of the 2 × 25 grid read in closed
  form. Points 0 … 24 are the first pass over the adjacency matrix (point 0 also forms x · W1), points 25 … 49 the
  second; the log-softmax window stays on block 0 and is left alone through the first pass, the gated-encoder window
  moves with the first pass, then stays on its last block, untouched, through the second, and is written back for
  the last time at the last point.
-/
import proofs.«157386_g86887188398715_cont_sun_m_547_22_alg».proof.Proof.Gen.KernelIdeal.Launch
import proofs.«157386_g86887188398715_cont_sun_m_547_22_alg».proof.Proof.Gen.KernelIdeal.Skeleton
import proofs.«157386_g86887188398715_cont_sun_m_547_22_alg».proof.Proof.Gen.KernelIdeal.Points
import Idealize.ShloMosaic.Lib.Pipeline.FrameBody
import Idealize.ShloMosaic.Lib.Pipeline.FrameSuffix
import Idealize.ShloMosaic.Lib.Pipeline.TableIdle
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the three reshapes of the bias vectors. -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

/-- @main is the three reshapes, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; first | exact hostOps0_sub | exact ⟨hostOps0_sub, trivial⟩)
    (by simp only [List.Forall]; first | exact hostOps0_fresh | exact ⟨hostOps0_fresh, trivial⟩) main_chain

/-! No reshape writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not, for any proof data
    whose array is the entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The body's three branches, decided over the grid -/

/-- First branch (point (0, 0): form x · W1). -/
abbrev cond1 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem hcond1 : ∀ t : Fin cfg0.N, cond1 (grid0.coords t) ↔ t.val = 0 :=
  (by decide +kernel : ∀ t : Fin grid0.N, cond1 (grid0.coords t) ↔ t.val = 0)
/-- Second branch (first pass). -/
abbrev cond2 (i : grid0.Coords) : Prop := k0_cond2 i = 1#1
theorem hcond2 : ∀ t : Fin cfg0.N, cond2 (grid0.coords t) ↔ t.val < 25 :=
  (by decide +kernel : ∀ t : Fin grid0.N, cond2 (grid0.coords t) ↔ t.val < 25)
/-- Third branch (second pass). -/
abbrev cond3 (i : grid0.Coords) : Prop := k0_cond3 i = 1#1
theorem hcond3 : ∀ t : Fin cfg0.N, cond3 (grid0.coords t) ↔ 25 ≤ t.val :=
  (by decide +kernel : ∀ t : Fin grid0.N, cond3 (grid0.coords t) ↔ 25 ≤ t.val)

/-- The second coordinate of a first-pass point is the point's number. -/
theorem coord1_lo : ∀ t : Fin cfg0.N, t.val < 25 → ((grid0.coords t) 1).val = t.val :=
  (by decide +kernel : ∀ t : Fin grid0.N, t.val < 25 → ((grid0.coords t) 1).val = t.val)
/-- Of a second-pass point, the number less 25. -/
theorem coord1_hi : ∀ t : Fin cfg0.N, 25 ≤ t.val → ((grid0.coords t) 1).val = t.val - 25 :=
  (by decide +kernel : ∀ t : Fin grid0.N, 25 ≤ t.val → ((grid0.coords t) 1).val = t.val - 25)

/-! ## Where the two output windows are idle, and when they are written back -/

theorem live_in : ∀ (w : Fin 12), w.val < 10 → ∀ t : Fin cfg0.N, cfg0.idle w (grid0.coords t) = false := by decide +kernel
theorem idle10_lo : ∀ t : Fin cfg0.N, t.val < 25 → cfg0.idle 10 (grid0.coords t) = true := by decide +kernel
theorem live10_hi : ∀ t : Fin cfg0.N, 25 ≤ t.val → cfg0.idle 10 (grid0.coords t) = false := by decide +kernel
theorem live11_lo : ∀ t : Fin cfg0.N, t.val < 25 → cfg0.idle 11 (grid0.coords t) = false := by decide +kernel
theorem idle11_hi : ∀ t : Fin cfg0.N, 25 ≤ t.val → cfg0.idle 11 (grid0.coords t) = true := by decide +kernel
theorem flush10 : ∀ t : Fin cfg0.N, (cfg0.win 10).flush t = decide (25 ≤ t.val) :=
  (by decide +kernel : ∀ t : Fin grid0.N, win0_10.flush t = decide (25 ≤ t.val))
theorem flush11 : ∀ t : Fin cfg0.N, (cfg0.win 11).flush t = decide (t.val < 24 ∨ t.val = 49) :=
  (by decide +kernel : ∀ t : Fin grid0.N, win0_11.flush t = decide (t.val < 24 ∨ t.val = 49))
/-- The log-softmax window's block at a second-pass point, the gated-encoder window's at a first-pass point. -/
theorem index10_hi : ∀ t : Fin cfg0.N, 25 ≤ t.val → win0_10.index t (0 : Fin 2) = t.val - 25 ∧ win0_10.index t (1 : Fin 2) = 0 :=
  (by decide +kernel : ∀ t : Fin grid0.N, 25 ≤ t.val → win0_10.index t (0 : Fin 2) = t.val - 25 ∧ win0_10.index t (1 : Fin 2) = 0)
theorem index11 : ∀ t : Fin cfg0.N, win0_11.index t (0 : Fin 2) = min t.val 24 ∧ win0_11.index t (1 : Fin 2) = 0 :=
  (by decide +kernel : ∀ t : Fin grid0.N, win0_11.index t (0 : Fin 2) = min t.val 24 ∧ win0_11.index t (1 : Fin 2) = 0)
theorem index9 : ∀ t : Fin cfg0.N, win0_9.index t (0 : Fin 2) = min t.val 24 ∧ win0_9.index t (1 : Fin 2) = 0 :=
  (by decide +kernel : ∀ t : Fin grid0.N, win0_9.index t (0 : Fin 2) = min t.val 24 ∧ win0_9.index t (1 : Fin 2) = 0)
theorem index0 : ∀ t : Fin cfg0.N, win0_0.index t (0 : Fin 2) = 2 * (t.val % 25) ∧ win0_0.index t (1 : Fin 2) = 0 :=
  (by decide +kernel : ∀ t : Fin grid0.N, win0_0.index t (0 : Fin 2) = 2 * (t.val % 25) ∧ win0_0.index t (1 : Fin 2) = 0)
theorem index1 : ∀ t : Fin cfg0.N, win0_1.index t (0 : Fin 2) = 2 * (t.val % 25) + 1 ∧ win0_1.index t (1 : Fin 2) = 0 :=
  (by decide +kernel : ∀ t : Fin grid0.N, win0_1.index t (0 : Fin 2) = 2 * (t.val % 25) + 1 ∧ win0_1.index t (1 : Fin 2) = 0)

/-- Whether an output window's buffer holds nothing the body stored when the body runs at position `n`: the
    log-softmax window's through the first pass and after each write-back, -/
theorem fresh10 : ∀ n : Fin 51, cfg0.fresh 10 n.val = true := by decide +kernel
/-- the gated-encoder window's until the first pass ends. -/
theorem fresh11 : ∀ n : Fin 51, cfg0.fresh 11 n.val = decide (n.val ≤ 24 ∨ n.val = 50) := by decide +kernel

/-! ## The staging and scratch memrefs the body is called with -/

abbrev ms0 (t : Fin cfg0.N) : Memref sig .tc .vmem S200x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S200x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S10000x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S64x40 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x40 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S16x64 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x16 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S400x16 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S400x40 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S400x16 .f32 := win0_11.stage (cfg0.slots t 11)
abbrev hs11 (t : Fin cfg0.N) : (ms11 t).IsWhole := hstage0_11 ((cfg0.slots t 11).cast nbuf0_11)
/-- The two scratch arrays: x · W1, and the rows of h · W2 gathered through the first pass. -/
abbrev sc0 : Memref sig .tc .vmem S10000x64 .f32 := Memref.whole cc0_scratch0
abbrev sc1 : Memref sig .tc .vmem S10000x40 .f32 := Memref.whole cc0_scratch1

/-- The core's scoped buffers besides the staging buffers are the two scratch arrays, each owned at some contents. -/
theorem scoped_eq (c : Dev nD) :
    (Pipeline.scopedRest spec0 c : sProp 𝕄)
      = iprop((∃ d, owns (c : Thread nD τ) sc0 fullShare d) ∗ (∃ d, owns (c : Thread nD τ) sc1 fullShare d)) := by
  rw [scopedRest0_eq]; simp only [sc0, sc1, owns_whole]; try rfl

end Cert.KernelIdeal.Fr

end
-- ==== Proof.Fr.RunA.lean ====
/-
  The kernel body at the FIRST point of the grid: it first forms x · W1 from the whole of x and W1 and stores it over
  the whole first scratch array, then does what every first-pass point does, reading that array back. What the stores
  leave is found by running the body.
-/
import proofs.«157386_g86887188398715_cont_sun_m_547_22_alg».proof.Proof.Fr.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body at the first point on whole memrefs: the inputs at their contents, the gated-encoder window's buffer and the
    first scratch array at anything, the second scratch array at contents `xs1`, run to the continuation holding the inputs as
    they were, the window's buffer and the first scratch array with the body's stores written, and the second scratch array
    at `xs1` with the body's two stores written over it. -/
noncomputable def runA (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x40 .f32) (harg7 : arg7.IsWhole) (arg8 : Memref sig .tc .vmem S1x40 .f32) (harg8 : arg8.IsWhole) (arg9 : Memref sig .tc .vmem S16x64 .f32) (harg9 : arg9.IsWhole) (arg10 : Memref sig .tc .vmem S1x16 .f32) (harg10 : arg10.IsWhole) (arg11 : Memref sig .tc .vmem S400x16 .f32) (harg11 : arg11.IsWhole) (arg12 : Memref sig .tc .vmem S400x40 .f32) (harg12 : arg12.IsWhole) (arg13 : Memref sig .tc .vmem S400x16 .f32) (harg13 : arg13.IsWhole) (arg14 : Memref sig .tc .vmem S10000x64 .f32) (harg14 : arg14.IsWhole) (arg15 : Memref sig .tc .vmem S10000x40 .f32) (harg15 : arg15.IsWhole)
    (hc1 : cond1 i) (hc2 : cond2 i) (hc3 : ¬cond3 i)
    (x0 x1 : Vec F S200x10000 .f32) (x2 : Vec F S10000x128 .f32) (x3 : Vec F S128x64 .f32) (x4 : Vec F S1x64 .f32) (x5 : Vec F S64x40 .f32)
    (x7 : Vec F S16x64 .f32) (x8 : Vec F S1x16 .f32) (x9 : Vec F S400x16 .f32) (xs1 : Vec F S10000x40 .f32) :
    Σ' (L11 : List (View.Piece (Elt F) S400x16 .f32)) (LS0 : List (View.Piece (Elt F) S10000x64 .f32)), { LS1 : List (View.Piece (Elt F) S10000x40 .f32) //
      ∀ (d11 : Vec F S400x16 .f32) (ds0 : Vec F S10000x64 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare x5 ∗ owns (c : Thread nD τ) arg9 fullShare x7 ∗ owns (c : Thread nD τ) arg10 fullShare x8
            ∗ owns (c : Thread nD τ) arg11 fullShare x9 ∗ owns (c : Thread nD τ) arg13 fullShare d11
            ∗ owns (c : Thread nD τ) arg14 fullShare ds0 ∗ owns (c : Thread nD τ) arg15 fullShare xs1
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4
                ∗ owns (c : Thread nD τ) arg7 fullShare x5 ∗ owns (c : Thread nD τ) arg9 fullShare x7 ∗ owns (c : Thread nD τ) arg10 fullShare x8
                ∗ owns (c : Thread nD τ) arg11 fullShare x9
                ∗ (∃ f, arg13.view.loc (c : Thread nD τ) ↦[arg13.view.set]{fullShare} arg13.view.writes (Elt F) f L11)
                ∗ (∃ f, arg14.view.loc (c : Thread nD τ) ↦[arg14.view.set]{fullShare} arg14.view.writes (Elt F) f LS0)
                ∗ (arg15.view.loc (c : Thread nD τ) ↦[arg15.view.set]{fullShare} arg15.view.writes (Elt F) (harg15.unread xs1) LS1)) -∗ K ⟨⟩))
          ⊢ wp frame (wpE (defs₀ (F := F)) Variants.none c none) E (cc0__fused i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun d11 ds0 E K => ?run⟩
  case run =>
    simp only [cc0__fused_eq_skeleton]; unfold cc0__fused_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f7, %hf7, H7⟩, ⟨%f8, %hf8, H8⟩, ⟨%f9, %hf9, H9⟩, ⟨%f11, %hf11, H11⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    obtain rfl := harg9.eq_unread hf7; obtain rfl := harg10.eq_unread hf8; obtain rfl := harg11.eq_unread hf9
    obtain rfl := harg15.eq_unread hfs1
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H11]
    · iexists _; iexact H11
    isplitl [HS0]
    · iexists _; iexact HS0
    iexact HS1

end Cert.KernelIdeal.Fr

end
-- ==== Proof.Fr.RunB.lean ====
/-
  The kernel body at a point of the FIRST pass other than the first point: from the two strips of the adjacency
  matrix, x · W1 in the first scratch array, b1, W2, We, be and the block of att, it stores two strips of h · W2 into
  the second scratch array (rows 400 i … 400 i + 399 at point i, the rest of that array left as it was) and the two
  halves of the gated-encoder block. What the stores leave is found by running the body.
-/
import proofs.«157386_g86887188398715_cont_sun_m_547_22_alg».proof.Proof.Fr.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The first-pass body (not the first point) on whole memrefs: the inputs and the first scratch array at their contents, the
    gated-encoder window's buffer at anything, the second scratch array at contents `xs1`, run to the continuation holding
    the inputs and the first scratch as they were, the window's buffer with the body's two stores written, and the second
    scratch array at `xs1` with the body's two stores written over it. -/
noncomputable def runB (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x40 .f32) (harg7 : arg7.IsWhole) (arg8 : Memref sig .tc .vmem S1x40 .f32) (harg8 : arg8.IsWhole) (arg9 : Memref sig .tc .vmem S16x64 .f32) (harg9 : arg9.IsWhole) (arg10 : Memref sig .tc .vmem S1x16 .f32) (harg10 : arg10.IsWhole) (arg11 : Memref sig .tc .vmem S400x16 .f32) (harg11 : arg11.IsWhole) (arg12 : Memref sig .tc .vmem S400x40 .f32) (harg12 : arg12.IsWhole) (arg13 : Memref sig .tc .vmem S400x16 .f32) (harg13 : arg13.IsWhole) (arg14 : Memref sig .tc .vmem S10000x64 .f32) (harg14 : arg14.IsWhole) (arg15 : Memref sig .tc .vmem S10000x40 .f32) (harg15 : arg15.IsWhole)
    (hc1 : ¬cond1 i) (hc2 : cond2 i) (hc3 : ¬cond3 i)
    (x0 x1 : Vec F S200x10000 .f32) (x4 : Vec F S1x64 .f32) (x5 : Vec F S64x40 .f32) (x7 : Vec F S16x64 .f32) (x8 : Vec F S1x16 .f32)
    (x9 : Vec F S400x16 .f32) (xs0 : Vec F S10000x64 .f32) (xs1 : Vec F S10000x40 .f32) :
    Σ' (L11 : List (View.Piece (Elt F) S400x16 .f32)), { LS1 : List (View.Piece (Elt F) S10000x40 .f32) //
      ∀ (d11 : Vec F S400x16 .f32) (E : Set ℕ) (K : PUnit → sProp 𝕄),
        iprop(owns (c : Thread nD τ) arg2 fullShare x0 ∗ owns (c : Thread nD τ) arg3 fullShare x1 ∗ owns (c : Thread nD τ) arg6 fullShare x4
            ∗ owns (c : Thread nD τ) arg7 fullShare x5 ∗ owns (c : Thread nD τ) arg9 fullShare x7 ∗ owns (c : Thread nD τ) arg10 fullShare x8
            ∗ owns (c : Thread nD τ) arg11 fullShare x9 ∗ owns (c : Thread nD τ) arg13 fullShare d11
            ∗ owns (c : Thread nD τ) arg14 fullShare xs0 ∗ owns (c : Thread nD τ) arg15 fullShare xs1
            ∗ (iprop(owns (c : Thread nD τ) arg2 fullShare x0 ∗ owns (c : Thread nD τ) arg3 fullShare x1 ∗ owns (c : Thread nD τ) arg6 fullShare x4
                ∗ owns (c : Thread nD τ) arg7 fullShare x5 ∗ owns (c : Thread nD τ) arg9 fullShare x7 ∗ owns (c : Thread nD τ) arg10 fullShare x8
                ∗ owns (c : Thread nD τ) arg11 fullShare x9
                ∗ (∃ f, arg13.view.loc (c : Thread nD τ) ↦[arg13.view.set]{fullShare} arg13.view.writes (Elt F) f L11)
                ∗ owns (c : Thread nD τ) arg14 fullShare xs0
                ∗ (arg15.view.loc (c : Thread nD τ) ↦[arg15.view.set]{fullShare} arg15.view.writes (Elt F) (harg15.unread xs1) LS1)) -∗ K ⟨⟩))
          ⊢ wp frame (wpE (defs₀ (F := F)) Variants.none c none) E (cc0__fused i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun d11 E K => ?run⟩
  case run =>
    simp only [cc0__fused_eq_skeleton]; unfold cc0__fused_skel
    simp only [k0_part1_eq_skeleton, k0_part2_eq_skeleton]
    unfold owns
    iintro ⟨⟨%f0, %hf0, H0⟩, ⟨%f1, %hf1, H1⟩, ⟨%f4, %hf4, H4⟩, ⟨%f5, %hf5, H5⟩, ⟨%f7, %hf7, H7⟩, ⟨%f8, %hf8, H8⟩, ⟨%f9, %hf9, H9⟩, ⟨%f11, %hf11, H11⟩, ⟨%fs0, %hfs0, HS0⟩, ⟨%fs1, %hfs1, HS1⟩, Hk⟩
    obtain rfl := harg2.eq_unread hf0; obtain rfl := harg3.eq_unread hf1; obtain rfl := harg6.eq_unread hf4; obtain rfl := harg7.eq_unread hf5
    obtain rfl := harg9.eq_unread hf7; obtain rfl := harg10.eq_unread hf8; obtain rfl := harg11.eq_unread hf9
    obtain rfl := harg14.eq_unread hfs0; obtain rfl := harg15.eq_unread hfs1
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact harg6.read_unread _
      iexact H4
    isplitl [H5]
    · iexists _; isplitr; · ipureintro; exact harg7.read_unread _
      iexact H5
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H11]
    · iexists _; iexact H11
    isplitl [HS0]
    · iexists _; isplitr; · ipureintro; exact harg14.read_unread _
      iexact HS0
    iexact HS1

end Cert.KernelIdeal.Fr

end
-- ==== Proof.Fr.RunC.lean ====
/-
  The kernel body at a point of the SECOND pass (none of the first pass's branches taken): from the two strips of the
  adjacency matrix in its first two windows, the bias row b2 and the gathered rows of h · W2 in the second scratch
  array, it stores the two halves of the log-softmax block, rows 0 … 199 and 200 … 399, and touches nothing else.
  What the two stores leave in the block's buffer is found by running the body.
-/
import proofs.«157386_g86887188398715_cont_sun_m_547_22_alg».proof.Proof.Fr.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The second-pass body on whole memrefs: the strips, b2 and the scratch at their contents and the log-softmax window's
    buffer at anything run to the continuation holding them as they were and that buffer with the body's two stores
    written (the pieces, last first, are what the run finds). -/
noncomputable def runC (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x40 .f32) (harg7 : arg7.IsWhole) (arg8 : Memref sig .tc .vmem S1x40 .f32) (harg8 : arg8.IsWhole) (arg9 : Memref sig .tc .vmem S16x64 .f32) (harg9 : arg9.IsWhole) (arg10 : Memref sig .tc .vmem S1x16 .f32) (harg10 : arg10.IsWhole) (arg11 : Memref sig .tc .vmem S400x16 .f32) (harg11 : arg11.IsWhole) (arg12 : Memref sig .tc .vmem S400x40 .f32) (harg12 : arg12.IsWhole) (arg13 : Memref sig .tc .vmem S400x16 .f32) (harg13 : arg13.IsWhole) (arg14 : Memref sig .tc .vmem S10000x64 .f32) (harg14 : arg14.IsWhole) (arg15 : Memref sig .tc .vmem S10000x40 .f32) (harg15 : arg15.IsWhole)
    (hc1 : ¬cond1 i) (hc2 : ¬cond2 i) (hc3 : cond3 i)
    (x0 x1 : Vec F S200x10000 .f32) (x6 : Vec F S1x40 .f32) (xs1 : Vec F S10000x40 .f32) :
    { L10 : List (View.Piece (Elt F) S400x40 .f32) //
      ∀ (d10 : Vec F S400x40 .f32) (E : Set ℕ) (K : PUnit → sProp 𝕄),
        iprop(owns (c : Thread nD τ) arg2 fullShare x0 ∗ owns (c : Thread nD τ) arg3 fullShare x1 ∗ owns (c : Thread nD τ) arg8 fullShare x6
            ∗ owns (c : Thread nD τ) arg12 fullShare d10 ∗ owns (c : Thread nD τ) arg15 fullShare xs1
            ∗ (iprop(owns (c : Thread nD τ) arg2 fullShare x0 ∗ owns (c : Thread nD τ) arg3 fullShare x1 ∗ owns (c : Thread nD τ) arg8 fullShare x6
                ∗ (∃ f, arg12.view.loc (c : Thread nD τ) ↦[arg12.view.set]{fullShare} arg12.view.writes (Elt F) f L10)
                ∗ owns (c : Thread nD τ) arg15 fullShare xs1) -∗ K ⟨⟩))
          ⊢ wp frame (wpE (defs₀ (F := F)) Variants.none c none) E (cc0__fused i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun d10 E K => ?run⟩
  case run =>
    simp only [cc0__fused_eq_skeleton]; unfold cc0__fused_skel
    simp only [k0_part1_eq_skeleton, k0_part2_eq_skeleton]
    unfold owns
    iintro ⟨⟨%f0, %hf0, H0⟩, ⟨%f1, %hf1, H1⟩, ⟨%f6, %hf6, H6⟩, ⟨%f10, %hf10, H10⟩, ⟨%fs1, %hfs1, HS1⟩, Hk⟩
    obtain rfl := harg2.eq_unread hf0; obtain rfl := harg3.eq_unread hf1; obtain rfl := harg8.eq_unread hf6; obtain rfl := harg15.eq_unread hfs1
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H6]
    · iexists _; isplitr; · ipureintro; exact harg8.read_unread _
      iexact H6
    isplitl [H10]
    · iexists _; iexact H10
    iexists _; isplitr; · ipureintro; exact harg15.read_unread _
    iexact HS1

end Cert.KernelIdeal.Fr

end
-- ==== Proof.Fr.Pieces.lean ====
/-
  What the body's stores are, case by case, in closed form. Every store of the kernel is one of: a half (rows 0 … 199 or
  200 … 399) of the 400-row block of the log-softmax window or of the gated-encoder window; the whole first scratch
  array; two 200-row strips of the second scratch array at rows 400 i and 400 i + 200 of point i. The values stored
  are the kernel's own arithmetic of the blocks it loaded: the second strip's through the strip's own matrix product
  with x · W1, the first's directly.
-/
import proofs.«157386_g86887188398715_cont_sun_m_547_22_alg».proof.Proof.Fr.RunA
import proofs.«157386_g86887188398715_cont_sun_m_547_22_alg».proof.Proof.Fr.RunB
import proofs.«157386_g86887188398715_cont_sun_m_547_22_alg».proof.Proof.Fr.RunC
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the body stores through -/

abbrev rTop16 : Rect S400x16 := Rect.unit (s := S400x16) ![0, 0] S200x16.size inb_S400x16_S200x16_0_0
abbrev rBot16 : Rect S400x16 := Rect.unit (s := S400x16) ![200, 0] S200x16.size inb_S400x16_S200x16_200_0
abbrev rTop40 : Rect S400x40 := Rect.unit (s := S400x40) ![0, 0] S200x40.size inb_S400x40_S200x40_0_0
abbrev rBot40 : Rect S400x40 := Rect.unit (s := S400x40) ![200, 0] S200x40.size inb_S400x40_S200x40_200_0
abbrev rS1 : Rect S10000x64 := Rect.unit (s := S10000x64) ![0, 0] S10000x64.size inb_S10000x64_S10000x64_0_0
/-- Rows 400 i … 400 i + 199 of the second scratch array at a first-pass point with second coordinate i, -/
abbrev rS2a (i : grid0.Coords) (h2 : cond2 i) : Rect S10000x40 :=
  Rect.unit (s := S10000x40) (k0_off1 i 0#32) S200x40.size (k0_off1_inb i h2 0)
/-- and rows 400 i + 200 … 400 i + 399. -/
abbrev rS2b (i : grid0.Coords) (h2 : cond2 i) : Rect S10000x40 :=
  Rect.unit (s := S10000x40) (k0_off1 i 200#32) S200x40.size (k0_off1_inb i h2 1)

theorem hz2 : (![0, 0] : Fin 2 → ℕ) = fun _ => 0 := by funext a; fin_cases a <;> rfl

/-! ## The pieces each case's run found -/

/-- Second pass: the two halves of the log-softmax block. -/
theorem runC_pieces (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x40 .f32) (harg7 : arg7.IsWhole) (arg8 : Memref sig .tc .vmem S1x40 .f32) (harg8 : arg8.IsWhole) (arg9 : Memref sig .tc .vmem S16x64 .f32) (harg9 : arg9.IsWhole) (arg10 : Memref sig .tc .vmem S1x16 .f32) (harg10 : arg10.IsWhole) (arg11 : Memref sig .tc .vmem S400x16 .f32) (harg11 : arg11.IsWhole) (arg12 : Memref sig .tc .vmem S400x40 .f32) (harg12 : arg12.IsWhole) (arg13 : Memref sig .tc .vmem S400x16 .f32) (harg13 : arg13.IsWhole) (arg14 : Memref sig .tc .vmem S10000x64 .f32) (harg14 : arg14.IsWhole) (arg15 : Memref sig .tc .vmem S10000x40 .f32) (harg15 : arg15.IsWhole)
    (hc1 : ¬cond1 i) (hc2 : ¬cond2 i) (hc3 : cond3 i)
    (x0 x1 : Vec F S200x10000 .f32) (x6 : Vec F S1x40 .f32) (xs1 : Vec F S10000x40 .f32) :
    (runC c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 x0 x1 x6 xs1).1
      = [⟨rBot40, k0_pay10 x1 xs1 x6⟩, ⟨rTop40, k0_pay9 x0 xs1 x6⟩] := by
  unfold runC; dsimp only
  sl_unfold_words
  simp only [View.readAt_eq_ld, Memref.IsWhole.read_unread, View.ld_unit_zero (S := S200x10000) hz2, View.ld_unit_zero (S := S10000x40) hz2, View.ld_unit_zero (S := S1x40) hz2]
  (try rfl)

/-- First pass, not the first point: the two halves of the gated-encoder block, -/
theorem runB_pieces11 (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x40 .f32) (harg7 : arg7.IsWhole) (arg8 : Memref sig .tc .vmem S1x40 .f32) (harg8 : arg8.IsWhole) (arg9 : Memref sig .tc .vmem S16x64 .f32) (harg9 : arg9.IsWhole) (arg10 : Memref sig .tc .vmem S1x16 .f32) (harg10 : arg10.IsWhole) (arg11 : Memref sig .tc .vmem S400x16 .f32) (harg11 : arg11.IsWhole) (arg12 : Memref sig .tc .vmem S400x40 .f32) (harg12 : arg12.IsWhole) (arg13 : Memref sig .tc .vmem S400x16 .f32) (harg13 : arg13.IsWhole) (arg14 : Memref sig .tc .vmem S10000x64 .f32) (harg14 : arg14.IsWhole) (arg15 : Memref sig .tc .vmem S10000x40 .f32) (harg15 : arg15.IsWhole)
    (hc1 : ¬cond1 i) (hc2 : cond2 i) (hc3 : ¬cond3 i)
    (x0 x1 : Vec F S200x10000 .f32) (x4 : Vec F S1x64 .f32) (x5 : Vec F S64x40 .f32) (x7 : Vec F S16x64 .f32) (x8 : Vec F S1x16 .f32)
    (x9 : Vec F S400x16 .f32) (xs0 : Vec F S10000x64 .f32) (xs1 : Vec F S10000x40 .f32) :
    (runB c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 x0 x1 x4 x5 x7 x8 x9 xs0 xs1).1
      = [⟨rBot16, k0_pay4 (k0_pay8 x1 xs0) x4 x7 x8 (View.ld x9 rBot16)⟩, ⟨rTop16, k0_pay7 x0 xs0 x4 x7 x8 (View.ld x9 rTop16)⟩] := by
  unfold runB; dsimp only
  sl_unfold_words
  simp only [View.readAt_eq_ld, Memref.IsWhole.read_unread, View.ld_unit_zero (S := S200x10000) hz2, View.ld_unit_zero (S := S10000x64) hz2, View.ld_unit_zero (S := S1x64) hz2, View.ld_unit_zero (S := S64x40) hz2, View.ld_unit_zero (S := S16x64) hz2, View.ld_unit_zero (S := S1x16) hz2, View.ld_unit_zero (S := S10000x40) hz2]
  (try rfl)

/-- and the two strips of the second scratch array. -/
theorem runB_piecesS1 (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x40 .f32) (harg7 : arg7.IsWhole) (arg8 : Memref sig .tc .vmem S1x40 .f32) (harg8 : arg8.IsWhole) (arg9 : Memref sig .tc .vmem S16x64 .f32) (harg9 : arg9.IsWhole) (arg10 : Memref sig .tc .vmem S1x16 .f32) (harg10 : arg10.IsWhole) (arg11 : Memref sig .tc .vmem S400x16 .f32) (harg11 : arg11.IsWhole) (arg12 : Memref sig .tc .vmem S400x40 .f32) (harg12 : arg12.IsWhole) (arg13 : Memref sig .tc .vmem S400x16 .f32) (harg13 : arg13.IsWhole) (arg14 : Memref sig .tc .vmem S10000x64 .f32) (harg14 : arg14.IsWhole) (arg15 : Memref sig .tc .vmem S10000x40 .f32) (harg15 : arg15.IsWhole)
    (hc1 : ¬cond1 i) (hc2 : cond2 i) (hc3 : ¬cond3 i)
    (x0 x1 : Vec F S200x10000 .f32) (x4 : Vec F S1x64 .f32) (x5 : Vec F S64x40 .f32) (x7 : Vec F S16x64 .f32) (x8 : Vec F S1x16 .f32)
    (x9 : Vec F S400x16 .f32) (xs0 : Vec F S10000x64 .f32) (xs1 : Vec F S10000x40 .f32) :
    (runB c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 x0 x1 x4 x5 x7 x8 x9 xs0 xs1).2.1
      = [⟨rS2b i hc2, k0_pay3 (k0_pay8 x1 xs0) x4 x5⟩, ⟨rS2a i hc2, k0_pay6 x0 xs0 x4 x5⟩] := by
  unfold runB; dsimp only
  sl_unfold_words
  simp only [View.readAt_eq_ld, Memref.IsWhole.read_unread, View.ld_unit_zero (S := S200x10000) hz2, View.ld_unit_zero (S := S10000x64) hz2, View.ld_unit_zero (S := S1x64) hz2, View.ld_unit_zero (S := S64x40) hz2, View.ld_unit_zero (S := S16x64) hz2, View.ld_unit_zero (S := S1x16) hz2, View.ld_unit_zero (S := S10000x40) hz2]
  (try rfl)

/-- First point: the same with x · W1 just formed, -/
theorem runA_pieces11 (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x40 .f32) (harg7 : arg7.IsWhole) (arg8 : Memref sig .tc .vmem S1x40 .f32) (harg8 : arg8.IsWhole) (arg9 : Memref sig .tc .vmem S16x64 .f32) (harg9 : arg9.IsWhole) (arg10 : Memref sig .tc .vmem S1x16 .f32) (harg10 : arg10.IsWhole) (arg11 : Memref sig .tc .vmem S400x16 .f32) (harg11 : arg11.IsWhole) (arg12 : Memref sig .tc .vmem S400x40 .f32) (harg12 : arg12.IsWhole) (arg13 : Memref sig .tc .vmem S400x16 .f32) (harg13 : arg13.IsWhole) (arg14 : Memref sig .tc .vmem S10000x64 .f32) (harg14 : arg14.IsWhole) (arg15 : Memref sig .tc .vmem S10000x40 .f32) (harg15 : arg15.IsWhole)
    (hc1 : cond1 i) (hc2 : cond2 i) (hc3 : ¬cond3 i)
    (x0 x1 : Vec F S200x10000 .f32) (x2 : Vec F S10000x128 .f32) (x3 : Vec F S128x64 .f32) (x4 : Vec F S1x64 .f32) (x5 : Vec F S64x40 .f32)
    (x7 : Vec F S16x64 .f32) (x8 : Vec F S1x16 .f32) (x9 : Vec F S400x16 .f32) (xs1 : Vec F S10000x40 .f32) :
    (runA c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 x0 x1 x2 x3 x4 x5 x7 x8 x9 xs1).1
      = [⟨rBot16, k0_pay4 (k0_pay8 x1 (k0_pay1 x2 x3)) x4 x7 x8 (View.ld x9 rBot16)⟩, ⟨rTop16, k0_pay7 x0 (k0_pay1 x2 x3) x4 x7 x8 (View.ld x9 rTop16)⟩] := by
  unfold runA; dsimp only
  sl_unfold_words
  simp only [View.readAt_eq_ld, Memref.IsWhole.read_unread, View.readCov_unit_zero (S := S10000x64) _ hz2, View.ld_unit_zero (S := S200x10000) hz2, View.ld_unit_zero (S := S10000x128) hz2, View.ld_unit_zero (S := S128x64) hz2, View.ld_unit_zero (S := S10000x64) hz2, View.ld_unit_zero (S := S1x64) hz2, View.ld_unit_zero (S := S64x40) hz2, View.ld_unit_zero (S := S16x64) hz2, View.ld_unit_zero (S := S1x16) hz2, View.ld_unit_zero (S := S10000x40) hz2]
  (try rfl)

/-- the whole first scratch array, -/
theorem runA_piecesS0 (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x40 .f32) (harg7 : arg7.IsWhole) (arg8 : Memref sig .tc .vmem S1x40 .f32) (harg8 : arg8.IsWhole) (arg9 : Memref sig .tc .vmem S16x64 .f32) (harg9 : arg9.IsWhole) (arg10 : Memref sig .tc .vmem S1x16 .f32) (harg10 : arg10.IsWhole) (arg11 : Memref sig .tc .vmem S400x16 .f32) (harg11 : arg11.IsWhole) (arg12 : Memref sig .tc .vmem S400x40 .f32) (harg12 : arg12.IsWhole) (arg13 : Memref sig .tc .vmem S400x16 .f32) (harg13 : arg13.IsWhole) (arg14 : Memref sig .tc .vmem S10000x64 .f32) (harg14 : arg14.IsWhole) (arg15 : Memref sig .tc .vmem S10000x40 .f32) (harg15 : arg15.IsWhole)
    (hc1 : cond1 i) (hc2 : cond2 i) (hc3 : ¬cond3 i)
    (x0 x1 : Vec F S200x10000 .f32) (x2 : Vec F S10000x128 .f32) (x3 : Vec F S128x64 .f32) (x4 : Vec F S1x64 .f32) (x5 : Vec F S64x40 .f32)
    (x7 : Vec F S16x64 .f32) (x8 : Vec F S1x16 .f32) (x9 : Vec F S400x16 .f32) (xs1 : Vec F S10000x40 .f32) :
    (runA c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 x0 x1 x2 x3 x4 x5 x7 x8 x9 xs1).2.1 = [⟨rS1, k0_pay1 x2 x3⟩] := by
  unfold runA; dsimp only
  sl_unfold_words
  simp only [View.readAt_eq_ld, Memref.IsWhole.read_unread, View.readCov_unit_zero (S := S10000x64) _ hz2, View.ld_unit_zero (S := S200x10000) hz2, View.ld_unit_zero (S := S10000x128) hz2, View.ld_unit_zero (S := S128x64) hz2, View.ld_unit_zero (S := S10000x64) hz2, View.ld_unit_zero (S := S1x64) hz2, View.ld_unit_zero (S := S64x40) hz2, View.ld_unit_zero (S := S16x64) hz2, View.ld_unit_zero (S := S1x16) hz2, View.ld_unit_zero (S := S10000x40) hz2]
  (try rfl)

/-- and the two strips of the second. -/
theorem runA_piecesS1 (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x40 .f32) (harg7 : arg7.IsWhole) (arg8 : Memref sig .tc .vmem S1x40 .f32) (harg8 : arg8.IsWhole) (arg9 : Memref sig .tc .vmem S16x64 .f32) (harg9 : arg9.IsWhole) (arg10 : Memref sig .tc .vmem S1x16 .f32) (harg10 : arg10.IsWhole) (arg11 : Memref sig .tc .vmem S400x16 .f32) (harg11 : arg11.IsWhole) (arg12 : Memref sig .tc .vmem S400x40 .f32) (harg12 : arg12.IsWhole) (arg13 : Memref sig .tc .vmem S400x16 .f32) (harg13 : arg13.IsWhole) (arg14 : Memref sig .tc .vmem S10000x64 .f32) (harg14 : arg14.IsWhole) (arg15 : Memref sig .tc .vmem S10000x40 .f32) (harg15 : arg15.IsWhole)
    (hc1 : cond1 i) (hc2 : cond2 i) (hc3 : ¬cond3 i)
    (x0 x1 : Vec F S200x10000 .f32) (x2 : Vec F S10000x128 .f32) (x3 : Vec F S128x64 .f32) (x4 : Vec F S1x64 .f32) (x5 : Vec F S64x40 .f32)
    (x7 : Vec F S16x64 .f32) (x8 : Vec F S1x16 .f32) (x9 : Vec F S400x16 .f32) (xs1 : Vec F S10000x40 .f32) :
    (runA c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 x0 x1 x2 x3 x4 x5 x7 x8 x9 xs1).2.2.1
      = [⟨rS2b i hc2, k0_pay3 (k0_pay8 x1 (k0_pay1 x2 x3)) x4 x5⟩, ⟨rS2a i hc2, k0_pay6 x0 (k0_pay1 x2 x3) x4 x5⟩] := by
  unfold runA; dsimp only
  sl_unfold_words
  simp only [View.readAt_eq_ld, Memref.IsWhole.read_unread, View.readCov_unit_zero (S := S10000x64) _ hz2, View.ld_unit_zero (S := S200x10000) hz2, View.ld_unit_zero (S := S10000x128) hz2, View.ld_unit_zero (S := S128x64) hz2, View.ld_unit_zero (S := S10000x64) hz2, View.ld_unit_zero (S := S1x64) hz2, View.ld_unit_zero (S := S64x40) hz2, View.ld_unit_zero (S := S16x64) hz2, View.ld_unit_zero (S := S1x16) hz2, View.ld_unit_zero (S := S10000x40) hz2]
  (try rfl)

end Cert.KernelIdeal.Fr

end
-- ==== Proof.Fr.Data.lean ====
/-
  The proof data of the kernel's one pipeline.

  Scratch: after the first point the first scratch array holds x · W1 for good; the second is filled from the top,
  400 rows a point, through the first pass: after point n its rows below 400 (n + 1) are rows of h · W2 (row r from
  the adjacency strip of point r / 400: its first strip for r % 400 < 200, its second otherwise) and the rest is
  whatever the array held at entry, which nobody reads; from point 24 on it is h · W2 whole.
  Windows: an input's buffer holds its block; the log-softmax window's buffer holds, after a second-pass point, the two
  halves computed from that point's strips and the whole of h · W2; the gated-encoder window's holds, after a first-pass
  point, the two halves computed from that point's strips, x · W1 and the block of att, and through the second pass
  what the last first-pass point left there.
-/
import proofs.«157386_g86887188398715_cont_sun_m_547_22_alg».proof.Proof.Fr.Pieces
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-! ## Points -/

/-- The grid's first point. -/
abbrev t0 : Fin cfg0.N := ⟨0, by decide⟩
/-- Point `n` of the first pass. -/
abbrev pt (n : Fin 25) : Fin cfg0.N := ⟨n.val, by have := n.isLt; have h : cfg0.N = 50 := N_0; omega⟩
/-- A point, held at the last first-pass point once the first pass is over. -/
abbrev clamp24 (t : Fin cfg0.N) : Fin cfg0.N := ⟨min t.val 24, by have h : cfg0.N = 50 := N_0; omega⟩

/-! ## The scratch arrays -/

/-- x · W1, as the first point forms it from the whole blocks of x and W1. -/
def S1 (c : Dev nD) : Vec F S10000x64 .f32 := k0_pay1 (iblk m c 2 t0) (iblk m c 3 t0)

/-- Rows 400 n … 400 n + 199 of h · W2: from the first strip of point n, -/
def s2Top (c : Dev nD) (n : Fin 25) : Vec F S200x40 .f32 :=
  k0_pay6 (iblk m c 0 (pt n)) (S1 m c) (iblk m c 4 (pt n)) (iblk m c 5 (pt n))
/-- and rows 400 n + 200 … 400 n + 399, from its second strip. -/
def s2Bot (c : Dev nD) (n : Fin 25) : Vec F S200x40 .f32 :=
  k0_pay3 (k0_pay8 (iblk m c 1 (pt n)) (S1 m c)) (iblk m c 4 (pt n)) (iblk m c 5 (pt n))

/-- h · W2, all 10000 rows, as the first pass gathers it. -/
def S2 (c : Dev nD) : Vec F S10000x40 .f32 := fun y =>
  if h : (y 0).val % 400 < 200 then
    s2Top m c (⟨(y 0).val / 400, by have h0 : (y 0).val < 10000 := (y 0).isLt; omega⟩ : Fin 25)
      (ix2 (⟨(y 0).val % 400, h⟩ : Fin 200) (y 1))
  else
    s2Bot m c (⟨(y 0).val / 400, by have h0 : (y 0).val < 10000 := (y 0).isLt; omega⟩ : Fin 25)
      (ix2 (⟨(y 0).val % 400 - 200, by have := Nat.mod_lt (y 0).val (show 0 < 400 by decide); omega⟩ : Fin 200) (y 1))

/-! ## The output windows' buffers -/

/-- One staging buffer of each output window, through which its contents are stated (the choice does not matter). -/
abbrev VO10 : View sig .tc .vmem S400x40 .f32 := (Memref.whole cc0_stg10_0 : Memref sig .tc .vmem S400x40 .f32).view
abbrev VO11 : View sig .tc .vmem S400x16 .f32 := (Memref.whole cc0_stg11_0 : Memref sig .tc .vmem S400x16 .f32).view

/-- The two halves a second-pass point stores into the log-softmax block, last first. -/
def L10 (c : Dev nD) (t : Fin cfg0.N) : List (View.Piece (Elt F) S400x40 .f32) :=
  [⟨rBot40, k0_pay10 (iblk m c 1 t) (S2 m c) (iblk m c 6 t)⟩, ⟨rTop40, k0_pay9 (iblk m c 0 t) (S2 m c) (iblk m c 6 t)⟩]
/-- What the log-softmax window's buffer holds after a second-pass point. -/
def out10 (c : Dev nD) (t : Fin cfg0.N) : Vec F S400x40 .f32 := VO10.read (Elt F) (VO10.writes (Elt F) VO10.junk (L10 m c t))

/-- The two halves a first-pass point stores into the gated-encoder block, last first. -/
def L11 (c : Dev nD) (t : Fin cfg0.N) : List (View.Piece (Elt F) S400x16 .f32) :=
  [⟨rBot16, k0_pay4 (k0_pay8 (iblk m c 1 t) (S1 m c)) (iblk m c 4 t) (iblk m c 7 t) (iblk m c 8 t) (View.ld (iblk m c 9 t : Vec F S400x16 .f32) rBot16)⟩,
   ⟨rTop16, k0_pay7 (iblk m c 0 t) (S1 m c) (iblk m c 4 t) (iblk m c 7 t) (iblk m c 8 t) (View.ld (iblk m c 9 t : Vec F S400x16 .f32) rTop16)⟩]
/-- What the gated-encoder window's buffer holds after a point: what the point stored if it is of the first pass, else
    what the last first-pass point stored. -/
def out11 (c : Dev nD) (t : Fin cfg0.N) : Vec F S400x16 .f32 :=
  VO11.read (Elt F) (VO11.writes (Elt F) VO11.junk (L11 m c (clamp24 t)))

/-- Two halves cover a 400-row block. -/
theorem cover40 (p1 p0 : Vec F S200x40 .f32) (y : S400x40.Idx) :
    ∃ pc ∈ ([⟨rBot40, p1⟩, ⟨rTop40, p0⟩] : List (View.Piece (Elt F) S400x40 .f32)), y ∈ pc.1.set :=
  View.cover_of_tiledL [⟨rBot40, p1⟩, ⟨rTop40, p0⟩] S200x40.size (by sl_kernel_rfl) y
theorem cover16 (p1 p0 : Vec F S200x16 .f32) (y : S400x16.Idx) :
    ∃ pc ∈ ([⟨rBot16, p1⟩, ⟨rTop16, p0⟩] : List (View.Piece (Elt F) S400x16 .f32)), y ∈ pc.1.set :=
  View.cover_of_tiledL [⟨rBot16, p1⟩, ⟨rTop16, p0⟩] S200x16.size (by sl_kernel_rfl) y
/-- The one whole-array store covers the first scratch array. -/
theorem coverS1 (p : Vec F S10000x64 .f32) (y : S10000x64.Idx) :
    ∃ pc ∈ ([⟨rS1, p⟩] : List (View.Piece (Elt F) S10000x64 .f32)), y ∈ pc.1.set :=
  ⟨_, List.mem_singleton_self _, View.mem_set_unit_zero hz2 inb_S10000x64_S10000x64_0_0 y⟩

/-! ## The invariant between points -/

/-- Before position `n`: at the region's entry both scratch arrays hold anything; afterwards the first holds x · W1 and
    the second's rows below 400 n are rows of h · W2. -/
def PhiS (c : Dev nD) : (n : ℕ) → n ≤ cfg0.N → sProp 𝕄
  | 0, _ => iprop((∃ d, owns (c : Thread nD τ) sc0 fullShare d) ∗ (∃ d, owns (c : Thread nD τ) sc1 fullShare d))
  | n + 1, _ => iprop(owns (c : Thread nD τ) sc0 fullShare (S1 m c)
      ∗ (∃ s2 : Vec F S10000x40 .f32, ⌜∀ y : S10000x40.Idx, (y 0).val < 400 * (n + 1) → s2 y = S2 m c y⌝ ∗ owns (c : Thread nD τ) sc1 fullShare s2))

theorem PhiS_zero (c : Dev nD) (n : ℕ) (h : n ≤ cfg0.N) (hz : n = 0) :
    PhiS m c n h = iprop((∃ d, owns (c : Thread nD τ) sc0 fullShare d) ∗ (∃ d, owns (c : Thread nD τ) sc1 fullShare d)) := by
  subst hz; rfl
theorem PhiS_succ (c : Dev nD) (n : ℕ) (hn : n < cfg0.N) :
    PhiS m c (n + 1) hn = iprop(owns (c : Thread nD τ) sc0 fullShare (S1 m c)
      ∗ (∃ s2 : Vec F S10000x40 .f32, ⌜∀ y : S10000x40.Idx, (y 0).val < 400 * (n + 1) → s2 y = S2 m c y⌝ ∗ owns (c : Thread nD τ) sc1 fullShare s2)) := rfl
theorem PhiS_pos (c : Dev nD) (n : ℕ) (h : n ≤ cfg0.N) (hz : n ≠ 0) :
    PhiS m c n h = iprop(owns (c : Thread nD τ) sc0 fullShare (S1 m c)
      ∗ (∃ s2 : Vec F S10000x40 .f32, ⌜∀ y : S10000x40.Idx, (y 0).val < 400 * n → s2 y = S2 m c y⌝ ∗ owns (c : Thread nD τ) sc1 fullShare s2)) := by
  cases n with
  | zero => exact absurd rfl hz
  | succ n => rfl

/-! ## The pipeline's proof data -/

/-- The arrays as the region finds them; after the body at a point each input's buffer at its block, the two outputs' at
    `out10` / `out11`; the invariant above; nothing owed; the adjacency matrix, which two windows read, held half by each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out10 m c t
    | ⟨11, _⟩ => out11 m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = out10 m c t := by dsimp only [dats]
theorem after11 (c : Dev nD) (t : Fin cfg0.N) : (dats m 0 c).after 11 t = out11 m c t := by dsimp only [dats]

/-! Each input's current staging buffer holds its block at every point. -/
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d

/-- The log-softmax window's buffer holds nothing the body stored whenever the body runs: it is written back after
    every point that stores into it. -/
theorem before10 (c : Dev nD) (t : Fin cfg0.N) (d) : (dats m 0 c).before 10 t d = d := by
  have h := (dats m 0 c).before_out_traj 10 rfl (fun _ _ => rfl)
    (fun t' _ _ hfr => absurd (fresh10 ⟨t'.val, by have := t'.isLt; have h : cfg0.N = 50 := N_0; omega⟩) (by rw [hfr]; exact Bool.false_ne_true)) t.val t rfl d
  rw [h, if_pos (fresh10 ⟨t.val, by have := t.isLt; have h : cfg0.N = 50 := N_0; omega⟩)]

/-- The gated-encoder window's buffer through the second pass holds what the point before left. -/
theorem before11_hi (c : Dev nD) (t : Fin cfg0.N) (ht : 25 ≤ t.val) (d) :
    (dats m 0 c).before 11 t d = out11 m c t := by
  have hN : cfg0.N = 50 := N_0
  have h := (dats m 0 c).before_out_traj 11 rfl (fun _ _ => rfl)
    (fun t' ht0 hi _ => by
      rw [after11, after11]
      have h25 : 25 ≤ t'.val := by
        by_contra hlt
        have := live11_lo t' (by omega)
        rw [this] at hi; exact Bool.false_ne_true hi
      unfold out11
      have e : clamp24 t' = clamp24 (⟨t'.val - 1, by omega⟩ : Fin cfg0.N) := Fin.ext (by show min t'.val 24 = min (t'.val - 1) 24; omega)
      rw [e]) t.val t rfl d
  have hfr' : cfg0.fresh 11 t.val = false :=
    (fresh11 ⟨t.val, by have := t.isLt; omega⟩).trans
      (decide_eq_false (show ¬(t.val ≤ 24 ∨ t.val = 50) by have := t.isLt; omega))
  rw [h, hfr', if_neg Bool.false_ne_true, after11]
  unfold out11
  have e : clamp24 (⟨t.val - 1, by have := t.isLt; omega⟩ : Fin cfg0.N) = clamp24 t := Fin.ext (by show min (t.val - 1) 24 = min t.val 24; omega)
  rw [e]

end Cert.KernelIdeal.Fr

end
-- ==== Proof.Fr.S2Step.lean ====
/-
  One first-pass point's two stores into the second scratch array, read back: rows below 400 t keep what they held,
  rows 400 t … 400 t + 399 become rows of h · W2; so if the rows below 400 t were rows of h · W2 before point t, the
  rows below 400 (t + 1) are after it.
-/
import proofs.«157386_g86887188398715_cont_sun_m_547_22_alg».proof.Proof.Fr.Data
import Idealize.ShloMosaic.Lib.WritesUnit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The first strip of first-pass point t starts at row 400 t, -/
theorem offTop (t : Fin cfg0.N) (hlt : t.val < 25) : k0_off1 (grid0.coords t) 0#32 = ![400 * t.val, 0] := by
  have h := k0_off1_eq (grid0.coords t) (⟨0, by decide⟩ : Fin 2)
  rw [coord1_lo t hlt] at h
  exact h
/-- the second at row 400 t + 200. -/
theorem offBot (t : Fin cfg0.N) (hlt : t.val < 25) : k0_off1 (grid0.coords t) 200#32 = ![400 * t.val + 200, 0] := by
  have h := k0_off1_eq (grid0.coords t) (⟨1, by decide⟩ : Fin 2)
  rw [coord1_lo t hlt] at h
  exact h

/-- The second scratch array after point `t` of the first pass, read at a row below 400 (t + 1). -/
theorem s2_step (c : Dev nD) (t : Fin cfg0.N) (hlt : t.val < 25) (h2 : cond2 (grid0.coords t))
    (hw : sc1.IsWhole) (s2 : Vec F S10000x40 .f32)
    (hs2 : ∀ y : S10000x40.Idx, (y 0).val < 400 * t.val → s2 y = S2 m c y)
    (y : S10000x40.Idx) (hy : (y 0).val < 400 * (t.val + 1)) :
    sc1.view.read (Elt F) (sc1.view.writes (Elt F) (hw.unread s2)
        [⟨rS2b (grid0.coords t) h2, k0_pay3 (k0_pay8 (iblk m c 1 t) (S1 m c)) (iblk m c 4 t) (iblk m c 5 t)⟩,
         ⟨rS2a (grid0.coords t) h2, k0_pay6 (iblk m c 0 t) (S1 m c) (iblk m c 4 t) (iblk m c 5 t)⟩]) y
      = S2 m c y := by
  have hy0 : (y 0).val < 10000 := (y 0).isLt
  have ha := offTop t hlt
  have hb := offBot t hlt
  by_cases h1 : (y 0).val < 400 * t.val
  · refine (View.read_writes_cons_rows_of_not_mem (o := 400 * t.val + 200) (W := 200) sc1.view (hw.unread s2) _ _ _ y hb rfl
      (Or.inl (by omega))).trans ?_
    refine (View.read_writes_cons_rows_of_not_mem (o := 400 * t.val) (W := 200) sc1.view (hw.unread s2) _ _ _ y ha rfl
      (Or.inl h1)).trans ?_
    rw [View.writes_nil, hw.read_unread]
    exact hs2 y h1
  · have ept : pt (⟨(y 0).val / 400, by omega⟩ : Fin 25) = t := Fin.ext (by show (y 0).val / 400 = t.val; omega)
    by_cases h3 : (y 0).val < 400 * t.val + 200
    · have hmod : (y 0).val % 400 < 200 := by omega
      refine (View.read_writes_cons_rows_of_not_mem (o := 400 * t.val + 200) (W := 200) sc1.view (hw.unread s2) _ _ _ y hb rfl
        (Or.inl h3)).trans ?_
      refine (View.read_writes_cons_rows_of_mem (o := 400 * t.val) sc1.view (hw.unread s2) _ _ _ y
        (ix2 (⟨(y 0).val - 400 * t.val, by omega⟩ : Fin 200) (y 1)) ha
        (by show (y 0).val = 400 * t.val + ((y 0).val - 400 * t.val); omega) rfl).trans ?_
      unfold S2
      rw [dif_pos hmod]
      unfold s2Top
      rw [ept]
      exact congrArg _ (funext fun a => by
        match a with
        | ⟨0, _⟩ => exact Fin.ext (by show (y 0).val - 400 * t.val = (y 0).val % 400; omega)
        | ⟨1, _⟩ => rfl)
    · have hmod : ¬ (y 0).val % 400 < 200 := by omega
      refine (View.read_writes_cons_rows_of_mem (o := 400 * t.val + 200) sc1.view (hw.unread s2) _ _ _ y
        (ix2 (⟨(y 0).val - (400 * t.val + 200), by omega⟩ : Fin 200) (y 1)) hb
        (by show (y 0).val = 400 * t.val + 200 + ((y 0).val - (400 * t.val + 200)); omega) rfl).trans ?_
      unfold S2
      rw [dif_neg hmod]
      unfold s2Bot
      rw [ept]
      exact congrArg _ (funext fun a => by
        match a with
        | ⟨0, _⟩ => exact Fin.ext (by show (y 0).val - (400 * t.val + 200) = (y 0).val % 400 - 200; omega)
        | ⟨1, _⟩ => rfl)

end Cert.KernelIdeal.Fr

end
-- ==== Proof.Fr.Body.lean ====
/-
  The body obligation: at every grid point the kernel body, handed the invariant and every window's current buffer at what
  it then holds, runs to the invariant of the next point and every buffer at what the proof data says it leaves.
  Three cases. At the first point the body forms x · W1 over the whole first scratch array, then does a first-pass
  point's work. At a first-pass point it stores two strips of h · W2 into the second scratch array, below which that
  array already holds h · W2, and the two halves of the gated-encoder block; the log-softmax window is left as found.
  At a second-pass point the second scratch array is h · W2 whole, the body stores the two halves of the log-softmax
  block, and the gated-encoder window is left as found: it still holds what the last first-pass point stored, which is
  what the grid's last point writes back.
-/
import proofs.«157386_g86887188398715_cont_sun_m_547_22_alg».proof.Proof.Fr.S2Step

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two output windows' write-backs, where the cases need them -/

theorem noflush10_lo : ∀ t : Fin cfg0.N, t.val < 25 → (cfg0.win 10).flush t = false :=
  (by decide +kernel : ∀ t : Fin grid0.N, t.val < 25 → win0_10.flush t = false)
theorem flush11_mid : ∀ t : Fin cfg0.N, 24 ≤ t.val → t.val < 49 → (cfg0.win 11).flush t = false :=
  (by decide +kernel : ∀ t : Fin grid0.N, 24 ≤ t.val → t.val < 49 → win0_11.flush t = false)
theorem flush11_last : ∀ t : Fin cfg0.N, t.val = 49 → (cfg0.win 11).flush t = true :=
  (by decide +kernel : ∀ t : Fin grid0.N, t.val = 49 → win0_11.flush t = true)

/-! An input window is never idle: the body leaves its buffer at its block. -/
theorem leaves_in0 (c : Dev nD) (t : Fin cfg0.N) :
    (dats m 0 c).leavesExact 0 t = owns (c : Thread nD τ) (ms0 t) fullShare (iblk m c 0 t) := by
  unfold Dat.leavesExact; rw [live_in 0 (by decide) t, after0]
theorem leaves_in1 (c : Dev nD) (t : Fin cfg0.N) :
    (dats m 0 c).leavesExact 1 t = owns (c : Thread nD τ) (ms1 t) fullShare (iblk m c 1 t) := by
  unfold Dat.leavesExact; rw [live_in 1 (by decide) t, after1]
theorem leaves_in2 (c : Dev nD) (t : Fin cfg0.N) :
    (dats m 0 c).leavesExact 2 t = owns (c : Thread nD τ) (ms2 t) fullShare (iblk m c 2 t) := by
  unfold Dat.leavesExact; rw [live_in 2 (by decide) t, after2]
theorem leaves_in3 (c : Dev nD) (t : Fin cfg0.N) :
    (dats m 0 c).leavesExact 3 t = owns (c : Thread nD τ) (ms3 t) fullShare (iblk m c 3 t) := by
  unfold Dat.leavesExact; rw [live_in 3 (by decide) t, after3]
theorem leaves_in4 (c : Dev nD) (t : Fin cfg0.N) :
    (dats m 0 c).leavesExact 4 t = owns (c : Thread nD τ) (ms4 t) fullShare (iblk m c 4 t) := by
  unfold Dat.leavesExact; rw [live_in 4 (by decide) t, after4]
theorem leaves_in5 (c : Dev nD) (t : Fin cfg0.N) :
    (dats m 0 c).leavesExact 5 t = owns (c : Thread nD τ) (ms5 t) fullShare (iblk m c 5 t) := by
  unfold Dat.leavesExact; rw [live_in 5 (by decide) t, after5]
theorem leaves_in6 (c : Dev nD) (t : Fin cfg0.N) :
    (dats m 0 c).leavesExact 6 t = owns (c : Thread nD τ) (ms6 t) fullShare (iblk m c 6 t) := by
  unfold Dat.leavesExact; rw [live_in 6 (by decide) t, after6]
theorem leaves_in7 (c : Dev nD) (t : Fin cfg0.N) :
    (dats m 0 c).leavesExact 7 t = owns (c : Thread nD τ) (ms7 t) fullShare (iblk m c 7 t) := by
  unfold Dat.leavesExact; rw [live_in 7 (by decide) t, after7]
theorem leaves_in8 (c : Dev nD) (t : Fin cfg0.N) :
    (dats m 0 c).leavesExact 8 t = owns (c : Thread nD τ) (ms8 t) fullShare (iblk m c 8 t) := by
  unfold Dat.leavesExact; rw [live_in 8 (by decide) t, after8]
theorem leaves_in9 (c : Dev nD) (t : Fin cfg0.N) :
    (dats m 0 c).leavesExact 9 t = owns (c : Thread nD τ) (ms9 t) fullShare (iblk m c 9 t) := by
  unfold Dat.leavesExact; rw [live_in 9 (by decide) t, after9]

/-! ## The obligation at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3, leaves_in4, leaves_in5, leaves_in6, leaves_in7, leaves_in8, leaves_in9]
  have hN : t.val < 50 := lt_of_lt_of_eq t.isLt (show cfg0.N = 50 from N_0)
  by_cases hC : 25 ≤ t.val
  · -- a second-pass point
    have hc1 : ¬cond1 (grid0.coords t) := fun h => by have := (hcond1 t).mp h; omega
    have hc2 : ¬cond2 (grid0.coords t) := fun h => by have := (hcond2 t).mp h; omega
    have hc3 : cond3 (grid0.coords t) := (hcond3 t).mpr hC
    rw [show (dats m 0 c).leavesExact 10 t = owns (c : Thread nD τ) (ms10 t) fullShare (out10 m c t) from by
      unfold Dat.leavesExact; rw [live10_hi t hC, after10]]
    rw [PhiS_castSucc m c t, PhiS_pos m c _ _ (by omega)]
    simp only [before11_hi m c t hC]
    by_cases h49 : t.val = 49
    · rw [show (dats m 0 c).leavesExact 11 t = owns (c : Thread nD τ) (ms11 t) fullShare (out11 m c t) from by
        unfold Dat.leavesExact; rw [idle11_hi t hC, flush11_last t h49, after11]]
      iintro ⟨⟨HS0, ⟨%s2, %hrows, HS1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      have es2 : s2 = S2 m c := funext fun y => hrows y (by have h : (y 0).val < 10000 := (y 0).isLt; omega)
      subst es2
      iapply ((runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) hc1 hc2 hc3 (iblk m c 0 t) (iblk m c 1 t) (iblk m c 6 t) (S2 m c)).2 d10 Set.univ _)
      isplitl [H0]; · iexact H0
      isplitl [H1]; · iexact H1
      isplitl [H6]; · iexact H6
      isplitl [H10]; · iexact H10
      isplitl [HS1]; · iexact HS1
      iintro ⟨H0, H1, H6, ⟨%f10, H10⟩, HS1⟩
      isplitl [HS0 HS1]
      · isplitl [HS0]; · iexact HS0
        iexists (S2 m c); isplitr; · ipureintro; exact fun _ _ => rfl
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; rw [runC_pieces]; exact View.read_writes_of_cover _ _ _ _ _ (cover40 _ _)
      iexact H11
    · rw [Dat.leavesExact_idle (dats m 0 c) 11 t (idle11_hi t hC) (flush11_mid t (by omega) (by omega))]
      simp only [before11_hi m c t hC]
      iintro ⟨⟨HS0, ⟨%s2, %hrows, HS1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      have es2 : s2 = S2 m c := funext fun y => hrows y (by have h : (y 0).val < 10000 := (y 0).isLt; omega)
      subst es2
      iapply ((runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) hc1 hc2 hc3 (iblk m c 0 t) (iblk m c 1 t) (iblk m c 6 t) (S2 m c)).2 d10 Set.univ _)
      isplitl [H0]; · iexact H0
      isplitl [H1]; · iexact H1
      isplitl [H6]; · iexact H6
      isplitl [H10]; · iexact H10
      isplitl [HS1]; · iexact HS1
      iintro ⟨H0, H1, H6, ⟨%f10, H10⟩, HS1⟩
      isplitl [HS0 HS1]
      · isplitl [HS0]; · iexact HS0
        iexists (S2 m c); isplitr; · ipureintro; exact fun _ _ => rfl
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; rw [runC_pieces]; exact View.read_writes_of_cover _ _ _ _ _ (cover40 _ _)
      iexists d11; iexact H11
  · have hlt : t.val < 25 := by omega
    have hc2 : cond2 (grid0.coords t) := (hcond2 t).mpr hlt
    have hc3 : ¬cond3 (grid0.coords t) := fun h => by have := (hcond3 t).mp h; omega
    rw [Dat.leavesExact_idle (dats m 0 c) 10 t (idle10_lo t hlt) (noflush10_lo t hlt)]
    simp only [before10]
    rw [show (dats m 0 c).leavesExact 11 t = owns (c : Thread nD τ) (ms11 t) fullShare (out11 m c t) from by
      unfold Dat.leavesExact; rw [live11_lo t hlt, after11]]
    have hcl : clamp24 t = t := Fin.ext (by show min t.val 24 = t.val; omega)
    by_cases hA : t.val = 0
    · -- the first point
      have hc1 : cond1 (grid0.coords t) := (hcond1 t).mpr hA
      have ht0 : t = t0 := Fin.ext hA
      rw [PhiS_castSucc m c t, PhiS_zero m c _ _ hA]
      iintro ⟨⟨⟨%ds0, HS0⟩, ⟨%ds1, HS1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) hc1 hc2 hc3 (iblk m c 0 t) (iblk m c 1 t) (iblk m c 2 t) (iblk m c 3 t) (iblk m c 4 t) (iblk m c 5 t) (iblk m c 7 t) (iblk m c 8 t) (iblk m c 9 t) ds1).2.2.2 _ ds0 Set.univ _)
      isplitl [H0]; · iexact H0
      isplitl [H1]; · iexact H1
      isplitl [H2]; · iexact H2
      isplitl [H3]; · iexact H3
      isplitl [H4]; · iexact H4
      isplitl [H5]; · iexact H5
      isplitl [H7]; · iexact H7
      isplitl [H8]; · iexact H8
      isplitl [H9]; · iexact H9
      isplitl [H11]; · iexact H11
      isplitl [HS0]; · iexact HS0
      isplitl [HS1]; · iexact HS1
      iintro ⟨H0, H1, H2, H3, H4, H5, H7, H8, H9, ⟨%f11, H11⟩, ⟨%fs0, HS0⟩, HS1⟩
      isplitl [HS0 HS1]
      · isplitl [HS0]
        · unfold owns; iexists _; isplitr
          swap; · iexact HS0
          ipureintro; rw [runA_piecesS0, View.read_writes_eq_canon _ _ _ (coverS1 _), View.canon_unit_zero hz2, ht0]; rfl
        iexists _; isplitr
        swap
        · unfold owns; iexists _; isplitr
          swap; · iexact HS1
          ipureintro; rfl
        ipureintro; intro y hy
        rw [runA_piecesS1]
        subst ht0
        exact s2_step m c t0 hlt hc2 _ ds1 (fun y' hy' => absurd hy' (by omega)) y hy
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists d10; iexact H10
      unfold owns; iexists _; isplitr
      swap; · iexact H11
      ipureintro; rw [runA_pieces11]; unfold out11 L11; rw [hcl]; subst ht0
      exact View.read_writes_of_cover _ _ _ _ _ (cover16 _ _)
    · -- a later first-pass point
      have hc1 : ¬cond1 (grid0.coords t) := fun h => hA ((hcond1 t).mp h)
      rw [PhiS_castSucc m c t, PhiS_pos m c _ _ hA]
      iintro ⟨⟨HS0, ⟨%s2, %hrows, HS1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) hc1 hc2 hc3 (iblk m c 0 t) (iblk m c 1 t) (iblk m c 4 t) (iblk m c 5 t) (iblk m c 7 t) (iblk m c 8 t) (iblk m c 9 t) (S1 m c) s2).2.2 _ Set.univ _)
      isplitl [H0]; · iexact H0
      isplitl [H1]; · iexact H1
      isplitl [H4]; · iexact H4
      isplitl [H5]; · iexact H5
      isplitl [H7]; · iexact H7
      isplitl [H8]; · iexact H8
      isplitl [H9]; · iexact H9
      isplitl [H11]; · iexact H11
      isplitl [HS0]; · iexact HS0
      isplitl [HS1]; · iexact HS1
      iintro ⟨H0, H1, H4, H5, H7, H8, H9, ⟨%f11, H11⟩, HS0, HS1⟩
      isplitl [HS0 HS1]
      · isplitl [HS0]; · iexact HS0
        iexists _; isplitr
        swap
        · unfold owns; iexists _; isplitr
          swap; · iexact HS1
          ipureintro; rfl
        ipureintro; intro y hy
        rw [runB_piecesS1]
        exact s2_step m c t hlt hc2 _ s2 hrows y hy
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists d10; iexact H10
      unfold owns; iexists _; isplitr
      swap; · iexact H11
      ipureintro; rw [runB_pieces11]; unfold out11 L11; rw [hcl]
      exact View.read_writes_of_cover _ _ _ _ _ (cover16 _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Fr

end
-- ==== Proof.Fr.Run.lean ====
/-
  The run of the whole program: the three reshapes, then the kernel region. The adjacency matrix is read through two
  windows, each holding half of it; every other array is held whole by its one window. Every weakly fair execution
  terminates, faults nowhere, leaves the two result arrays at what the pipeline's write-backs make of the proof data, and
  leaves every argument array as it was.
-/
import proofs.«157386_g86887188398715_cont_sun_m_547_22_alg».proof.Proof.Fr.Body
import Idealize.ShloMosaic.Lib.Pipeline.Launch

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's arrays at entry, each a whole buffer at its window's share and at the contents the region finds. -/
theorem arrays_entry (c : Dev nD) :
    (dats m 0 c).arrays ((dats m 0 c).arrAt · 0)
      = bigSep Finset.univ fun w : Fin 12 =>
          (((c : Thread nD τ).loc (Pipeline.arrRef spec0 w)) ↦{(dats m 0 c).share w} V m c (Pipeline.arrRef spec0 w) : sProp 𝕄) := by
  unfold Dat.arrays
  exact bigSep_congr fun w _ => by rw [(arr_whole0 w).set_eq_univ]; rfl

/-- The eleven buffers behind the twelve windows' arrays. -/
theorem arrRef_image :
    Finset.univ.image (Pipeline.arrRef spec0)
      = [main_arg1, main_arg0, main_arg3, main_v0, main_arg5, main_v1, main_arg7, main_v2, main_arg2, main_v3_0, main_v3_1].toFinset := by
  decide

/-- At the region's entry the buffers behind the windows' arrays, each whole, are the pipeline's arrays at the shares the
    proof data names: the adjacency matrix split in two halves, one for each of its windows. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  classical
  rw [arrays_entry, bigSep_W0]
  unfold Pipeline.arrBufs
  rw [bigSep_eq_bigSepL_of_eq _ arrRef_image (by decide)]
  refine (show (iprop((((c : Thread nD τ).loc main_arg1) ↦{fullShare} V m c main_arg1)
      ∗ (((c : Thread nD τ).loc main_arg0) ↦{fullShare} V m c main_arg0)
      ∗ (((c : Thread nD τ).loc main_arg3) ↦{fullShare} V m c main_arg3)
      ∗ (((c : Thread nD τ).loc main_v0) ↦{fullShare} V m c main_v0)
      ∗ (((c : Thread nD τ).loc main_arg5) ↦{fullShare} V m c main_arg5)
      ∗ (((c : Thread nD τ).loc main_v1) ↦{fullShare} V m c main_v1)
      ∗ (((c : Thread nD τ).loc main_arg7) ↦{fullShare} V m c main_arg7)
      ∗ (((c : Thread nD τ).loc main_v2) ↦{fullShare} V m c main_v2)
      ∗ (((c : Thread nD τ).loc main_arg2) ↦{fullShare} V m c main_arg2)
      ∗ (((c : Thread nD τ).loc main_v3_0) ↦{fullShare} V m c main_v3_0)
      ∗ (((c : Thread nD τ).loc main_v3_1) ↦{fullShare} V m c main_v3_1)) : sProp 𝕄) ⊢ (iprop((((c : Thread nD τ).loc main_arg1) ↦{fullShare.left} V m c main_arg1)
      ∗ (((c : Thread nD τ).loc main_arg1) ↦{fullShare.right} V m c main_arg1)
      ∗ (((c : Thread nD τ).loc main_arg0) ↦{fullShare} V m c main_arg0)
      ∗ (((c : Thread nD τ).loc main_arg3) ↦{fullShare} V m c main_arg3)
      ∗ (((c : Thread nD τ).loc main_v0) ↦{fullShare} V m c main_v0)
      ∗ (((c : Thread nD τ).loc main_arg5) ↦{fullShare} V m c main_arg5)
      ∗ (((c : Thread nD τ).loc main_v1) ↦{fullShare} V m c main_v1)
      ∗ (((c : Thread nD τ).loc main_arg7) ↦{fullShare} V m c main_arg7)
      ∗ (((c : Thread nD τ).loc main_v2) ↦{fullShare} V m c main_v2)
      ∗ (((c : Thread nD τ).loc main_arg2) ↦{fullShare} V m c main_arg2)
      ∗ (((c : Thread nD τ).loc main_v3_0) ↦{fullShare} V m c main_v3_0)
      ∗ (((c : Thread nD τ).loc main_v3_1) ↦{fullShare} V m c main_v3_1)) : sProp 𝕄) from ?_)
  iintro ⟨H1, H0, H3, Hv0, H5, Hv1, H7, Hv2, H2, Ho0, Ho1⟩
  -- the adjacency matrix, held whole, is cut in two halves, one for each window that reads it
  ihave H1 := (pointsTo_share (PosShare.mem_left_op_right fullShare)).1 $$ H1
  icases H1 with ⟨H1l, H1r⟩
  isplitl [H1l]; · iexact H1l
  isplitl [H1r]; · iexact H1r
  isplitl [H0]; · iexact H0
  isplitl [H3]; · iexact H3
  isplitl [Hv0]; · iexact Hv0
  isplitl [H5]; · iexact H5
  isplitl [Hv1]; · iexact Hv1
  isplitl [H7]; · iexact H7
  isplitl [Hv2]; · iexact Hv2
  isplitl [H2]; · iexact H2
  isplitl [Ho0]; · iexact Ho0
  iexact Ho1

/-- Before the first point the invariant asks the two scratch arrays at anything: the core's scoped buffers besides the
    staging buffers. -/
theorem phi_entry (c : Dev nD) :
    iprop(emp ∗ Pipeline.scopedRest spec0 c) ⊢ (dats m 0 c).Φ 0 := by
  rw [scoped_eq, show (dats m 0 c).Φ 0 = PhiS m c 0 (Nat.zero_le _) from rfl, PhiS_zero m c 0 _ rfl]
  iintro ⟨-, H⟩; iexact H

/-- After the last point the invariant gives the two scratch arrays back, their contents forgotten. -/
theorem phi_exit (c : Dev nD) :
    (dats m 0 c).Φ (Fin.last cfg0.N) ⊢ iprop(emp ∗ Pipeline.scopedRest spec0 c) := by
  rw [scoped_eq, show (dats m 0 c).Φ (Fin.last cfg0.N) = PhiS m c cfg0.N (Nat.le_refl _) from rfl,
    PhiS_pos m c cfg0.N _ (by rw [show cfg0.N = 50 from N_0]; decide)]
  iintro ⟨H1, %s2, -, H2⟩
  isplitr; · iempintro
  isplitl [H1]
  · iexists _; iexact H1
  · iexists _; iexact H2

/-- THE RUN: every weakly fair execution of @main terminates, nothing faulting; the two results end at the proof data's
    arrays after every write-back, the nine arguments unchanged. -/
theorem run_main : θ_run defs (onTc (τ := τ) (main (F := F))) ⟨m, fun _ => 0, ρ⟩ (fun r => ∀ c : Dev nD,
      r.2.mem ((c.tc : Thread nD τ).loc main_v3_0) = (dats m 0 c).arrAt 10 cfg0.N
      ∧ r.2.mem ((c.tc : Thread nD τ).loc main_v3_1) = (dats m 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj))
    (hu₀ := BI.Entails.refl _)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := phi_entry m) (hout := phi_exit m)
    (QY := fun c s => ∀ b ∈ (Finset.univ.filter fun b : Ref sig .tc => ¬ b.isScoped) \ Finset.univ.image (Pipeline.arrRef spec0),
      s.mem ((c : Thread nD τ).loc b) = V m c b)
    (hY := fun c s' => by
      iintro ⟨-, HU, HSI⟩
      unfold Pipeline.unscopedRest
      imodintro
      iapply (pointsTo_read_all _ (fun b => (c : Thread nD τ).loc b) (V m c) s')
      isplitl [HU] <;> iassumption)
    (hQ := fun s h c =>
      ⟨(h c).1 10, (h c).1 11,
        ((h c).1 2).trans (((dats m 0 c).arrAt_in 2 rfl _).trans ((A_eq m c 2).trans (V_main_arg0 m c))),
        ((h c).1 0).trans (((dats m 0 c).arrAt_in 0 rfl _).trans ((A_eq m c 0).trans (V_main_arg1 m c))),
        ((h c).1 9).trans (((dats m 0 c).arrAt_in 9 rfl _).trans ((A_eq m c 9).trans (V_main_arg2 m c))),
        ((h c).1 3).trans (((dats m 0 c).arrAt_in 3 rfl _).trans ((A_eq m c 3).trans (V_main_arg3 m c))),
        ((h c).2 main_arg4 (by decide)).trans (V_main_arg4 m c),
        ((h c).1 5).trans (((dats m 0 c).arrAt_in 5 rfl _).trans ((A_eq m c 5).trans (V_main_arg5 m c))),
        ((h c).2 main_arg6 (by decide)).trans (V_main_arg6 m c),
        ((h c).1 7).trans (((dats m 0 c).arrAt_in 7 rfl _).trans ((A_eq m c 7).trans (V_main_arg7 m c))),
        ((h c).2 main_arg8 (by decide)).trans (V_main_arg8 m c)⟩)

/-- THE FRAME: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2.2) (run_main m ρ)

end Cert.KernelIdeal.Fr

end
-- ==== Proof.Spec.lean ====
/-
  What the fused kernel computes, as functions of whole arrays.

  The kernel walks the adjacency matrix twice in strips of 200 rows (50 strips). On the first pass strip `r` gives
  the hidden rows  h_r = max(adj_r · (x · W1) + b1, 0),  from which it keeps  h_r · W2  (rows of the second layer's
  support, gathered in a scratch array) and writes the gated encoder rows  sigmoid(h_r · Weᵀ + be) ⊙ att_r.  On the
  second pass strip `r` gives the logits  o_r = adj_r · (h · W2) + b2  and the rows  o_r − max o_r − log Σ exp(o_r − max o_r).
  Each strip's result is a function of that strip of `adj` (and of `att`) and of whole small arrays; the definitions
  below name the strips' results by the kernel's own arithmetic and lay the 50 strips out as the whole result arrays.
-/
import proofs.«157386_g86887188398715_cont_sun_m_547_22_alg».proof.Proof.Gen.KernelIdeal.Skeleton
import Idealize.ShloMosaic.Lib.ValueIdx

noncomputable section

namespace Cert.KernelIdeal.Spec

open Idealize.ShloMosaic Idealize.ShloMosaic.ValueIdx Cert.KernelIdeal Cert.KernelIdeal.Gen

variable {F : FTy → Type} [FloatOps F]

/-- Strip `r` of a 10000-row array: its rows `200 r … 200 r + 199`. -/
def strip {n : Nat} (A : Vec F (⟨2, ![10000, n]⟩ : Shape) .f32) (r : Fin 50) : Vec F (⟨2, ![200, n]⟩ : Shape) .f32 :=
  fun y => A (ix2 (⟨200 * r.val + (y 0).val, by
    have h : (y 0).val < 200 := (y 0).isLt
    have := r.isLt; omega⟩ : Fin 10000) (y 1))

/-- The 10000-row array whose strip `r` is `blk r`: row `i` is row `i % 200` of strip `i / 200`. -/
def ofStrips {n : Nat} (blk : Fin 50 → Vec F (⟨2, ![200, n]⟩ : Shape) .f32) : Vec F (⟨2, ![10000, n]⟩ : Shape) .f32 :=
  fun y => blk (⟨(y 0).val / 200, by
      have h : (y 0).val < 10000 := (y 0).isLt
      omega⟩ : Fin 50)
    (ix2 (⟨(y 0).val % 200, Nat.mod_lt _ (by decide)⟩ : Fin 200) (y 1))

variable (X : Vec F S10000x128 .f32) (ADJ : Vec F S10000x10000 .f32) (ATT : Vec F S10000x16 .f32)
  (W1 : Vec F S128x64 .f32) (B1 : Vec F S1x64 .f32) (W2 : Vec F S64x40 .f32) (B2 : Vec F S1x40 .f32)
  (WE : Vec F S16x64 .f32) (BE : Vec F S1x16 .f32)

/-- The first layer's support, x · W1. -/
def support1 : Vec F S10000x64 .f32 := k0_pay1 X W1

/-- Strip `r` of the second layer's support: h_r · W2 with h_r = max(adj_r · (x · W1) + b1, 0). -/
def support2Strip (r : Fin 50) : Vec F S200x40 .f32 :=
  k0_pay6 (strip ADJ r) (support1 X W1) B1 W2

/-- The second layer's support, h · W2, all 10000 rows. -/
def support2 : Vec F S10000x40 .f32 := ofStrips (support2Strip X ADJ W1 B1 W2)

/-- Strip `r` of the gated encoder output: sigmoid(h_r · Weᵀ + be) ⊙ att_r. -/
def gateStrip (r : Fin 50) : Vec F S200x16 .f32 :=
  k0_pay7 (strip ADJ r) (support1 X W1) B1 WE BE (strip ATT r)

/-- Strip `r` of the log-softmax output: o_r − max o_r − log Σ exp(o_r − max o_r), o_r = adj_r · (h · W2) + b2. -/
def logitsStrip (r : Fin 50) : Vec F S200x40 .f32 :=
  k0_pay9 (strip ADJ r) (support2 X ADJ W1 B1 W2) B2

/-- The gated encoder output, all rows. -/
def gate : Vec F S10000x16 .f32 := ofStrips (gateStrip X ADJ ATT W1 B1 WE BE)

/-- The log-softmax output, all rows. -/
def logits : Vec F S10000x40 .f32 := ofStrips (logitsStrip X ADJ W1 B1 W2 B2)

end Cert.KernelIdeal.Spec

end
-- ==== Proof.Fr.Final.lean ====
/-
  From blocks to arrays. The log-softmax window writes block i − 25 back after second-pass point i, the gated-encoder
  window block i after first-pass point i (its last block after the grid's last point); the blocks tile the result
  arrays, so each result array ends as one function of the region's arrays: the kernel's strip-by-strip results of
  Proof/Spec.lean, read at the region-entry contents of x, adj, att, W1, W2, We and the reshaped b1, b2, be.
-/
import proofs.«157386_g86887188398715_cont_sun_m_547_22_alg».proof.Proof.Fr.Data
import proofs.«157386_g86887188398715_cont_sun_m_547_22_alg».proof.Proof.Spec
import Idealize.ShloMosaic.Lib.Pipeline.Value
import Idealize.ShloMosaic.Lib.StableHlo.Run
import Idealize.ShloMosaic.Lib.WritesUnit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The reshaped bias vectors as the region finds them. -/
theorem V_main_v0 (c : Dev nD) : V m c main_v0 = shapeCast S1x64 (m ((c : Thread nD τ).loc main_arg4)) shapeCasts_S64_S1x64 := by
  dsimp only [V]
  simp only [hostOps0, List.flatten_cons, List.flatten_nil, List.append_nil]
  after_results
  rfl
theorem V_main_v1 (c : Dev nD) : V m c main_v1 = shapeCast S1x40 (m ((c : Thread nD τ).loc main_arg6)) shapeCasts_S40_S1x40 := by
  dsimp only [V]
  simp only [hostOps0, List.flatten_cons, List.flatten_nil, List.append_nil]
  after_results
  rfl
theorem V_main_v2 (c : Dev nD) : V m c main_v2 = shapeCast S1x16 (m ((c : Thread nD τ).loc main_arg8)) shapeCasts_S16_S1x16 := by
  dsimp only [V]
  simp only [hostOps0, List.flatten_cons, List.flatten_nil, List.append_nil]
  after_results
  rfl

/-! ## The input blocks as parts of the arrays

A block's element sits in its array, on each axis, at the block index times the block's size plus the coordinate inside
the block. The small arrays' windows hold the whole array at every point; the two adjacency windows hold strips
2 (t % 25) and 2 (t % 25) + 1; the attention window holds rows 400 min(t, 24) … of its array. -/

/-- The windows over a whole array stay on block (0, 0). -/
theorem index_whole : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0))

theorem iblk2_eq (c : Dev nD) (t : Fin cfg0.N) : (iblk m c 2 t : Vec F S10000x128 .f32) = V m c main_arg0 := by
  have hi := (index_whole t).1
  funext y
  unfold iblk
  rw [View.read_apply]
  show V m c main_arg0 _ = V m c main_arg0 y
  refine congrArg (V m c main_arg0 : S10000x128.Idx → Elt F .f32) (funext fun a => Fin.ext ?_)
  match a with
  | ⟨0, _⟩ => show win0_2.index t (0 : Fin 2) * 10000 + 1 * (y 0).val = (y 0).val; rw [hi.1]; omega
  | ⟨1, _⟩ => show win0_2.index t (1 : Fin 2) * 128 + 1 * (y 1).val = (y 1).val; rw [hi.2]; omega
theorem iblk3_eq (c : Dev nD) (t : Fin cfg0.N) : (iblk m c 3 t : Vec F S128x64 .f32) = V m c main_arg3 := by
  have hi := (index_whole t).2.1
  funext y
  unfold iblk
  rw [View.read_apply]
  show V m c main_arg3 _ = V m c main_arg3 y
  refine congrArg (V m c main_arg3 : S128x64.Idx → Elt F .f32) (funext fun a => Fin.ext ?_)
  match a with
  | ⟨0, _⟩ => show win0_3.index t (0 : Fin 2) * 128 + 1 * (y 0).val = (y 0).val; rw [hi.1]; omega
  | ⟨1, _⟩ => show win0_3.index t (1 : Fin 2) * 64 + 1 * (y 1).val = (y 1).val; rw [hi.2]; omega
theorem iblk4_eq (c : Dev nD) (t : Fin cfg0.N) : (iblk m c 4 t : Vec F S1x64 .f32) = V m c main_v0 := by
  have hi := (index_whole t).2.2.1
  funext y
  unfold iblk
  rw [View.read_apply]
  show V m c main_v0 _ = V m c main_v0 y
  refine congrArg (V m c main_v0 : S1x64.Idx → Elt F .f32) (funext fun a => Fin.ext ?_)
  match a with
  | ⟨0, _⟩ => show win0_4.index t (0 : Fin 2) * 1 + 1 * (y 0).val = (y 0).val; rw [hi.1]; omega
  | ⟨1, _⟩ => show win0_4.index t (1 : Fin 2) * 64 + 1 * (y 1).val = (y 1).val; rw [hi.2]; omega
theorem iblk5_eq (c : Dev nD) (t : Fin cfg0.N) : (iblk m c 5 t : Vec F S64x40 .f32) = V m c main_arg5 := by
  have hi := (index_whole t).2.2.2.1
  funext y
  unfold iblk
  rw [View.read_apply]
  show V m c main_arg5 _ = V m c main_arg5 y
  refine congrArg (V m c main_arg5 : S64x40.Idx → Elt F .f32) (funext fun a => Fin.ext ?_)
  match a with
  | ⟨0, _⟩ => show win0_5.index t (0 : Fin 2) * 64 + 1 * (y 0).val = (y 0).val; rw [hi.1]; omega
  | ⟨1, _⟩ => show win0_5.index t (1 : Fin 2) * 40 + 1 * (y 1).val = (y 1).val; rw [hi.2]; omega
theorem iblk6_eq (c : Dev nD) (t : Fin cfg0.N) : (iblk m c 6 t : Vec F S1x40 .f32) = V m c main_v1 := by
  have hi := (index_whole t).2.2.2.2.1
  funext y
  unfold iblk
  rw [View.read_apply]
  show V m c main_v1 _ = V m c main_v1 y
  refine congrArg (V m c main_v1 : S1x40.Idx → Elt F .f32) (funext fun a => Fin.ext ?_)
  match a with
  | ⟨0, _⟩ => show win0_6.index t (0 : Fin 2) * 1 + 1 * (y 0).val = (y 0).val; rw [hi.1]; omega
  | ⟨1, _⟩ => show win0_6.index t (1 : Fin 2) * 40 + 1 * (y 1).val = (y 1).val; rw [hi.2]; omega
theorem iblk7_eq (c : Dev nD) (t : Fin cfg0.N) : (iblk m c 7 t : Vec F S16x64 .f32) = V m c main_arg7 := by
  have hi := (index_whole t).2.2.2.2.2.1
  funext y
  unfold iblk
  rw [View.read_apply]
  show V m c main_arg7 _ = V m c main_arg7 y
  refine congrArg (V m c main_arg7 : S16x64.Idx → Elt F .f32) (funext fun a => Fin.ext ?_)
  match a with
  | ⟨0, _⟩ => show win0_7.index t (0 : Fin 2) * 16 + 1 * (y 0).val = (y 0).val; rw [hi.1]; omega
  | ⟨1, _⟩ => show win0_7.index t (1 : Fin 2) * 64 + 1 * (y 1).val = (y 1).val; rw [hi.2]; omega
theorem iblk8_eq (c : Dev nD) (t : Fin cfg0.N) : (iblk m c 8 t : Vec F S1x16 .f32) = V m c main_v2 := by
  have hi := (index_whole t).2.2.2.2.2.2
  funext y
  unfold iblk
  rw [View.read_apply]
  show V m c main_v2 _ = V m c main_v2 y
  refine congrArg (V m c main_v2 : S1x16.Idx → Elt F .f32) (funext fun a => Fin.ext ?_)
  match a with
  | ⟨0, _⟩ => show win0_8.index t (0 : Fin 2) * 1 + 1 * (y 0).val = (y 0).val; rw [hi.1]; omega
  | ⟨1, _⟩ => show win0_8.index t (1 : Fin 2) * 16 + 1 * (y 1).val = (y 1).val; rw [hi.2]; omega

/-- The first adjacency window's block at point t, element by element: rows 200 · 2 (t % 25) … of the matrix. -/
theorem iblk0_apply (c : Dev nD) (t : Fin cfg0.N) (x : S200x10000.Idx) (k : S10000x10000.Idx)
    (hk0 : (k 0).val = 200 * (2 * (t.val % 25)) + (x 0).val) (hk1 : (k 1).val = (x 1).val) :
    (iblk m c 0 t : Vec F S200x10000 .f32) x = (V m c main_arg1 : S10000x10000.Idx → Elt F .f32) k := by
  have hi := index0 t
  unfold iblk
  rw [View.read_apply]
  show V m c main_arg1 _ = V m c main_arg1 k
  refine congrArg (V m c main_arg1 : S10000x10000.Idx → Elt F .f32) (funext fun a => Fin.ext ?_)
  match a with
  | ⟨0, _⟩ => show win0_0.index t (0 : Fin 2) * 200 + 1 * (x 0).val = (k 0).val; rw [hi.1, hk0]; omega
  | ⟨1, _⟩ => show win0_0.index t (1 : Fin 2) * 10000 + 1 * (x 1).val = (k 1).val; rw [hi.2, hk1]; omega
/-- The second's: rows 200 · (2 (t % 25) + 1) …. -/
theorem iblk1_apply (c : Dev nD) (t : Fin cfg0.N) (x : S200x10000.Idx) (k : S10000x10000.Idx)
    (hk0 : (k 0).val = 200 * (2 * (t.val % 25) + 1) + (x 0).val) (hk1 : (k 1).val = (x 1).val) :
    (iblk m c 1 t : Vec F S200x10000 .f32) x = (V m c main_arg1 : S10000x10000.Idx → Elt F .f32) k := by
  have hi := index1 t
  unfold iblk
  rw [View.read_apply]
  show V m c main_arg1 _ = V m c main_arg1 k
  refine congrArg (V m c main_arg1 : S10000x10000.Idx → Elt F .f32) (funext fun a => Fin.ext ?_)
  match a with
  | ⟨0, _⟩ => show win0_1.index t (0 : Fin 2) * 200 + 1 * (x 0).val = (k 0).val; rw [hi.1, hk0]; omega
  | ⟨1, _⟩ => show win0_1.index t (1 : Fin 2) * 10000 + 1 * (x 1).val = (k 1).val; rw [hi.2, hk1]; omega
/-- The attention window's: rows 400 · min(t, 24) … of its array. -/
theorem iblk9_apply (c : Dev nD) (t : Fin cfg0.N) (x : S400x16.Idx) (k : S10000x16.Idx)
    (hk0 : (k 0).val = 400 * min t.val 24 + (x 0).val) (hk1 : (k 1).val = (x 1).val) :
    (iblk m c 9 t : Vec F S400x16 .f32) x = (V m c main_arg2 : S10000x16.Idx → Elt F .f32) k := by
  have hi := index9 t
  unfold iblk
  rw [View.read_apply]
  show V m c main_arg2 _ = V m c main_arg2 k
  refine congrArg (V m c main_arg2 : S10000x16.Idx → Elt F .f32) (funext fun a => Fin.ext ?_)
  match a with
  | ⟨0, _⟩ => show win0_9.index t (0 : Fin 2) * 400 + 1 * (x 0).val = (k 0).val; rw [hi.1, hk0]; omega
  | ⟨1, _⟩ => show win0_9.index t (1 : Fin 2) * 16 + 1 * (x 1).val = (k 1).val; rw [hi.2, hk1]; omega

/-- The first adjacency block at point t is strip 2 (t % 25) of the matrix, -/
theorem iblk0_strip (c : Dev nD) (t : Fin cfg0.N) (r : Fin 50) (hr : r.val = 2 * (t.val % 25)) :
    (iblk m c 0 t : Vec F S200x10000 .f32) = Spec.strip (V m c main_arg1 : Vec F S10000x10000 .f32) r := by
  funext y
  refine iblk0_apply m c t y _ ?_ rfl
  show 200 * r.val + (y 0).val = 200 * (2 * (t.val % 25)) + (y 0).val
  rw [hr]
/-- the second strip 2 (t % 25) + 1. -/
theorem iblk1_strip (c : Dev nD) (t : Fin cfg0.N) (r : Fin 50) (hr : r.val = 2 * (t.val % 25) + 1) :
    (iblk m c 1 t : Vec F S200x10000 .f32) = Spec.strip (V m c main_arg1 : Vec F S10000x10000 .f32) r := by
  funext y
  refine iblk1_apply m c t y _ ?_ rfl
  show 200 * r.val + (y 0).val = 200 * (2 * (t.val % 25) + 1) + (y 0).val
  rw [hr]
/-- The halves of the attention block at point t are strips 2 min(t, 24) and 2 min(t, 24) + 1 of the attention array. -/
theorem iblk9_top (c : Dev nD) (t : Fin cfg0.N) (r : Fin 50) (hr : r.val = 2 * min t.val 24) :
    View.ld (iblk m c 9 t : Vec F S400x16 .f32) rTop16 = Spec.strip (V m c main_arg2 : Vec F S10000x16 .f32) r := by
  funext y
  refine iblk9_apply m c t _ _ ?_ ?_
  · show 200 * r.val + (y 0).val = 400 * min t.val 24 + (0 + 1 * (y 0).val)
    rw [hr]; omega
  · show (y 1).val = 0 + 1 * (y 1).val
    omega
theorem iblk9_bot (c : Dev nD) (t : Fin cfg0.N) (r : Fin 50) (hr : r.val = 2 * min t.val 24 + 1) :
    View.ld (iblk m c 9 t : Vec F S400x16 .f32) rBot16 = Spec.strip (V m c main_arg2 : Vec F S10000x16 .f32) r := by
  funext y
  refine iblk9_apply m c t _ _ ?_ ?_
  · show 200 * r.val + (y 0).val = 400 * min t.val 24 + (200 + 1 * (y 0).val)
    rw [hr]; omega
  · show (y 1).val = 0 + 1 * (y 1).val
    omega

/-! ## The scratch arrays and the stored halves, by the kernel's own arithmetic of the arrays

The second strip of a point goes through its own product with x · W1 before the shared arithmetic; written out, its
results are the same terms as the first strip's. -/

theorem pay3_pay8 (a : Vec F S200x10000 .f32) (s : Vec F S10000x64 .f32) (b : Vec F S1x64 .f32) (w : Vec F S64x40 .f32) :
    k0_pay3 (k0_pay8 a s) b w = k0_pay6 a s b w := rfl
theorem pay4_pay8 (a : Vec F S200x10000 .f32) (s : Vec F S10000x64 .f32) (b : Vec F S1x64 .f32) (we : Vec F S16x64 .f32)
    (be : Vec F S1x16 .f32) (att : Vec F S200x16 .f32) :
    k0_pay4 (k0_pay8 a s) b we be att = k0_pay7 a s b we be att := rfl
theorem pay10_pay9 (a : Vec F S200x10000 .f32) (s : Vec F S10000x40 .f32) (b : Vec F S1x40 .f32) :
    k0_pay10 a s b = k0_pay9 a s b := rfl

/-- The first scratch array is x · W1 of the whole arrays. -/
theorem S1_eq (c : Dev nD) : S1 m c = Spec.support1 (F := F) (V m c main_arg0) (V m c main_arg3) := by
  unfold S1 Spec.support1
  rw [iblk2_eq, iblk3_eq]

/-- The two strips of h · W2 a first-pass point forms. -/
theorem s2Top_eq (c : Dev nD) (n : Fin 25) (r : Fin 50) (hr : r.val = 2 * n.val) :
    s2Top m c n = Spec.support2Strip (F := F) (V m c main_arg0) (V m c main_arg1) (V m c main_arg3) (V m c main_v0) (V m c main_arg5) r := by
  unfold s2Top Spec.support2Strip
  rw [iblk0_strip m c (pt n) r (by show r.val = 2 * (n.val % 25); have := n.isLt; omega), iblk4_eq, iblk5_eq, S1_eq]
theorem s2Bot_eq (c : Dev nD) (n : Fin 25) (r : Fin 50) (hr : r.val = 2 * n.val + 1) :
    s2Bot m c n = Spec.support2Strip (F := F) (V m c main_arg0) (V m c main_arg1) (V m c main_arg3) (V m c main_v0) (V m c main_arg5) r := by
  unfold s2Bot Spec.support2Strip
  rw [pay3_pay8, iblk1_strip m c (pt n) r (by show r.val = 2 * (n.val % 25) + 1; have := n.isLt; omega), iblk4_eq, iblk5_eq, S1_eq]

/-- The second scratch array, once gathered, is h · W2 of the whole arrays: row r is row r % 200 of strip r / 200. -/
theorem S2_eq (c : Dev nD) : S2 m c = Spec.support2 (F := F) (V m c main_arg0) (V m c main_arg1) (V m c main_arg3) (V m c main_v0) (V m c main_arg5) := by
  funext y
  have h0 : (y 0).val < 10000 := (y 0).isLt
  show S2 m c y = Spec.support2Strip (F := F) (V m c main_arg0) (V m c main_arg1) (V m c main_arg3) (V m c main_v0) (V m c main_arg5) (⟨(y 0).val / 200, by omega⟩ : Fin 50) (ix2 (⟨(y 0).val % 200, Nat.mod_lt _ (by decide)⟩ : Fin 200) (y 1))
  unfold S2
  by_cases h : (y 0).val % 400 < 200
  · rw [dif_pos h, s2Top_eq m c _ (⟨(y 0).val / 200, by omega⟩ : Fin 50) (by show (y 0).val / 200 = 2 * ((y 0).val / 400); omega)]
    exact congrArg (Spec.support2Strip (F := F) (V m c main_arg0) (V m c main_arg1) (V m c main_arg3) (V m c main_v0) (V m c main_arg5) (⟨(y 0).val / 200, by omega⟩ : Fin 50))
      (congrArg (fun p : Fin 200 => ix2 p (y 1)) (Fin.ext (by show (y 0).val % 400 = (y 0).val % 200; omega)))
  · rw [dif_neg h, s2Bot_eq m c _ (⟨(y 0).val / 200, by omega⟩ : Fin 50) (by show (y 0).val / 200 = 2 * ((y 0).val / 400) + 1; omega)]
    exact congrArg (Spec.support2Strip (F := F) (V m c main_arg0) (V m c main_arg1) (V m c main_arg3) (V m c main_v0) (V m c main_arg5) (⟨(y 0).val / 200, by omega⟩ : Fin 50))
      (congrArg (fun p : Fin 200 => ix2 p (y 1)) (Fin.ext (by show (y 0).val % 400 - 200 = (y 0).val % 200; omega)))

/-- The halves a second-pass point stores are the log-softmax strips of its two adjacency strips, -/
theorem L10_eq (c : Dev nD) (t : Fin cfg0.N) (r0 r1 : Fin 50) (hr0 : r0.val = 2 * (t.val % 25)) (hr1 : r1.val = 2 * (t.val % 25) + 1) :
    L10 m c t = [⟨rBot40, Spec.logitsStrip (F := F) (V m c main_arg0) (V m c main_arg1) (V m c main_arg3) (V m c main_v0) (V m c main_arg5) (V m c main_v1) r1⟩, ⟨rTop40, Spec.logitsStrip (F := F) (V m c main_arg0) (V m c main_arg1) (V m c main_arg3) (V m c main_v0) (V m c main_arg5) (V m c main_v1) r0⟩] := by
  unfold L10 Spec.logitsStrip
  rw [pay10_pay9, iblk0_strip m c t r0 hr0, iblk1_strip m c t r1 hr1, iblk6_eq, S2_eq]
/-- and the halves a first-pass point stores the gated-encoder strips of its two adjacency and attention strips. -/
theorem L11_eq (c : Dev nD) (t : Fin cfg0.N) (ht : t.val ≤ 24) (r0 r1 : Fin 50) (hr0 : r0.val = 2 * t.val) (hr1 : r1.val = 2 * t.val + 1) :
    L11 m c t = [⟨rBot16, Spec.gateStrip (F := F) (V m c main_arg0) (V m c main_arg1) (V m c main_arg2) (V m c main_arg3) (V m c main_v0) (V m c main_arg7) (V m c main_v2) r1⟩, ⟨rTop16, Spec.gateStrip (F := F) (V m c main_arg0) (V m c main_arg1) (V m c main_arg2) (V m c main_arg3) (V m c main_v0) (V m c main_arg7) (V m c main_v2) r0⟩] := by
  unfold L11 Spec.gateStrip
  rw [pay4_pay8, iblk0_strip m c t r0 (by omega), iblk1_strip m c t r1 (by omega), iblk4_eq, iblk7_eq, iblk8_eq,
    iblk9_top m c t r0 (by omega), iblk9_bot m c t r1 (by omega), S1_eq]

/-! ## A 400-row buffer written in two halves, read at an index -/

/-- Rows below 200 read the top half's payload, the others the bottom half's at the row less 200. -/
theorem halves40_apply (p1 p0 : Vec F S200x40 .f32) (y : S400x40.Idx) :
    VO10.read (Elt F) (VO10.writes (Elt F) VO10.junk ([⟨rBot40, p1⟩, ⟨rTop40, p0⟩] : List (View.Piece (Elt F) S400x40 .f32))) y
      = if h : (y 0).val < 200 then p0 (ix2 (⟨(y 0).val, h⟩ : Fin 200) (y 1))
        else p1 (ix2 (⟨(y 0).val - 200, by have := (y 0).isLt; have e : S400x40.size 0 = 400 := rfl; omega⟩ : Fin 200) (y 1)) := by
  have hy : (y 0).val < 400 := (y 0).isLt
  by_cases h : (y 0).val < 200
  · rw [dif_pos h, View.read_writes_cons_rows_of_not_mem VO10 VO10.junk inb_S400x40_S200x40_200_0 p1 _ y (o := 200) (W := 200) rfl rfl (Or.inl h)]
    exact View.read_writes_cons_rows_of_mem VO10 VO10.junk inb_S400x40_S200x40_0_0 p0 [] y (ix2 (⟨(y 0).val, h⟩ : Fin 200) (y 1)) (o := 0) rfl
      (by show (y 0).val = 0 + (y 0).val; omega) rfl
  · rw [dif_neg h]
    exact View.read_writes_cons_rows_of_mem VO10 VO10.junk inb_S400x40_S200x40_200_0 p1 _ y (ix2 (⟨(y 0).val - 200, by omega⟩ : Fin 200) (y 1)) (o := 200) rfl
      (by show (y 0).val = 200 + ((y 0).val - 200); omega) rfl
theorem halves16_apply (p1 p0 : Vec F S200x16 .f32) (y : S400x16.Idx) :
    VO11.read (Elt F) (VO11.writes (Elt F) VO11.junk ([⟨rBot16, p1⟩, ⟨rTop16, p0⟩] : List (View.Piece (Elt F) S400x16 .f32))) y
      = if h : (y 0).val < 200 then p0 (ix2 (⟨(y 0).val, h⟩ : Fin 200) (y 1))
        else p1 (ix2 (⟨(y 0).val - 200, by have := (y 0).isLt; have e : S400x16.size 0 = 400 := rfl; omega⟩ : Fin 200) (y 1)) := by
  have hy : (y 0).val < 400 := (y 0).isLt
  by_cases h : (y 0).val < 200
  · rw [dif_pos h, View.read_writes_cons_rows_of_not_mem VO11 VO11.junk inb_S400x16_S200x16_200_0 p1 _ y (o := 200) (W := 200) rfl rfl (Or.inl h)]
    exact View.read_writes_cons_rows_of_mem VO11 VO11.junk inb_S400x16_S200x16_0_0 p0 [] y (ix2 (⟨(y 0).val, h⟩ : Fin 200) (y 1)) (o := 0) rfl
      (by show (y 0).val = 0 + (y 0).val; omega) rfl
  · rw [dif_neg h]
    exact View.read_writes_cons_rows_of_mem VO11 VO11.junk inb_S400x16_S200x16_200_0 p1 _ y (ix2 (⟨(y 0).val - 200, by omega⟩ : Fin 200) (y 1)) (o := 200) rfl
      (by show (y 0).val = 200 + ((y 0).val - 200); omega) rfl

/-! ## What the output windows' buffers hold, element by element -/

/-- After second-pass point t the log-softmax buffer's row q is row 400 (t − 25) + q of the log-softmax array. -/
theorem out10_apply (c : Dev nD) (t : Fin cfg0.N) (ht : 25 ≤ t.val) (y : S400x40.Idx) (k : S10000x40.Idx)
    (hk0 : (k 0).val = 400 * (t.val - 25) + (y 0).val) (hk1 : (k 1).val = (y 1).val) :
    out10 m c t y = Spec.logits (F := F) (V m c main_arg0) (V m c main_arg1) (V m c main_arg3) (V m c main_v0) (V m c main_arg5) (V m c main_v1) k := by
  have hN : cfg0.N = 50 := N_0
  have htlt : t.val < 50 := hN ▸ t.isLt
  have hy : (y 0).val < 400 := (y 0).isLt
  have hk : (k 0).val < 10000 := (k 0).isLt
  show out10 m c t y = Spec.logitsStrip (F := F) (V m c main_arg0) (V m c main_arg1) (V m c main_arg3) (V m c main_v0) (V m c main_arg5) (V m c main_v1) (⟨(k 0).val / 200, by omega⟩ : Fin 50) (ix2 (⟨(k 0).val % 200, Nat.mod_lt _ (by decide)⟩ : Fin 200) (k 1))
  unfold out10
  rw [L10_eq m c t (⟨2 * (t.val % 25), by omega⟩ : Fin 50) (⟨2 * (t.val % 25) + 1, by omega⟩ : Fin 50) rfl rfl, halves40_apply]
  by_cases h : (y 0).val < 200
  · rw [dif_pos h]
    exact congrArg₂ (fun (r : Fin 50) (i : S200x40.Idx) => Spec.logitsStrip (F := F) (V m c main_arg0) (V m c main_arg1) (V m c main_arg3) (V m c main_v0) (V m c main_arg5) (V m c main_v1) r i)
      (Fin.ext (by show 2 * (t.val % 25) = (k 0).val / 200; omega))
      (congrArg₂ (fun (p : Fin 200) (q : Fin 40) => (ix2 p q : S200x40.Idx)) (Fin.ext (by show (y 0).val = (k 0).val % 200; omega)) (Fin.ext hk1.symm))
  · rw [dif_neg h]
    exact congrArg₂ (fun (r : Fin 50) (i : S200x40.Idx) => Spec.logitsStrip (F := F) (V m c main_arg0) (V m c main_arg1) (V m c main_arg3) (V m c main_v0) (V m c main_arg5) (V m c main_v1) r i)
      (Fin.ext (by show 2 * (t.val % 25) + 1 = (k 0).val / 200; omega))
      (congrArg₂ (fun (p : Fin 200) (q : Fin 40) => (ix2 p q : S200x40.Idx)) (Fin.ext (by show (y 0).val - 200 = (k 0).val % 200; omega)) (Fin.ext hk1.symm))

/-- After point t the gated-encoder buffer's row q is row 400 min(t, 24) + q of the gated-encoder array. -/
theorem out11_apply (c : Dev nD) (t : Fin cfg0.N) (y : S400x16.Idx) (k : S10000x16.Idx)
    (hk0 : (k 0).val = 400 * min t.val 24 + (y 0).val) (hk1 : (k 1).val = (y 1).val) :
    out11 m c t y = Spec.gate (F := F) (V m c main_arg0) (V m c main_arg1) (V m c main_arg2) (V m c main_arg3) (V m c main_v0) (V m c main_arg7) (V m c main_v2) k := by
  have hy : (y 0).val < 400 := (y 0).isLt
  have hk : (k 0).val < 10000 := (k 0).isLt
  show out11 m c t y = Spec.gateStrip (F := F) (V m c main_arg0) (V m c main_arg1) (V m c main_arg2) (V m c main_arg3) (V m c main_v0) (V m c main_arg7) (V m c main_v2) (⟨(k 0).val / 200, by omega⟩ : Fin 50) (ix2 (⟨(k 0).val % 200, Nat.mod_lt _ (by decide)⟩ : Fin 200) (k 1))
  unfold out11
  rw [L11_eq m c (clamp24 t) (by show min t.val 24 ≤ 24; omega) (⟨2 * min t.val 24, by omega⟩ : Fin 50) (⟨2 * min t.val 24 + 1, by omega⟩ : Fin 50) rfl rfl, halves16_apply]
  by_cases h : (y 0).val < 200
  · rw [dif_pos h]
    exact congrArg₂ (fun (r : Fin 50) (i : S200x16.Idx) => Spec.gateStrip (F := F) (V m c main_arg0) (V m c main_arg1) (V m c main_arg2) (V m c main_arg3) (V m c main_v0) (V m c main_arg7) (V m c main_v2) r i)
      (Fin.ext (by show 2 * min t.val 24 = (k 0).val / 200; omega))
      (congrArg₂ (fun (p : Fin 200) (q : Fin 16) => (ix2 p q : S200x16.Idx)) (Fin.ext (by show (y 0).val = (k 0).val % 200; omega)) (Fin.ext hk1.symm))
  · rw [dif_neg h]
    exact congrArg₂ (fun (r : Fin 50) (i : S200x16.Idx) => Spec.gateStrip (F := F) (V m c main_arg0) (V m c main_arg1) (V m c main_arg2) (V m c main_arg3) (V m c main_v0) (V m c main_arg7) (V m c main_v2) r i)
      (Fin.ext (by show 2 * min t.val 24 + 1 = (k 0).val / 200; omega))
      (congrArg₂ (fun (p : Fin 200) (q : Fin 16) => (ix2 p q : S200x16.Idx)) (Fin.ext (by show (y 0).val - 200 = (k 0).val % 200; omega)) (Fin.ext hk1.symm))

/-! ## What is written back, and where -/

/-- What a second-pass point writes back is its block of the log-softmax array. -/
theorem flushed10_eq (c : Dev nD) (t : Fin cfg0.N) (hf : (cfg0.win 10).flush t = true) :
    (dats m 0 c).flushed 10 t = ((cfg0.win 10).blk t).view.read (Elt F) (Spec.logits (F := F) (V m c main_arg0) (V m c main_arg1) (V m c main_arg3) (V m c main_v0) (V m c main_arg5) (V m c main_v1)) := by
  have ht : 25 ≤ t.val := of_decide_eq_true ((flush10 t).symm.trans hf)
  have hi := index10_hi t ht
  show (cfg0.win 10).cut (grid0.coords t) ((dats m 0 c).after 10 t) = _
  rw [after10]
  funext j
  rw [View.read_apply]
  show out10 m c t j = Spec.logits (F := F) (V m c main_arg0) (V m c main_arg1) (V m c main_arg3) (V m c main_v0) (V m c main_arg5) (V m c main_v1) (((cfg0.win 10).blk t).view.emb j)
  refine out10_apply m c t ht j _ ?_ ?_
  · show win0_10.index t (0 : Fin 2) * 400 + 1 * (j 0).val = 400 * (t.val - 25) + (j 0).val
    rw [hi.1]; omega
  · show win0_10.index t (1 : Fin 2) * 40 + 1 * (j 1).val = (j 1).val
    rw [hi.2]; omega

/-- What a writing-back point writes back of the gated-encoder window is its block of the gated-encoder array. -/
theorem flushed11_eq (c : Dev nD) (t : Fin cfg0.N) (hf : (cfg0.win 11).flush t = true) :
    (dats m 0 c).flushed 11 t = ((cfg0.win 11).blk t).view.read (Elt F) (Spec.gate (F := F) (V m c main_arg0) (V m c main_arg1) (V m c main_arg2) (V m c main_arg3) (V m c main_v0) (V m c main_arg7) (V m c main_v2)) := by
  have hi := index11 t
  show (cfg0.win 11).cut (grid0.coords t) ((dats m 0 c).after 11 t) = _
  rw [after11]
  funext j
  rw [View.read_apply]
  show out11 m c t j = Spec.gate (F := F) (V m c main_arg0) (V m c main_arg1) (V m c main_arg2) (V m c main_arg3) (V m c main_v0) (V m c main_arg7) (V m c main_v2) (((cfg0.win 11).blk t).view.emb j)
  refine out11_apply m c t j _ ?_ ?_
  · show win0_11.index t (0 : Fin 2) * 400 + 1 * (j 0).val = 400 * min t.val 24 + (j 0).val
    rw [hi.1]; omega
  · show win0_11.index t (1 : Fin 2) * 16 + 1 * (j 1).val = (j 1).val
    rw [hi.2]; omega

/-- An index of the log-softmax array is in point t's block iff each coordinate is in the block's range on its axis. -/
theorem mem_blk10 (t : Fin cfg0.N) (i : S10000x40.Idx) :
    i ∈ ((cfg0.win 10).blk t).view.set ↔ ∀ a : Fin 2, win0_10.index t a * S400x40.size a ≤ (i a).val ∧ (i a).val < win0_10.index t a * S400x40.size a + S400x40.size a := by
  show i ∈ ((View.whole main_v3_0).slice (win0_10.rect t)).set ↔ _
  rw [View.set_slice_whole, Rect.mem_set_unit]
  exact Iff.rfl
theorem mem_blk11 (t : Fin cfg0.N) (i : S10000x16.Idx) :
    i ∈ ((cfg0.win 11).blk t).view.set ↔ ∀ a : Fin 2, win0_11.index t a * S400x16.size a ≤ (i a).val ∧ (i a).val < win0_11.index t a * S400x16.size a + S400x16.size a := by
  show i ∈ ((View.whole main_v3_1).slice (win0_11.rect t)).set ↔ _
  rw [View.set_slice_whole, Rect.mem_set_unit]
  exact Iff.rfl

/-- Row r of the log-softmax array lies in the block second-pass point 25 + r / 400 writes back. -/
theorem cover10 (i : S10000x40.Idx) : ∃ t : Fin cfg0.N, (cfg0.win 10).flush t = true ∧ i ∈ ((cfg0.win 10).blk t).view.set := by
  have hN : cfg0.N = 50 := N_0
  have h0 : (i 0).val < 10000 := (i 0).isLt
  have h1 : (i 1).val < 40 := (i 1).isLt
  have ht : 25 ≤ 25 + (i 0).val / 400 := Nat.le_add_right _ _
  refine ⟨⟨25 + (i 0).val / 400, by omega⟩, (flush10 _).trans (decide_eq_true ht), ?_⟩
  have hi := index10_hi ⟨25 + (i 0).val / 400, by omega⟩ ht
  rw [mem_blk10]
  intro a
  match a with
  | ⟨0, _⟩ =>
    show win0_10.index ⟨25 + (i 0).val / 400, _⟩ (0 : Fin 2) * 400 ≤ (i 0).val ∧ (i 0).val < win0_10.index ⟨25 + (i 0).val / 400, _⟩ (0 : Fin 2) * 400 + 400
    rw [hi.1]; show (25 + (i 0).val / 400 - 25) * 400 ≤ (i 0).val ∧ (i 0).val < (25 + (i 0).val / 400 - 25) * 400 + 400; omega
  | ⟨1, _⟩ =>
    show win0_10.index ⟨25 + (i 0).val / 400, _⟩ (1 : Fin 2) * 40 ≤ (i 1).val ∧ (i 1).val < win0_10.index ⟨25 + (i 0).val / 400, _⟩ (1 : Fin 2) * 40 + 40
    rw [hi.2]; omega

/-- Row r of the gated-encoder array lies in the block of first-pass point r / 400, written back after it if it is not
    the pass's last, after the grid's last point if it is. -/
theorem cover11 (i : S10000x16.Idx) : ∃ t : Fin cfg0.N, (cfg0.win 11).flush t = true ∧ i ∈ ((cfg0.win 11).blk t).view.set := by
  have hN : cfg0.N = 50 := N_0
  have h0 : (i 0).val < 10000 := (i 0).isLt
  have h1 : (i 1).val < 16 := (i 1).isLt
  by_cases hq : (i 0).val / 400 < 24
  · refine ⟨⟨(i 0).val / 400, by omega⟩, (flush11 _).trans (decide_eq_true (Or.inl hq)), ?_⟩
    have hi := index11 ⟨(i 0).val / 400, by omega⟩
    rw [mem_blk11]
    intro a
    match a with
    | ⟨0, _⟩ =>
      show win0_11.index ⟨(i 0).val / 400, _⟩ (0 : Fin 2) * 400 ≤ (i 0).val ∧ (i 0).val < win0_11.index ⟨(i 0).val / 400, _⟩ (0 : Fin 2) * 400 + 400
      rw [hi.1]; show min ((i 0).val / 400) 24 * 400 ≤ (i 0).val ∧ (i 0).val < min ((i 0).val / 400) 24 * 400 + 400; omega
    | ⟨1, _⟩ =>
      show win0_11.index ⟨(i 0).val / 400, _⟩ (1 : Fin 2) * 16 ≤ (i 1).val ∧ (i 1).val < win0_11.index ⟨(i 0).val / 400, _⟩ (1 : Fin 2) * 16 + 16
      rw [hi.2]; omega
  · refine ⟨⟨49, by omega⟩, (flush11 _).trans (decide_eq_true (Or.inr rfl)), ?_⟩
    have hi := index11 ⟨49, by omega⟩
    rw [mem_blk11]
    intro a
    match a with
    | ⟨0, _⟩ =>
      show win0_11.index ⟨49, _⟩ (0 : Fin 2) * 400 ≤ (i 0).val ∧ (i 0).val < win0_11.index ⟨49, _⟩ (0 : Fin 2) * 400 + 400
      rw [hi.1]; show min 49 24 * 400 ≤ (i 0).val ∧ (i 0).val < min 49 24 * 400 + 400; omega
    | ⟨1, _⟩ =>
      show win0_11.index ⟨49, _⟩ (1 : Fin 2) * 16 ≤ (i 1).val ∧ (i 1).val < win0_11.index ⟨49, _⟩ (1 : Fin 2) * 16 + 16
      rw [hi.2]; omega

/-- The log-softmax result array after the run. -/
theorem final10 (c : Dev nD) :
    (dats m 0 c).arrAt 10 cfg0.N
      = Spec.logits (F := F) (V m c main_arg0) (V m c main_arg1) (V m c main_arg3) (V m c main_v0) (V m c main_arg5) (V m c main_v1) :=
  (dats m 0 c).arrAt_eq_of_cover 10 (Spec.logits (F := F) (V m c main_arg0) (V m c main_arg1) (V m c main_arg3) (V m c main_v0) (V m c main_arg5) (V m c main_v1)) (flushed10_eq m c) cover10

/-- The gated-encoder result array after the run. -/
theorem final11 (c : Dev nD) :
    (dats m 0 c).arrAt 11 cfg0.N
      = Spec.gate (F := F) (V m c main_arg0) (V m c main_arg1) (V m c main_arg2) (V m c main_arg3) (V m c main_v0) (V m c main_arg7) (V m c main_v2) :=
  (dats m 0 c).arrAt_eq_of_cover 11 (Spec.gate (F := F) (V m c main_arg0) (V m c main_arg1) (V m c main_arg2) (V m c main_arg3) (V m c main_v0) (V m c main_arg7) (V m c main_v2)) (flushed11_eq m c) cover11

end Cert.KernelIdeal.Fr

end
-- ==== Proof.RefSide.lean ====
/-
  The reference program's run and its operations read at an index: the two modules the bridge on the reference's side is
  written over.
-/
import proofs.«157386_g86887188398715_cont_sun_m_547_22_alg».proof.Proof.RefRun
import proofs.«157386_g86887188398715_cont_sun_m_547_22_alg».proof.Proof.RefRead
-- ==== Proof.RefGate.lean ====
/-
  The reference's second result, sigmoid(relu(adj · (x · W1) + b1) · Weᵀ + be) ⊙ att, is the kernel's gated encoder
  output laid out strip by strip: at row i both are a function of row i of adj alone, of x · W1, and of row i of att.

  At row i and column q both sides are  logistic(Σ_k h(i,k) · We(q,k) + be(q)) · att(i,q)  with the hidden row
  h(i,k) = max(Σ_j adj(i,j) · (x · W1)(j,k) + b1(k), 0).  The kernel reads row i as row i % 200 of strip i / 200, and
  200 · (i / 200) + i % 200 = i; the reference contracts the hidden row with the transpose of We along its first axis,
  the kernel with We along its second, and the transpose read at (k, q) is We at (q, k).  The reference spells the
  sigmoid 1 / (1 + exp(−z)), which is what the logistic function is at the extended reals.  No sum is rearranged.
-/
import proofs.«157386_g86887188398715_cont_sun_m_547_22_alg».proof.Proof.Spec
import proofs.«157386_g86887188398715_cont_sun_m_547_22_alg».proof.Proof.RefSide
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.Bridge

open Idealize.ShloMosaic Idealize.ShloMosaic.ValueIdx
open Cert.KernelIdeal (S10000x128 S10000x10000 S10000x16 S128x64 S64 S64x40 S40 S16x64 S16 S1x64 S1x40 S1x16 S10000x40 S10000x64 S200x10000 S200x64 S200x40 S200x16)

/-! ## A strip of the adjacency matrix times the first layer's support, at (p, k) -/

theorem lhs_strip_support_0 (i : S200x64.Idx) (q : Cert.KernelIdeal.dot_S200x10000_S10000x64_S200x64_1_0_0_1_n_n.contr.Idx) :
    (Cert.KernelIdeal.dot_S200x10000_S10000x64_S200x64_1_0_0_1_n_n.lhsIdx i q 0).val = (i 0).val := by
  unfold DotDims.lhsIdx
  rw [dif_neg (show ¬(0 : Fin S200x10000.rank) ∈ Cert.KernelIdeal.dot_S200x10000_S10000x64_S200x64_1_0_0_1_n_n.lhsBatch by decide), dif_pos (show (0 : Fin S200x10000.rank) ∈ Cert.KernelIdeal.dot_S200x10000_S10000x64_S200x64_1_0_0_1_n_n.lhsNonContracting by decide)]
  rfl
theorem lhs_strip_support_1 (i : S200x64.Idx) (q : Cert.KernelIdeal.dot_S200x10000_S10000x64_S200x64_1_0_0_1_n_n.contr.Idx) :
    (Cert.KernelIdeal.dot_S200x10000_S10000x64_S200x64_1_0_0_1_n_n.lhsIdx i q 1).val = (q ⟨0, by decide⟩).val :=
  Cert.KernelIdeal.dot_S200x10000_S10000x64_S200x64_1_0_0_1_n_n.lhsIdx_val_of_single rfl i q
theorem rhs_strip_support_0 (i : S200x64.Idx) (q : Cert.KernelIdeal.dot_S200x10000_S10000x64_S200x64_1_0_0_1_n_n.contr.Idx) :
    (Cert.KernelIdeal.dot_S200x10000_S10000x64_S200x64_1_0_0_1_n_n.rhsIdx i q 0).val = (q ⟨0, by decide⟩).val :=
  Cert.KernelIdeal.dot_S200x10000_S10000x64_S200x64_1_0_0_1_n_n.rhsIdx_val_of_single rfl i q
theorem rhs_strip_support_1 (i : S200x64.Idx) (q : Cert.KernelIdeal.dot_S200x10000_S10000x64_S200x64_1_0_0_1_n_n.contr.Idx) :
    (Cert.KernelIdeal.dot_S200x10000_S10000x64_S200x64_1_0_0_1_n_n.rhsIdx i q 1).val = (i 1).val := by
  unfold DotDims.rhsIdx
  rw [dif_neg (show ¬(1 : Fin S10000x64.rank) ∈ Cert.KernelIdeal.dot_S200x10000_S10000x64_S200x64_1_0_0_1_n_n.rhsBatch by decide), dif_pos (show (1 : Fin S10000x64.rank) ∈ Cert.KernelIdeal.dot_S200x10000_S10000x64_S200x64_1_0_0_1_n_n.rhsNonContracting by decide)]
  rfl

/-- Rows of the adjacency matrix times a 10000 × 64 array, onto the zero accumulator: entry (p, k) is Σ_j A(p,j) · S(j,k). -/
theorem strip_mul_support_apply (A : FVec Ideal S200x10000 .f32) (S : FVec Ideal S10000x64 .f32) (p : Fin 200) (k : Fin 64) :
    matmul Cert.KernelIdeal.dot_S200x10000_S10000x64_S200x64_1_0_0_1_n_n none A S (constant (F := Ideal) S200x64 .f32 0x00000000#32) (ix2 p k)
      = ∑ j : Fin 10000, A (ix2 p j) * S (ix2 j k) := by
  simp only [matmul]
  rw [Ideal.matmul_constant_zero_apply, ← Equiv.sum_comp (contrEquiv1 Cert.KernelIdeal.dot_S200x10000_S10000x64_S200x64_1_0_0_1_n_n 10000 rfl rfl).symm]
  refine Finset.sum_congr rfl fun j _ => ?_
  have hj := contrEquiv1_symm_val Cert.KernelIdeal.dot_S200x10000_S10000x64_S200x64_1_0_0_1_n_n 10000 rfl rfl j
  have el : Cert.KernelIdeal.dot_S200x10000_S10000x64_S200x64_1_0_0_1_n_n.lhsIdx (ix2 p k) ((contrEquiv1 Cert.KernelIdeal.dot_S200x10000_S10000x64_S200x64_1_0_0_1_n_n 10000 rfl rfl).symm j) = ix2 p j := funext fun a => Fin.ext (by
    match a with
    | ⟨0, _⟩ => exact lhs_strip_support_0 _ _
    | ⟨1, _⟩ => exact (lhs_strip_support_1 _ _).trans hj)
  have er : Cert.KernelIdeal.dot_S200x10000_S10000x64_S200x64_1_0_0_1_n_n.rhsIdx (ix2 p k) ((contrEquiv1 Cert.KernelIdeal.dot_S200x10000_S10000x64_S200x64_1_0_0_1_n_n 10000 rfl rfl).symm j) = ix2 j k := funext fun a => Fin.ext (by
    match a with
    | ⟨0, _⟩ => exact (rhs_strip_support_0 _ _).trans hj
    | ⟨1, _⟩ => exact rhs_strip_support_1 _ _)
  rw [el, er]

/-! ## The hidden rows times the encoder's weight, contracted along the weight's second axis, at (p, q) -/

theorem lhs_hidden_encoder_0 (i : S200x16.Idx) (q : Cert.KernelIdeal.dot_S200x64_S16x64_S200x16_1_1_0_0_n_n.contr.Idx) :
    (Cert.KernelIdeal.dot_S200x64_S16x64_S200x16_1_1_0_0_n_n.lhsIdx i q 0).val = (i 0).val := by
  unfold DotDims.lhsIdx
  rw [dif_neg (show ¬(0 : Fin S200x64.rank) ∈ Cert.KernelIdeal.dot_S200x64_S16x64_S200x16_1_1_0_0_n_n.lhsBatch by decide), dif_pos (show (0 : Fin S200x64.rank) ∈ Cert.KernelIdeal.dot_S200x64_S16x64_S200x16_1_1_0_0_n_n.lhsNonContracting by decide)]
  rfl
theorem lhs_hidden_encoder_1 (i : S200x16.Idx) (q : Cert.KernelIdeal.dot_S200x64_S16x64_S200x16_1_1_0_0_n_n.contr.Idx) :
    (Cert.KernelIdeal.dot_S200x64_S16x64_S200x16_1_1_0_0_n_n.lhsIdx i q 1).val = (q ⟨0, by decide⟩).val :=
  Cert.KernelIdeal.dot_S200x64_S16x64_S200x16_1_1_0_0_n_n.lhsIdx_val_of_single rfl i q
theorem rhs_hidden_encoder_0 (i : S200x16.Idx) (q : Cert.KernelIdeal.dot_S200x64_S16x64_S200x16_1_1_0_0_n_n.contr.Idx) :
    (Cert.KernelIdeal.dot_S200x64_S16x64_S200x16_1_1_0_0_n_n.rhsIdx i q 0).val = (i 1).val := by
  unfold DotDims.rhsIdx
  rw [dif_neg (show ¬(0 : Fin S16x64.rank) ∈ Cert.KernelIdeal.dot_S200x64_S16x64_S200x16_1_1_0_0_n_n.rhsBatch by decide), dif_pos (show (0 : Fin S16x64.rank) ∈ Cert.KernelIdeal.dot_S200x64_S16x64_S200x16_1_1_0_0_n_n.rhsNonContracting by decide)]
  rfl
theorem rhs_hidden_encoder_1 (i : S200x16.Idx) (q : Cert.KernelIdeal.dot_S200x64_S16x64_S200x16_1_1_0_0_n_n.contr.Idx) :
    (Cert.KernelIdeal.dot_S200x64_S16x64_S200x16_1_1_0_0_n_n.rhsIdx i q 1).val = (q ⟨0, by decide⟩).val :=
  Cert.KernelIdeal.dot_S200x64_S16x64_S200x16_1_1_0_0_n_n.rhsIdx_val_of_single rfl i q

/-- 200 hidden rows times the 16 × 64 encoder weight along its second axis, onto the zero accumulator: entry (p, q) is
    Σ_k H(p,k) · We(q,k). -/
theorem hidden_mul_encoder_apply (H : FVec Ideal S200x64 .f32) (We : FVec Ideal S16x64 .f32) (p : Fin 200) (q : Fin 16) :
    matmul Cert.KernelIdeal.dot_S200x64_S16x64_S200x16_1_1_0_0_n_n none H We (constant (F := Ideal) S200x16 .f32 0x00000000#32) (ix2 p q)
      = ∑ k : Fin 64, H (ix2 p k) * We (ix2 q k) := by
  simp only [matmul]
  rw [Ideal.matmul_constant_zero_apply, ← Equiv.sum_comp (contrEquiv1 Cert.KernelIdeal.dot_S200x64_S16x64_S200x16_1_1_0_0_n_n 64 rfl rfl).symm]
  refine Finset.sum_congr rfl fun k _ => ?_
  have hk := contrEquiv1_symm_val Cert.KernelIdeal.dot_S200x64_S16x64_S200x16_1_1_0_0_n_n 64 rfl rfl k
  have el : Cert.KernelIdeal.dot_S200x64_S16x64_S200x16_1_1_0_0_n_n.lhsIdx (ix2 p q) ((contrEquiv1 Cert.KernelIdeal.dot_S200x64_S16x64_S200x16_1_1_0_0_n_n 64 rfl rfl).symm k) = ix2 p k := funext fun a => Fin.ext (by
    match a with
    | ⟨0, _⟩ => exact lhs_hidden_encoder_0 _ _
    | ⟨1, _⟩ => exact (lhs_hidden_encoder_1 _ _).trans hk)
  have er : Cert.KernelIdeal.dot_S200x64_S16x64_S200x16_1_1_0_0_n_n.rhsIdx (ix2 p q) ((contrEquiv1 Cert.KernelIdeal.dot_S200x64_S16x64_S200x16_1_1_0_0_n_n 64 rfl rfl).symm k) = ix2 q k := funext fun a => Fin.ext (by
    match a with
    | ⟨0, _⟩ => exact rhs_hidden_encoder_0 _ _
    | ⟨1, _⟩ => exact (rhs_hidden_encoder_1 _ _).trans hk)
  rw [el, er]

/-! ## What the kernel computes for one strip, at an index -/

/-- The logistic function is applied entry by entry. -/
theorem logistic_apply {s : Shape} {φ : FTy} (a : FVec Ideal s φ) (i : s.Idx) : logistic a i = Ideal.logistic (a i) := rfl

/-- The hidden rows of a strip at (p, k): max(Σ_j A(p,j) · S(j,k) + b(0,k), 0). -/
theorem hiddenRows_apply (A : FVec Ideal S200x10000 .f32) (S : FVec Ideal S10000x64 .f32) (b : FVec Ideal S1x64 .f32)
    (p : Fin 200) (k : Fin 64) :
    Cert.KernelIdeal.Gen.k0_pay5 (F := Ideal) A S b (ix2 p k)
      = max (∑ j : Fin 10000, A (ix2 p j) * S (ix2 j k) + b (ix2 (0 : Fin 1) k)) (Ideal.ofBits .f32 0x00000000#32) := by
  unfold Cert.KernelIdeal.Gen.k0_pay5
  rw [maximumf_apply, addf_apply, broadcast_apply, strip_mul_support_apply, shapeCast_self, broadcastTo_1b_ab_apply]
  rfl

/-- The gated encoder rows of a strip at (p, q): logistic(Σ_k h(p,k) · We(q,k) + be(0,q)) · att(p,q), h the hidden rows. -/
theorem gateRows_apply (A : FVec Ideal S200x10000 .f32) (S : FVec Ideal S10000x64 .f32) (b : FVec Ideal S1x64 .f32)
    (We : FVec Ideal S16x64 .f32) (be : FVec Ideal S1x16 .f32) (att : FVec Ideal S200x16 .f32) (p : Fin 200) (q : Fin 16) :
    Cert.KernelIdeal.Gen.k0_pay7 (F := Ideal) A S b We be att (ix2 p q)
      = Ideal.logistic (∑ k : Fin 64, Cert.KernelIdeal.Gen.k0_pay5 (F := Ideal) A S b (ix2 p k) * We (ix2 q k) + be (ix2 (0 : Fin 1) q))
          * att (ix2 p q) := by
  unfold Cert.KernelIdeal.Gen.k0_pay7
  rw [mulf_apply, logistic_apply, addf_apply, hidden_mul_encoder_apply, shapeCast_self, broadcastTo_1b_ab_apply]

/-! ## Row i of a 10000-row array is row i % 200 of its strip i / 200 -/

/-- 200 · (i / 200) + i % 200 = i: the strip of a row read at the row's place in it is the array's row. -/
theorem strip_at_row {n : Nat} (A : Vec Ideal (⟨2, ![10000, n]⟩ : Shape) .f32) (i : Fin 10000) (c : Fin n)
    (hr : i.val / 200 < 50) (hp : i.val % 200 < 200) :
    Cert.KernelIdeal.Spec.strip (F := Ideal) A ⟨i.val / 200, hr⟩ (ix2 (⟨i.val % 200, hp⟩ : Fin 200) c) = A (ix2 i c) := by
  unfold Cert.KernelIdeal.Spec.strip
  refine congrArg A (funext fun a => ?_)
  match a with
  | ⟨0, _⟩ => exact Fin.ext (show 200 * (i.val / 200) + i.val % 200 = i.val by omega)
  | ⟨1, _⟩ => rfl

/-- The kernel's gated encoder output at (i, q), read off row i of adj, of att and the first layer's support. -/
theorem gate_apply (x : Vec Ideal S10000x128 .f32) (adj : Vec Ideal S10000x10000 .f32) (att : Vec Ideal S10000x16 .f32)
    (w1 : Vec Ideal S128x64 .f32) (B1 : Vec Ideal S1x64 .f32) (we : Vec Ideal S16x64 .f32) (BE : Vec Ideal S1x16 .f32)
    (i : Fin 10000) (q : Fin 16) :
    Cert.KernelIdeal.Spec.gate (F := Ideal) x adj att w1 B1 we BE (ix2 i q)
      = Ideal.logistic (∑ k : Fin 64,
            max (∑ j : Fin 10000, adj (ix2 i j) * Cert.KernelIdeal.Spec.support1 (F := Ideal) x w1 (ix2 j k) + B1 (ix2 (0 : Fin 1) k))
              (Ideal.ofBits .f32 0x00000000#32) * we (ix2 q k)
          + BE (ix2 (0 : Fin 1) q)) * att (ix2 i q) := by
  unfold Cert.KernelIdeal.Spec.gate Cert.KernelIdeal.Spec.ofStrips Cert.KernelIdeal.Spec.gateStrip
  show Cert.KernelIdeal.Gen.k0_pay7 (F := Ideal) _ _ _ _ _ _ (ix2 (⟨i.val % 200, Nat.mod_lt _ (by decide)⟩ : Fin 200) q) = _
  rw [gateRows_apply]
  simp only [hiddenRows_apply, strip_at_row]

/-! ## The reference read at an index -/

open Cert.ReferenceIdeal.ReadP in
/-- The reference's hidden layer at (i, k): max(Σ_j adj(i,j) · (x · W1)(j,k) + b1(k), 0). -/
theorem ref_hidden_apply (x : Vec Ideal S10000x128 .f32) (adj : Vec Ideal S10000x10000 .f32) (w1 : Vec Ideal S128x64 .f32)
    (b1 : Vec Ideal S64 .f32) (i : Fin 10000) (k : Fin 64) :
    val_main_v5 (F := Ideal) x adj w1 b1 (ix2 i k)
      = max (∑ j : Fin 10000, adj (ix2 i j) * val_main_v0 (F := Ideal) x w1 (ix2 j k) + b1 (ix1 k))
          (Ideal.ofBits .f32 0x00000000#32) := by
  have e1 : ∀ j : Fin 10000, lidx_main_v1 (ix2 i k) j = ix2 i j := fun j =>
    funext fun a => Fin.ext (by match a with | ⟨0, _⟩ => rfl | ⟨1, _⟩ => rfl)
  have e2 : ∀ j : Fin 10000, ridx_main_v1 (ix2 i k) j = ix2 j k := fun j =>
    funext fun a => Fin.ext (by match a with | ⟨0, _⟩ => rfl | ⟨1, _⟩ => rfl)
  have e3 : idx_main_v2 (idx_main_v3 (ix2 i k)) = ix1 k :=
    funext fun a => Fin.ext (by match a with | ⟨0, _⟩ => rfl)
  rw [val_main_v5_apply, val_main_v4_apply, val_main_v1_apply, val_main_v3_apply, val_main_v2_apply, val_main_call0_v0_apply,
    val_main_call0_cst_apply]
  simp only [e1, e2, e3, Ideal.maximumf_def, Ideal.addf_def, Ideal.ofBits_def]

open Cert.ReferenceIdeal.ReadP in
/-- The reference's gated encoder output at (i, q): logistic(Σ_k h(i,k) · We(q,k) + be(q)) · att(i,q), h its hidden
    layer; the transposed weight read at (k, q) is We(q,k), and 1 / (1 + exp(−z)) is the logistic function of z. -/
theorem ref_gate_apply (x : Vec Ideal S10000x128 .f32) (adj : Vec Ideal S10000x10000 .f32) (att : Vec Ideal S10000x16 .f32)
    (w1 : Vec Ideal S128x64 .f32) (b1 : Vec Ideal S64 .f32) (we : Vec Ideal S16x64 .f32) (be : Vec Ideal S16 .f32)
    (i : Fin 10000) (q : Fin 16) :
    val_main_v22 (F := Ideal) x adj att w1 b1 we be (ix2 i q)
      = Ideal.logistic (∑ k : Fin 64, val_main_v5 (F := Ideal) x adj w1 b1 (ix2 i k) * we (ix2 q k) + be (ix1 q))
          * att (ix2 i q) := by
  have e1 : ∀ k : Fin 64, lidx_main_v12 (ix2 i q) k = ix2 i k := fun k =>
    funext fun a => Fin.ext (by match a with | ⟨0, _⟩ => rfl | ⟨1, _⟩ => rfl)
  have e2 : ∀ k : Fin 64, idx_main_v11 (ridx_main_v12 (ix2 i q) k) = ix2 q k := fun k =>
    funext fun a => Fin.ext (by match a with | ⟨0, _⟩ => rfl | ⟨1, _⟩ => rfl)
  have e3 : idx_main_v13 (idx_main_v14 (ix2 i q)) = ix1 q :=
    funext fun a => Fin.ext (by match a with | ⟨0, _⟩ => rfl)
  rw [val_main_v22_apply, val_main_v21_apply, val_main_v20_apply, val_main_cst_0_apply, val_main_v19_apply, val_main_v18_apply,
    val_main_cst_apply, val_main_v17_apply, val_main_v16_apply, val_main_v15_apply, val_main_v12_apply, val_main_v14_apply,
    val_main_v13_apply]
  simp only [val_main_v11_apply, e1, e2, e3, Ideal.mulf_def, Ideal.hostDivf_def, Ideal.addf_def, Ideal.hostUnary_exp_def,
    Ideal.hostNegf_def, Ideal.negf_def, Ideal.ofBits_def, Ideal.ofBits_one_f32]
  rfl

/-! ## The two first-layer supports are one contraction -/

/-- The kernel's x · W1 and the reference's: the same contraction of the same operands onto zero. -/
theorem support1_eq_ref (x : Vec Ideal S10000x128 .f32) (w1 : Vec Ideal S128x64 .f32) :
    Cert.KernelIdeal.Spec.support1 (F := Ideal) x w1 = Cert.ReferenceIdeal.ReadP.val_main_v0 (F := Ideal) x w1 := by
  unfold Cert.KernelIdeal.Spec.support1 Cert.KernelIdeal.Gen.k0_pay1 Cert.ReferenceIdeal.ReadP.val_main_v0
  dsimp only
  rw [shapeCast_self]
  funext j
  simp only [matmul, Host.dotGeneral]
  rw [Ideal.matmul_constant_zero_apply, Ideal.dotGeneral_apply]
  rfl

/-- At the exact reals the reference's gated encoder rows are the kernel's, strip by strip. -/
theorem ref_gate (x : Vec Ideal S10000x128 .f32) (adj : Vec Ideal S10000x10000 .f32) (att : Vec Ideal S10000x16 .f32)
    (w1 : Vec Ideal S128x64 .f32) (b1 : Vec Ideal S64 .f32) (we : Vec Ideal S16x64 .f32) (be : Vec Ideal S16 .f32) :
    Cert.ReferenceIdeal.ReadP.val_main_v22 (F := Ideal) x adj att w1 b1 we be
      = Cert.KernelIdeal.Spec.gate (F := Ideal) x adj att w1
          (shapeCast S1x64 b1 Cert.KernelIdeal.Facts₀.shapeCasts_S64_S1x64) we
          (shapeCast S1x16 be Cert.KernelIdeal.Facts₀.shapeCasts_S16_S1x16) := by
  funext idx
  obtain ⟨i, q, rfl⟩ : ∃ (i : Fin 10000) (q : Fin 16), idx = ix2 i q := ⟨idx 0, idx 1, eq_ix2 idx⟩
  rw [ref_gate_apply, gate_apply]
  simp only [ref_hidden_apply, support1_eq_ref, shapeCast_a_1a_apply]

end Cert.Bridge

end
-- ==== Proof.RefLogits.lean ====
/-
  The reference's first result, log_softmax(adj · (relu(adj · (x · W1) + b1) · W2) + b2) along each row, is the kernel's
  log-softmax output laid out strip by strip: at row i both are o − max o − log Σ exp(o − max o) of the same row of
  logits o, a function of row i of adj and of the whole of h · W2, which the kernel gathers strip by strip.
-/
import proofs.«157386_g86887188398715_cont_sun_m_547_22_alg».proof.Proof.Spec
import proofs.«157386_g86887188398715_cont_sun_m_547_22_alg».proof.Proof.RefSide
import Idealize.ShloMosaic.Lib.ValueIdx
import Idealize.ShloMosaic.Lib.ValueLayout
import Idealize.ShloMosaic.Lib.Pipeline.Value
import Idealize.ShloMosaic.PureOps.Ideal.Laws

noncomputable section

namespace Cert.Bridge

open Idealize.ShloMosaic Idealize.ShloMosaic.ValueIdx
open Cert.KernelIdeal (S10000x128 S10000x10000 S10000x16 S128x64 S64 S64x40 S40 S16x64 S16 S1x64 S1x40 S1x16 S10000x40 S10000x64 S200x10000 S200x64 S200x40 S200x16)

/-! ## Layout operations of the row-wise reductions read at an index -/

section Layout
variable {α : Type}

/-- An `[a]` array cast to a column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The kernel's four products read at an index -/

theorem lhs_x_w1_0 (i : S10000x64.Idx) (q : Cert.KernelIdeal.dot_S10000x128_S128x64_S10000x64_1_0_0_1_n_n.contr.Idx) :
    (Cert.KernelIdeal.dot_S10000x128_S128x64_S10000x64_1_0_0_1_n_n.lhsIdx i q 0).val = (i 0).val := by
  unfold DotDims.lhsIdx
  rw [dif_neg (show ¬(0 : Fin S10000x128.rank) ∈ Cert.KernelIdeal.dot_S10000x128_S128x64_S10000x64_1_0_0_1_n_n.lhsBatch by decide), dif_pos (show (0 : Fin S10000x128.rank) ∈ Cert.KernelIdeal.dot_S10000x128_S128x64_S10000x64_1_0_0_1_n_n.lhsNonContracting by decide)]
  rfl
theorem lhs_x_w1_1 (i : S10000x64.Idx) (q : Cert.KernelIdeal.dot_S10000x128_S128x64_S10000x64_1_0_0_1_n_n.contr.Idx) :
    (Cert.KernelIdeal.dot_S10000x128_S128x64_S10000x64_1_0_0_1_n_n.lhsIdx i q 1).val = (q ⟨0, by decide⟩).val :=
  Cert.KernelIdeal.dot_S10000x128_S128x64_S10000x64_1_0_0_1_n_n.lhsIdx_val_of_single rfl i q
theorem rhs_x_w1_0 (i : S10000x64.Idx) (q : Cert.KernelIdeal.dot_S10000x128_S128x64_S10000x64_1_0_0_1_n_n.contr.Idx) :
    (Cert.KernelIdeal.dot_S10000x128_S128x64_S10000x64_1_0_0_1_n_n.rhsIdx i q 0).val = (q ⟨0, by decide⟩).val :=
  Cert.KernelIdeal.dot_S10000x128_S128x64_S10000x64_1_0_0_1_n_n.rhsIdx_val_of_single rfl i q
theorem rhs_x_w1_1 (i : S10000x64.Idx) (q : Cert.KernelIdeal.dot_S10000x128_S128x64_S10000x64_1_0_0_1_n_n.contr.Idx) :
    (Cert.KernelIdeal.dot_S10000x128_S128x64_S10000x64_1_0_0_1_n_n.rhsIdx i q 1).val = (i 1).val := by
  unfold DotDims.rhsIdx
  rw [dif_neg (show ¬(1 : Fin S128x64.rank) ∈ Cert.KernelIdeal.dot_S10000x128_S128x64_S10000x64_1_0_0_1_n_n.rhsBatch by decide), dif_pos (show (1 : Fin S128x64.rank) ∈ Cert.KernelIdeal.dot_S10000x128_S128x64_S10000x64_1_0_0_1_n_n.rhsNonContracting by decide)]
  rfl
/-- The product x · W1, accumulated into zero, at (p, c): the sum over the contracted coordinate. -/
theorem matmul_x_w1_apply (A : FVec Ideal S10000x128 .f32) (B : FVec Ideal S128x64 .f32) (p : Fin 10000) (c : Fin 64) :
    matmul Cert.KernelIdeal.dot_S10000x128_S128x64_S10000x64_1_0_0_1_n_n none A B (constant (F := Ideal) S10000x64 .f32 0x00000000#32) (ix2 p c)
      = ∑ k : Fin 128, A (ix2 p k) * B (ix2 k c) := by
  refine (Ideal.matmul_constant_zero_apply _ _ _ _ _).trans ?_
  rw [← Equiv.sum_comp (contrEquiv1 Cert.KernelIdeal.dot_S10000x128_S128x64_S10000x64_1_0_0_1_n_n 128 rfl rfl).symm]
  refine Finset.sum_congr rfl fun k _ => ?_
  have hk := contrEquiv1_symm_val Cert.KernelIdeal.dot_S10000x128_S128x64_S10000x64_1_0_0_1_n_n 128 rfl rfl k
  have el : Cert.KernelIdeal.dot_S10000x128_S128x64_S10000x64_1_0_0_1_n_n.lhsIdx (ix2 p c) ((contrEquiv1 Cert.KernelIdeal.dot_S10000x128_S128x64_S10000x64_1_0_0_1_n_n 128 rfl rfl).symm k) = ix2 p k := funext fun a => Fin.ext (by
    match a with
    | ⟨0, _⟩ => exact lhs_x_w1_0 _ _
    | ⟨1, _⟩ => exact (lhs_x_w1_1 _ _).trans hk)
  have er : Cert.KernelIdeal.dot_S10000x128_S128x64_S10000x64_1_0_0_1_n_n.rhsIdx (ix2 p c) ((contrEquiv1 Cert.KernelIdeal.dot_S10000x128_S128x64_S10000x64_1_0_0_1_n_n 128 rfl rfl).symm k) = ix2 k c := funext fun a => Fin.ext (by
    match a with
    | ⟨0, _⟩ => exact (rhs_x_w1_0 _ _).trans hk
    | ⟨1, _⟩ => exact rhs_x_w1_1 _ _)
  rw [el, er]

theorem lhs_adj_s1_0 (i : S200x64.Idx) (q : Cert.KernelIdeal.dot_S200x10000_S10000x64_S200x64_1_0_0_1_n_n.contr.Idx) :
    (Cert.KernelIdeal.dot_S200x10000_S10000x64_S200x64_1_0_0_1_n_n.lhsIdx i q 0).val = (i 0).val := by
  unfold DotDims.lhsIdx
  rw [dif_neg (show ¬(0 : Fin S200x10000.rank) ∈ Cert.KernelIdeal.dot_S200x10000_S10000x64_S200x64_1_0_0_1_n_n.lhsBatch by decide), dif_pos (show (0 : Fin S200x10000.rank) ∈ Cert.KernelIdeal.dot_S200x10000_S10000x64_S200x64_1_0_0_1_n_n.lhsNonContracting by decide)]
  rfl
theorem lhs_adj_s1_1 (i : S200x64.Idx) (q : Cert.KernelIdeal.dot_S200x10000_S10000x64_S200x64_1_0_0_1_n_n.contr.Idx) :
    (Cert.KernelIdeal.dot_S200x10000_S10000x64_S200x64_1_0_0_1_n_n.lhsIdx i q 1).val = (q ⟨0, by decide⟩).val :=
  Cert.KernelIdeal.dot_S200x10000_S10000x64_S200x64_1_0_0_1_n_n.lhsIdx_val_of_single rfl i q
theorem rhs_adj_s1_0 (i : S200x64.Idx) (q : Cert.KernelIdeal.dot_S200x10000_S10000x64_S200x64_1_0_0_1_n_n.contr.Idx) :
    (Cert.KernelIdeal.dot_S200x10000_S10000x64_S200x64_1_0_0_1_n_n.rhsIdx i q 0).val = (q ⟨0, by decide⟩).val :=
  Cert.KernelIdeal.dot_S200x10000_S10000x64_S200x64_1_0_0_1_n_n.rhsIdx_val_of_single rfl i q
theorem rhs_adj_s1_1 (i : S200x64.Idx) (q : Cert.KernelIdeal.dot_S200x10000_S10000x64_S200x64_1_0_0_1_n_n.contr.Idx) :
    (Cert.KernelIdeal.dot_S200x10000_S10000x64_S200x64_1_0_0_1_n_n.rhsIdx i q 1).val = (i 1).val := by
  unfold DotDims.rhsIdx
  rw [dif_neg (show ¬(1 : Fin S10000x64.rank) ∈ Cert.KernelIdeal.dot_S200x10000_S10000x64_S200x64_1_0_0_1_n_n.rhsBatch by decide), dif_pos (show (1 : Fin S10000x64.rank) ∈ Cert.KernelIdeal.dot_S200x10000_S10000x64_S200x64_1_0_0_1_n_n.rhsNonContracting by decide)]
  rfl
/-- The product of a strip of adj with the first layer's support, accumulated into zero, at (p, c): the sum over the contracted coordinate. -/
theorem matmul_adj_s1_apply (A : FVec Ideal S200x10000 .f32) (B : FVec Ideal S10000x64 .f32) (p : Fin 200) (c : Fin 64) :
    matmul Cert.KernelIdeal.dot_S200x10000_S10000x64_S200x64_1_0_0_1_n_n none A B (constant (F := Ideal) S200x64 .f32 0x00000000#32) (ix2 p c)
      = ∑ k : Fin 10000, A (ix2 p k) * B (ix2 k c) := by
  refine (Ideal.matmul_constant_zero_apply _ _ _ _ _).trans ?_
  rw [← Equiv.sum_comp (contrEquiv1 Cert.KernelIdeal.dot_S200x10000_S10000x64_S200x64_1_0_0_1_n_n 10000 rfl rfl).symm]
  refine Finset.sum_congr rfl fun k _ => ?_
  have hk := contrEquiv1_symm_val Cert.KernelIdeal.dot_S200x10000_S10000x64_S200x64_1_0_0_1_n_n 10000 rfl rfl k
  have el : Cert.KernelIdeal.dot_S200x10000_S10000x64_S200x64_1_0_0_1_n_n.lhsIdx (ix2 p c) ((contrEquiv1 Cert.KernelIdeal.dot_S200x10000_S10000x64_S200x64_1_0_0_1_n_n 10000 rfl rfl).symm k) = ix2 p k := funext fun a => Fin.ext (by
    match a with
    | ⟨0, _⟩ => exact lhs_adj_s1_0 _ _
    | ⟨1, _⟩ => exact (lhs_adj_s1_1 _ _).trans hk)
  have er : Cert.KernelIdeal.dot_S200x10000_S10000x64_S200x64_1_0_0_1_n_n.rhsIdx (ix2 p c) ((contrEquiv1 Cert.KernelIdeal.dot_S200x10000_S10000x64_S200x64_1_0_0_1_n_n 10000 rfl rfl).symm k) = ix2 k c := funext fun a => Fin.ext (by
    match a with
    | ⟨0, _⟩ => exact (rhs_adj_s1_0 _ _).trans hk
    | ⟨1, _⟩ => exact rhs_adj_s1_1 _ _)
  rw [el, er]

theorem lhs_h_w2_0 (i : S200x40.Idx) (q : Cert.KernelIdeal.dot_S200x64_S64x40_S200x40_1_0_0_1_n_n.contr.Idx) :
    (Cert.KernelIdeal.dot_S200x64_S64x40_S200x40_1_0_0_1_n_n.lhsIdx i q 0).val = (i 0).val := by
  unfold DotDims.lhsIdx
  rw [dif_neg (show ¬(0 : Fin S200x64.rank) ∈ Cert.KernelIdeal.dot_S200x64_S64x40_S200x40_1_0_0_1_n_n.lhsBatch by decide), dif_pos (show (0 : Fin S200x64.rank) ∈ Cert.KernelIdeal.dot_S200x64_S64x40_S200x40_1_0_0_1_n_n.lhsNonContracting by decide)]
  rfl
theorem lhs_h_w2_1 (i : S200x40.Idx) (q : Cert.KernelIdeal.dot_S200x64_S64x40_S200x40_1_0_0_1_n_n.contr.Idx) :
    (Cert.KernelIdeal.dot_S200x64_S64x40_S200x40_1_0_0_1_n_n.lhsIdx i q 1).val = (q ⟨0, by decide⟩).val :=
  Cert.KernelIdeal.dot_S200x64_S64x40_S200x40_1_0_0_1_n_n.lhsIdx_val_of_single rfl i q
theorem rhs_h_w2_0 (i : S200x40.Idx) (q : Cert.KernelIdeal.dot_S200x64_S64x40_S200x40_1_0_0_1_n_n.contr.Idx) :
    (Cert.KernelIdeal.dot_S200x64_S64x40_S200x40_1_0_0_1_n_n.rhsIdx i q 0).val = (q ⟨0, by decide⟩).val :=
  Cert.KernelIdeal.dot_S200x64_S64x40_S200x40_1_0_0_1_n_n.rhsIdx_val_of_single rfl i q
theorem rhs_h_w2_1 (i : S200x40.Idx) (q : Cert.KernelIdeal.dot_S200x64_S64x40_S200x40_1_0_0_1_n_n.contr.Idx) :
    (Cert.KernelIdeal.dot_S200x64_S64x40_S200x40_1_0_0_1_n_n.rhsIdx i q 1).val = (i 1).val := by
  unfold DotDims.rhsIdx
  rw [dif_neg (show ¬(1 : Fin S64x40.rank) ∈ Cert.KernelIdeal.dot_S200x64_S64x40_S200x40_1_0_0_1_n_n.rhsBatch by decide), dif_pos (show (1 : Fin S64x40.rank) ∈ Cert.KernelIdeal.dot_S200x64_S64x40_S200x40_1_0_0_1_n_n.rhsNonContracting by decide)]
  rfl
/-- The product of a strip of hidden rows with W2, accumulated into zero, at (p, c): the sum over the contracted coordinate. -/
theorem matmul_h_w2_apply (A : FVec Ideal S200x64 .f32) (B : FVec Ideal S64x40 .f32) (p : Fin 200) (c : Fin 40) :
    matmul Cert.KernelIdeal.dot_S200x64_S64x40_S200x40_1_0_0_1_n_n none A B (constant (F := Ideal) S200x40 .f32 0x00000000#32) (ix2 p c)
      = ∑ k : Fin 64, A (ix2 p k) * B (ix2 k c) := by
  refine (Ideal.matmul_constant_zero_apply _ _ _ _ _).trans ?_
  rw [← Equiv.sum_comp (contrEquiv1 Cert.KernelIdeal.dot_S200x64_S64x40_S200x40_1_0_0_1_n_n 64 rfl rfl).symm]
  refine Finset.sum_congr rfl fun k _ => ?_
  have hk := contrEquiv1_symm_val Cert.KernelIdeal.dot_S200x64_S64x40_S200x40_1_0_0_1_n_n 64 rfl rfl k
  have el : Cert.KernelIdeal.dot_S200x64_S64x40_S200x40_1_0_0_1_n_n.lhsIdx (ix2 p c) ((contrEquiv1 Cert.KernelIdeal.dot_S200x64_S64x40_S200x40_1_0_0_1_n_n 64 rfl rfl).symm k) = ix2 p k := funext fun a => Fin.ext (by
    match a with
    | ⟨0, _⟩ => exact lhs_h_w2_0 _ _
    | ⟨1, _⟩ => exact (lhs_h_w2_1 _ _).trans hk)
  have er : Cert.KernelIdeal.dot_S200x64_S64x40_S200x40_1_0_0_1_n_n.rhsIdx (ix2 p c) ((contrEquiv1 Cert.KernelIdeal.dot_S200x64_S64x40_S200x40_1_0_0_1_n_n 64 rfl rfl).symm k) = ix2 k c := funext fun a => Fin.ext (by
    match a with
    | ⟨0, _⟩ => exact (rhs_h_w2_0 _ _).trans hk
    | ⟨1, _⟩ => exact rhs_h_w2_1 _ _)
  rw [el, er]

theorem lhs_adj_s2_0 (i : S200x40.Idx) (q : Cert.KernelIdeal.dot_S200x10000_S10000x40_S200x40_1_0_0_1_n_n.contr.Idx) :
    (Cert.KernelIdeal.dot_S200x10000_S10000x40_S200x40_1_0_0_1_n_n.lhsIdx i q 0).val = (i 0).val := by
  unfold DotDims.lhsIdx
  rw [dif_neg (show ¬(0 : Fin S200x10000.rank) ∈ Cert.KernelIdeal.dot_S200x10000_S10000x40_S200x40_1_0_0_1_n_n.lhsBatch by decide), dif_pos (show (0 : Fin S200x10000.rank) ∈ Cert.KernelIdeal.dot_S200x10000_S10000x40_S200x40_1_0_0_1_n_n.lhsNonContracting by decide)]
  rfl
theorem lhs_adj_s2_1 (i : S200x40.Idx) (q : Cert.KernelIdeal.dot_S200x10000_S10000x40_S200x40_1_0_0_1_n_n.contr.Idx) :
    (Cert.KernelIdeal.dot_S200x10000_S10000x40_S200x40_1_0_0_1_n_n.lhsIdx i q 1).val = (q ⟨0, by decide⟩).val :=
  Cert.KernelIdeal.dot_S200x10000_S10000x40_S200x40_1_0_0_1_n_n.lhsIdx_val_of_single rfl i q
theorem rhs_adj_s2_0 (i : S200x40.Idx) (q : Cert.KernelIdeal.dot_S200x10000_S10000x40_S200x40_1_0_0_1_n_n.contr.Idx) :
    (Cert.KernelIdeal.dot_S200x10000_S10000x40_S200x40_1_0_0_1_n_n.rhsIdx i q 0).val = (q ⟨0, by decide⟩).val :=
  Cert.KernelIdeal.dot_S200x10000_S10000x40_S200x40_1_0_0_1_n_n.rhsIdx_val_of_single rfl i q
theorem rhs_adj_s2_1 (i : S200x40.Idx) (q : Cert.KernelIdeal.dot_S200x10000_S10000x40_S200x40_1_0_0_1_n_n.contr.Idx) :
    (Cert.KernelIdeal.dot_S200x10000_S10000x40_S200x40_1_0_0_1_n_n.rhsIdx i q 1).val = (i 1).val := by
  unfold DotDims.rhsIdx
  rw [dif_neg (show ¬(1 : Fin S10000x40.rank) ∈ Cert.KernelIdeal.dot_S200x10000_S10000x40_S200x40_1_0_0_1_n_n.rhsBatch by decide), dif_pos (show (1 : Fin S10000x40.rank) ∈ Cert.KernelIdeal.dot_S200x10000_S10000x40_S200x40_1_0_0_1_n_n.rhsNonContracting by decide)]
  rfl
/-- The product of a strip of adj with the second layer's support, accumulated into zero, at (p, c): the sum over the contracted coordinate. -/
theorem matmul_adj_s2_apply (A : FVec Ideal S200x10000 .f32) (B : FVec Ideal S10000x40 .f32) (p : Fin 200) (c : Fin 40) :
    matmul Cert.KernelIdeal.dot_S200x10000_S10000x40_S200x40_1_0_0_1_n_n none A B (constant (F := Ideal) S200x40 .f32 0x00000000#32) (ix2 p c)
      = ∑ k : Fin 10000, A (ix2 p k) * B (ix2 k c) := by
  refine (Ideal.matmul_constant_zero_apply _ _ _ _ _).trans ?_
  rw [← Equiv.sum_comp (contrEquiv1 Cert.KernelIdeal.dot_S200x10000_S10000x40_S200x40_1_0_0_1_n_n 10000 rfl rfl).symm]
  refine Finset.sum_congr rfl fun k _ => ?_
  have hk := contrEquiv1_symm_val Cert.KernelIdeal.dot_S200x10000_S10000x40_S200x40_1_0_0_1_n_n 10000 rfl rfl k
  have el : Cert.KernelIdeal.dot_S200x10000_S10000x40_S200x40_1_0_0_1_n_n.lhsIdx (ix2 p c) ((contrEquiv1 Cert.KernelIdeal.dot_S200x10000_S10000x40_S200x40_1_0_0_1_n_n 10000 rfl rfl).symm k) = ix2 p k := funext fun a => Fin.ext (by
    match a with
    | ⟨0, _⟩ => exact lhs_adj_s2_0 _ _
    | ⟨1, _⟩ => exact (lhs_adj_s2_1 _ _).trans hk)
  have er : Cert.KernelIdeal.dot_S200x10000_S10000x40_S200x40_1_0_0_1_n_n.rhsIdx (ix2 p c) ((contrEquiv1 Cert.KernelIdeal.dot_S200x10000_S10000x40_S200x40_1_0_0_1_n_n 10000 rfl rfl).symm k) = ix2 k c := funext fun a => Fin.ext (by
    match a with
    | ⟨0, _⟩ => exact (rhs_adj_s2_0 _ _).trans hk
    | ⟨1, _⟩ => exact rhs_adj_s2_1 _ _)
  rw [el, er]

/-! ## Strips of a 10000-row array -/

/-- Row `i % 200` of strip `i / 200` of the adjacency matrix is its row `i`: 200 · (i / 200) + i % 200 = i. -/
theorem strip_row (A : Vec Ideal S10000x10000 .f32) (i : Fin 10000) (c : Fin 10000) :
    Cert.KernelIdeal.Spec.strip A (⟨i.val / 200, by have := i.isLt; omega⟩ : Fin 50)
      (ix2 (⟨i.val % 200, Nat.mod_lt _ (by decide)⟩ : Fin 200) c) = A (ix2 i c) := by
  have e : (⟨200 * (i.val / 200) + i.val % 200, by have := i.isLt; omega⟩ : Fin 10000) = i :=
    Fin.ext (Nat.div_add_mod i.val 200)
  exact congrArg (fun t : Fin 10000 => A (ix2 t c)) e

/-- Row `i` of the array laid out from 50 strips is row `i % 200` of strip `i / 200`. -/
theorem ofStrips_row (blk : Fin 50 → Vec Ideal S200x40 .f32) (i : Fin 10000) (c : Fin 40) :
    Cert.KernelIdeal.Spec.ofStrips blk (ix2 i c)
      = blk (⟨i.val / 200, by have := i.isLt; omega⟩ : Fin 50) (ix2 (⟨i.val % 200, Nat.mod_lt _ (by decide)⟩ : Fin 200) c) := rfl

/-! ## The kernel's first pass read at an index -/

/-- The first layer's support at (l, k): Σ_m x(l, m) · W1(m, k). -/
theorem support1_apply (x : Vec Ideal S10000x128 .f32) (w1 : Vec Ideal S128x64 .f32) (l : Fin 10000) (k : Fin 64) :
    Cert.KernelIdeal.Spec.support1 (F := Ideal) x w1 (ix2 l k) = ∑ m : Fin 128, x (ix2 l m) * w1 (ix2 m k) := by
  unfold Cert.KernelIdeal.Spec.support1 Cert.KernelIdeal.Gen.k0_pay1
  simp only [shapeCast_self, matmul_x_w1_apply]

/-- A strip's hidden rows at (p, k): max(Σ_l A(p, l) · S(l, k) + b(0, k), 0). -/
theorem hidden_apply (A : Vec Ideal S200x10000 .f32) (S : Vec Ideal S10000x64 .f32) (b : Vec Ideal S1x64 .f32)
    (p : Fin 200) (k : Fin 64) :
    Cert.KernelIdeal.Gen.k0_pay5 (F := Ideal) A S b (ix2 p k)
      = max (∑ l : Fin 10000, A (ix2 p l) * S (ix2 l k) + b (ix2 (0 : Fin 1) k)) (Ideal.ofBits .f32 0x00000000#32) := by
  unfold Cert.KernelIdeal.Gen.k0_pay5
  simp only [maximumf_apply, addf_apply, broadcast_apply, shapeCast_self, matmul_adj_s1_apply, broadcastTo_1b_ab_apply]
  rfl

/-- A strip's rows of the second layer's support at (p, q): Σ_k h(p, k) · W2(k, q). -/
theorem support2Strip_apply (A : Vec Ideal S200x10000 .f32) (S : Vec Ideal S10000x64 .f32) (b : Vec Ideal S1x64 .f32)
    (w2 : Vec Ideal S64x40 .f32) (p : Fin 200) (q : Fin 40) :
    Cert.KernelIdeal.Gen.k0_pay6 (F := Ideal) A S b w2 (ix2 p q)
      = ∑ k : Fin 64, Cert.KernelIdeal.Gen.k0_pay5 (F := Ideal) A S b (ix2 p k) * w2 (ix2 k q) := by
  unfold Cert.KernelIdeal.Gen.k0_pay6
  simp only [shapeCast_self, matmul_h_w2_apply]

/-! ## The reference read at an index -/

open Cert.ReferenceIdeal.ReadP

/-- The reference's x · W1 at (l, k). -/
theorem ref_support1_apply (x : Vec Ideal S10000x128 .f32) (w1 : Vec Ideal S128x64 .f32) (l : Fin 10000) (k : Fin 64) :
    val_main_v0 (F := Ideal) x w1 (ix2 l k) = ∑ m : Fin 128, x (ix2 l m) * w1 (ix2 m k) := by
  rw [val_main_v0_apply]
  have el : ∀ m, lidx_main_v0 (ix2 l k) m = ix2 l m := fun m => funext fun a => by match a with | ⟨0, _⟩ => rfl | ⟨1, _⟩ => rfl
  have er : ∀ m, ridx_main_v0 (ix2 l k) m = ix2 m k := fun m => funext fun a => by match a with | ⟨0, _⟩ => rfl | ⟨1, _⟩ => rfl
  simp only [el, er]

/-- The reference's hidden layer relu(adj · (x · W1) + b1) at (j, k). -/
theorem ref_hiddenLayer_apply (x : Vec Ideal S10000x128 .f32) (adj : Vec Ideal S10000x10000 .f32)
    (w1 : Vec Ideal S128x64 .f32) (b1 : Vec Ideal S64 .f32) (j : Fin 10000) (k : Fin 64) :
    val_main_v5 (F := Ideal) x adj w1 b1 (ix2 j k)
      = max (∑ l : Fin 10000, adj (ix2 j l) * val_main_v0 (F := Ideal) x w1 (ix2 l k) + b1 (ix1 k))
          (Ideal.ofBits .f32 0x00000000#32) := by
  rw [val_main_v5_apply, val_main_v4_apply, val_main_v1_apply, val_main_v3_apply, val_main_v2_apply,
    val_main_call0_v0_apply, val_main_call0_cst_apply]
  have el : ∀ l, lidx_main_v1 (ix2 j k) l = ix2 j l := fun l => funext fun a => by match a with | ⟨0, _⟩ => rfl | ⟨1, _⟩ => rfl
  have er : ∀ l, ridx_main_v1 (ix2 j k) l = ix2 l k := fun l => funext fun a => by match a with | ⟨0, _⟩ => rfl | ⟨1, _⟩ => rfl
  have eb : idx_main_v2 (idx_main_v3 (ix2 j k)) = ix1 k := funext fun a => by match a with | ⟨0, _⟩ => rfl
  simp only [el, er, eb]
  rfl

/-- The reference's h · W2 at (j, q). -/
theorem ref_support2_apply (x : Vec Ideal S10000x128 .f32) (adj : Vec Ideal S10000x10000 .f32)
    (w1 : Vec Ideal S128x64 .f32) (b1 : Vec Ideal S64 .f32) (w2 : Vec Ideal S64x40 .f32) (j : Fin 10000) (q : Fin 40) :
    val_main_v6 (F := Ideal) x adj w1 b1 w2 (ix2 j q)
      = ∑ k : Fin 64, val_main_v5 (F := Ideal) x adj w1 b1 (ix2 j k) * w2 (ix2 k q) := by
  rw [val_main_v6_apply]
  have el : ∀ k, lidx_main_v6 (ix2 j q) k = ix2 j k := fun k => funext fun a => by match a with | ⟨0, _⟩ => rfl | ⟨1, _⟩ => rfl
  have er : ∀ k, ridx_main_v6 (ix2 j q) k = ix2 k q := fun k => funext fun a => by match a with | ⟨0, _⟩ => rfl | ⟨1, _⟩ => rfl
  simp only [el, er]

/-- The reference's logits adj · (h · W2) + b2 at (i, q). -/
theorem ref_logit_apply (x : Vec Ideal S10000x128 .f32) (adj : Vec Ideal S10000x10000 .f32)
    (w1 : Vec Ideal S128x64 .f32) (b1 : Vec Ideal S64 .f32) (w2 : Vec Ideal S64x40 .f32) (b2 : Vec Ideal S40 .f32)
    (i : Fin 10000) (q : Fin 40) :
    val_main_v10 (F := Ideal) x adj w1 b1 w2 b2 (ix2 i q)
      = ∑ j : Fin 10000, adj (ix2 i j) * val_main_v6 (F := Ideal) x adj w1 b1 w2 (ix2 j q) + b2 (ix1 q) := by
  rw [val_main_v10_apply, val_main_v7_apply, val_main_v9_apply, val_main_v8_apply]
  have el : ∀ j, lidx_main_v7 (ix2 i q) j = ix2 i j := fun j => funext fun a => by match a with | ⟨0, _⟩ => rfl | ⟨1, _⟩ => rfl
  have er : ∀ j, ridx_main_v7 (ix2 i q) j = ix2 j q := fun j => funext fun a => by match a with | ⟨0, _⟩ => rfl | ⟨1, _⟩ => rfl
  have eb : idx_main_v8 (idx_main_v9 (ix2 i q)) = ix1 q := funext fun a => by match a with | ⟨0, _⟩ => rfl
  simp only [el, er, eb]
  rfl

/-! ## The row-wise log-softmax -/

/-- The maximum of a row of 40 logits, folded from the value of the f32 pattern of −∞. -/
def rowMax (o : Fin 40 → EReal) : EReal :=
  (Finset.univ : Finset (Fin 40)).fold max (Ideal.ofBits .f32 0xFF800000#32) o

/-- The log-softmax of a row of 40 logits at column q: o(q) − max o − log Σ_k exp(o(k) − max o). -/
def logSoftmaxRow (o : Fin 40 → EReal) (q : Fin 40) : EReal :=
  o q - rowMax o - Ideal.log (∑ k : Fin 40, Ideal.exp (o k - rowMax o))

/-- The row maximum is at least the value the fold starts from, so one more maximum with that value changes nothing. -/
theorem max_init_rowMax (o : Fin 40 → EReal) : max (Ideal.ofBits .f32 0xFF800000#32) (rowMax o) = rowMax o :=
  max_eq_right ((Finset.le_fold_max _).2 (Or.inl le_rfl))

/-- The exponential of a vector at an index. -/
theorem vexp_apply {s : Shape} {φ : FTy} (v : FVec Ideal s φ) (i : s.Idx) : Idealize.ShloMosaic.exp v i = Ideal.exp (v i) := rfl
/-- The logarithm of a vector at an index. -/
theorem vlog_apply {s : Shape} {φ : FTy} (v : FVec Ideal s φ) (i : s.Idx) : Idealize.ShloMosaic.log v i = Ideal.log (v i) := rfl

/-- The kernel's maximum along the rows of a strip of logits, at row p. -/
theorem kernel_rowMax (o : FVec Ideal S200x40 .f32) (h : S200x40.Reduces [1] Cert.KernelIdeal.S200)
    (hφ : FKind.Formats .f32) (hacc : @Eq (BitVec FTy.f32.bits) 0xFF800000#32 0xFF800000#32) (p : Fin 200) :
    multiReduction (F := Ideal) .maximumf [1] Cert.KernelIdeal.S200 o 0xFF800000#32 h hφ hacc (ix1 p)
      = rowMax (fun k => o (ix2 p k)) := by
  refine (Ideal.multiReduction_maximumf_single o _ h hφ hacc (ix1 p)).trans ?_
  have e : o ∘ h.lift (ix1 p) = fun k : Fin 40 => o (ix2 p k) :=
    funext fun k => congrArg o (funext fun a => by match a with | ⟨0, _⟩ => rfl | ⟨1, _⟩ => rfl)
  rw [e]
  rfl

/-- The kernel's sum along the rows of a strip, at row p. -/
theorem kernel_rowSum (v : FVec Ideal S200x40 .f32) (h : S200x40.Reduces [1] Cert.KernelIdeal.S200)
    (hφ : FKind.Formats .f32) (hacc : @Eq (BitVec FTy.f32.bits) 0x00000000#32 0x00000000#32) (p : Fin 200) :
    multiReduction (F := Ideal) .add [1] Cert.KernelIdeal.S200 v 0x00000000#32 h hφ hacc (ix1 p)
      = ∑ k : Fin 40, v (ix2 p k) := by
  refine (Ideal.multiReduction_add_single v _ h hφ hacc (ix1 p)).trans ?_
  exact Finset.sum_congr rfl fun k _ => congrArg v (funext fun a => by match a with | ⟨0, _⟩ => rfl | ⟨1, _⟩ => rfl)

/-- A strip of the kernel's log-softmax output at (p, q): the log-softmax of row p of the strip's logits
    Σ_j A(p, j) · S2(j, ·) + b(0, ·). -/
theorem logitsStrip_apply (A : Vec Ideal S200x10000 .f32) (S2 : Vec Ideal S10000x40 .f32) (b : Vec Ideal S1x40 .f32)
    (p : Fin 200) (q : Fin 40) :
    Cert.KernelIdeal.Gen.k0_pay9 (F := Ideal) A S2 b (ix2 p q)
      = logSoftmaxRow (fun k => ∑ j : Fin 10000, A (ix2 p j) * S2 (ix2 j k) + b (ix2 (0 : Fin 1) k)) q := by
  unfold Cert.KernelIdeal.Gen.k0_pay9
  simp only [subf_apply, vlog_apply, broadcastTo_a1_ab_apply, shapeCast_a_a1_apply]
  rw [kernel_rowSum]
  simp only [subf_apply, vexp_apply, broadcastTo_a1_ab_apply, shapeCast_a_a1_apply]
  rw [kernel_rowMax]
  simp only [addf_apply, shapeCast_self, matmul_adj_s2_apply, broadcastTo_1b_ab_apply]
  rfl

/-- The reference's row maximum, a reduction by maximum from −∞ along each row of its logits, at row i. -/
theorem ref_rowMax (x : Vec Ideal S10000x128 .f32) (adj : Vec Ideal S10000x10000 .f32)
    (w1 : Vec Ideal S128x64 .f32) (b1 : Vec Ideal S64 .f32) (w2 : Vec Ideal S64x40 .f32) (b2 : Vec Ideal S40 .f32)
    (i : Fin 10000) :
    val_main_call1_v0 (F := Ideal) x adj w1 b1 w2 b2 (ix1 i)
      = rowMax (fun k => val_main_v10 (F := Ideal) x adj w1 b1 w2 b2 (ix2 i k)) := by
  unfold val_main_call1_v0
  generalize val_main_v10 (F := Ideal) x adj w1 b1 w2 b2 = o
  have hR : Cert.ReferenceIdeal.S10000x40.Reduces [1] Cert.ReferenceIdeal.S10000 := by decide
  refine (Host.reduce_eq_fold_single (FloatOps.maximumf (F := Ideal) (φ := .f32)) o _ _ hR _ (ix1 i)).trans ?_
  have e : o ∘ hR.lift (ix1 i) = fun k : Fin 40 => o (ix2 i k) :=
    funext fun k => congrArg o (funext fun a => by match a with | ⟨0, _⟩ => rfl | ⟨1, _⟩ => rfl)
  rw [e]
  rfl

/-- The reference's shifted logits at (i, c): the logit minus the row's maximum. The maximum with −∞ it takes once more
    after the reduction is absorbed by the row maximum. -/
theorem ref_shifted_apply (x : Vec Ideal S10000x128 .f32) (adj : Vec Ideal S10000x10000 .f32)
    (w1 : Vec Ideal S128x64 .f32) (b1 : Vec Ideal S64 .f32) (w2 : Vec Ideal S64x40 .f32) (b2 : Vec Ideal S40 .f32)
    (i : Fin 10000) (c : Fin 40) :
    val_main_call1_v5 (F := Ideal) x adj w1 b1 w2 b2 (ix2 i c)
      = val_main_v10 (F := Ideal) x adj w1 b1 w2 b2 (ix2 i c)
          - rowMax (fun k => val_main_v10 (F := Ideal) x adj w1 b1 w2 b2 (ix2 i k)) := by
  have e4 : idx_main_call1_v3 (idx_main_call1_v4 (ix2 i c)) = ix1 i := funext fun a => by match a with | ⟨0, _⟩ => rfl
  rw [val_main_call1_v5_apply, val_main_call1_v4_apply, val_main_call1_v3_apply, val_main_call1_v2_apply,
    val_main_call1_v1_apply, val_main_call1_cst_0_apply, e4, ref_rowMax]
  exact congrArg (fun m => val_main_v10 (F := Ideal) x adj w1 b1 w2 b2 (ix2 i c) - m) (max_init_rowMax _)

/-- The reference's log of the row sums at (i, q): log Σ_k exp(shifted logit at (i, k)); its sum starts from zero. -/
theorem ref_logSumExp_apply (x : Vec Ideal S10000x128 .f32) (adj : Vec Ideal S10000x10000 .f32)
    (w1 : Vec Ideal S128x64 .f32) (b1 : Vec Ideal S64 .f32) (w2 : Vec Ideal S64x40 .f32) (b2 : Vec Ideal S40 .f32)
    (i : Fin 10000) (q : Fin 40) :
    val_main_call1_v10 (F := Ideal) x adj w1 b1 w2 b2 (ix2 i q)
      = Ideal.log (∑ k : Fin 40, Ideal.exp (val_main_call1_v5 (F := Ideal) x adj w1 b1 w2 b2 (ix2 i k))) := by
  have e10 : idx_main_call1_v8 (idx_main_call1_v10 (ix2 i q)) = ix1 i := funext fun a => by match a with | ⟨0, _⟩ => rfl
  have e7 : ∀ k : Fin 40, idx_main_call1_v7 (ix1 i) k = ix2 i k := fun k => funext fun a => by match a with | ⟨0, _⟩ => rfl | ⟨1, _⟩ => rfl
  rw [val_main_call1_v10_apply, val_main_call1_v9_apply, val_main_call1_v8_apply, e10, val_main_call1_v7_apply,
    val_main_call1_cst_1_apply]
  refine congrArg Ideal.log ?_
  refine (congrArg (· + _) Ideal.ofBits_zero_f32).trans ((zero_add _).trans ?_)
  exact Finset.sum_congr rfl fun k _ => by rw [e7, val_main_call1_v6_apply]; rfl

/-- The reference's first result at (i, q): the log-softmax of row i of its logits. -/
theorem ref_logSoftmax_apply (x : Vec Ideal S10000x128 .f32) (adj : Vec Ideal S10000x10000 .f32)
    (w1 : Vec Ideal S128x64 .f32) (b1 : Vec Ideal S64 .f32) (w2 : Vec Ideal S64x40 .f32) (b2 : Vec Ideal S40 .f32)
    (i : Fin 10000) (q : Fin 40) :
    val_main_v23 (F := Ideal) x adj w1 b1 w2 b2 (ix2 i q)
      = logSoftmaxRow (fun k => val_main_v10 (F := Ideal) x adj w1 b1 w2 b2 (ix2 i k)) q := by
  rw [val_main_v23_apply, ref_logSumExp_apply]
  simp only [ref_shifted_apply]
  rfl

/-! ## The two sides meet -/

/-- The hidden row i, read in its strip, is the reference's. -/
theorem hidden_eq_ref (x : Vec Ideal S10000x128 .f32) (adj : Vec Ideal S10000x10000 .f32)
    (w1 : Vec Ideal S128x64 .f32) (b1 : Vec Ideal S64 .f32) (j : Fin 10000) (k : Fin 64) :
    Cert.KernelIdeal.Gen.k0_pay5 (F := Ideal)
        (Cert.KernelIdeal.Spec.strip adj (⟨j.val / 200, by have := j.isLt; omega⟩ : Fin 50))
        (Cert.KernelIdeal.Spec.support1 (F := Ideal) x w1)
        (shapeCast S1x64 b1 Cert.KernelIdeal.Facts₀.shapeCasts_S64_S1x64)
        (ix2 (⟨j.val % 200, Nat.mod_lt _ (by decide)⟩ : Fin 200) k)
      = val_main_v5 (F := Ideal) x adj w1 b1 (ix2 j k) := by
  rw [hidden_apply, ref_hiddenLayer_apply, shapeCast_a_1a_apply]
  simp only [strip_row, support1_apply, ref_support1_apply]

/-- The second layer's support gathered strip by strip is the reference's h · W2. -/
theorem support2_eq_ref (x : Vec Ideal S10000x128 .f32) (adj : Vec Ideal S10000x10000 .f32)
    (w1 : Vec Ideal S128x64 .f32) (b1 : Vec Ideal S64 .f32) (w2 : Vec Ideal S64x40 .f32) (j : Fin 10000) (q : Fin 40) :
    Cert.KernelIdeal.Spec.support2 (F := Ideal) x adj w1
        (shapeCast S1x64 b1 Cert.KernelIdeal.Facts₀.shapeCasts_S64_S1x64) w2 (ix2 j q)
      = val_main_v6 (F := Ideal) x adj w1 b1 w2 (ix2 j q) := by
  unfold Cert.KernelIdeal.Spec.support2
  rw [ofStrips_row]
  unfold Cert.KernelIdeal.Spec.support2Strip
  rw [support2Strip_apply, ref_support2_apply]
  exact Finset.sum_congr rfl fun k _ => by rw [hidden_eq_ref]

/-- At the exact reals the reference's log-softmax rows are the kernel's, strip by strip. -/
theorem ref_logits (x : Vec Ideal S10000x128 .f32) (adj : Vec Ideal S10000x10000 .f32)
    (w1 : Vec Ideal S128x64 .f32) (b1 : Vec Ideal S64 .f32) (w2 : Vec Ideal S64x40 .f32) (b2 : Vec Ideal S40 .f32) :
    Cert.ReferenceIdeal.ReadP.val_main_v23 (F := Ideal) x adj w1 b1 w2 b2
      = Cert.KernelIdeal.Spec.logits (F := Ideal) x adj w1
          (shapeCast S1x64 b1 Cert.KernelIdeal.Facts₀.shapeCasts_S64_S1x64) w2
          (shapeCast S1x40 b2 Cert.KernelIdeal.Facts₀.shapeCasts_S40_S1x40) := by
  funext y
  obtain ⟨i, q, rfl⟩ : ∃ (i : Fin 10000) (q : Fin 40), y = ix2 i q := ⟨y 0, y 1, eq_ix2 y⟩
  rw [Cert.Bridge.ref_logSoftmax_apply]
  unfold Cert.KernelIdeal.Spec.logits
  rw [ofStrips_row]
  unfold Cert.KernelIdeal.Spec.logitsStrip
  rw [logitsStrip_apply]
  have hrow : (fun k : Fin 40 => Cert.ReferenceIdeal.ReadP.val_main_v10 (F := Ideal) x adj w1 b1 w2 b2 (ix2 i k))
      = fun k : Fin 40 => ∑ j : Fin 10000,
          Cert.KernelIdeal.Spec.strip adj (⟨i.val / 200, by have := i.isLt; omega⟩ : Fin 50)
            (ix2 (⟨i.val % 200, Nat.mod_lt _ (by decide)⟩ : Fin 200) j)
          * Cert.KernelIdeal.Spec.support2 (F := Ideal) x adj w1
              (shapeCast S1x64 b1 Cert.KernelIdeal.Facts₀.shapeCasts_S64_S1x64) w2 (ix2 j k)
          + (shapeCast S1x40 b2 Cert.KernelIdeal.Facts₀.shapeCasts_S40_S1x40) (ix2 (0 : Fin 1) k) := by
    funext k
    rw [ref_logit_apply, shapeCast_a_1a_apply]
    refine congrArg (fun s => s + b2 (ix1 k)) (Finset.sum_congr rfl fun j _ => ?_)
    rw [strip_row, support2_eq_ref]
  rw [hrow]

end Cert.Bridge

end
-- ==== Proof.Claims.lean ====
/-
  The certificate's claims about the idealized kernel and the idealized reference, assembled.

  The idealized kernel runs and leaves its arguments unchanged (its frame); so does the idealized reference (its run,
  the results dropped); the idealization rewrote no operation, so there is nothing to preserve. At the extended reals,
  from memories that agree on the nine arguments, both programs end with the same two result arrays: the kernel's are
  its strip-by-strip log-softmax and gated-encoder outputs of the arrays the kernel region finds (the arguments as
  launched, the three bias vectors reshaped to one-row matrices), and the reference's two results are those same
  functions of its own arguments, which are the kernel's.
-/
import proofs.«157386_g86887188398715_cont_sun_m_547_22_alg».proof.Defs
import proofs.«157386_g86887188398715_cont_sun_m_547_22_alg».proof.Proof.Gen.Pre_finite_inputs
import proofs.«157386_g86887188398715_cont_sun_m_547_22_alg».proof.Proof.Fr.Run
import proofs.«157386_g86887188398715_cont_sun_m_547_22_alg».proof.Proof.Fr.Final
import proofs.«157386_g86887188398715_cont_sun_m_547_22_alg».proof.Proof.RefGate
import proofs.«157386_g86887188398715_cont_sun_m_547_22_alg».proof.Proof.RefLogits
import proofs.«157386_g86887188398715_cont_sun_m_547_22_alg».proof.Proof.RefSide

noncomputable section

open Idealize.ShloMosaic Idealize.ShloMosaic.TcCoe Idealize.SL.Sem

namespace Cert.Proof.Claims

open Cert.KernelIdeal (S1x64 S1x40 S1x16)

/-- The idealized kernel runs and leaves its arguments unchanged. -/
theorem frame_pi : Cert.frame_KernelIdeal := fun m ρ _ => Cert.KernelIdeal.Fr.frame (F := Ideal) m ρ

/-- The idealized reference runs and leaves its arguments unchanged: its run, the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The idealization rewrote no operation. -/
theorem preserves : Cert.preserves_Kernel_KernelIdeal := trivial

/-- The kernel's log-softmax output of the arrays its region finds is the same function of the launched arguments, the
    two bias vectors reshaped. -/
theorem logits_entry (m : (ℓ : Loc Cert.KernelIdeal.nD Cert.KernelIdeal.τ Cert.KernelIdeal.sig) → Buf (Elt Ideal) ℓ)
    (c : Dev Cert.KernelIdeal.nD) :
    Cert.KernelIdeal.Spec.logits (F := Ideal) (Cert.KernelIdeal.Fr.V m c Cert.KernelIdeal.main_arg0)
        (Cert.KernelIdeal.Fr.V m c Cert.KernelIdeal.main_arg1) (Cert.KernelIdeal.Fr.V m c Cert.KernelIdeal.main_arg3)
        (Cert.KernelIdeal.Fr.V m c Cert.KernelIdeal.main_v0) (Cert.KernelIdeal.Fr.V m c Cert.KernelIdeal.main_arg5)
        (Cert.KernelIdeal.Fr.V m c Cert.KernelIdeal.main_v1)
      = Cert.KernelIdeal.Spec.logits (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg3))
          (shapeCast S1x64 (m ((c.tc : Thread Cert.KernelIdeal.nD Cert.KernelIdeal.τ).loc Cert.KernelIdeal.main_arg4))
            Cert.KernelIdeal.Facts₀.shapeCasts_S64_S1x64)
          (m ((c.tc : Thread Cert.KernelIdeal.nD Cert.KernelIdeal.τ).loc Cert.KernelIdeal.main_arg5))
          (shapeCast S1x40 (m ((c.tc : Thread Cert.KernelIdeal.nD Cert.KernelIdeal.τ).loc Cert.KernelIdeal.main_arg6))
            Cert.KernelIdeal.Facts₀.shapeCasts_S40_S1x40) := by
  rw [Cert.KernelIdeal.Fr.V_main_arg0 m c, Cert.KernelIdeal.Fr.V_main_arg1 m c, Cert.KernelIdeal.Fr.V_main_arg3 m c,
    Cert.KernelIdeal.Fr.V_main_v0 m c, Cert.KernelIdeal.Fr.V_main_arg5 m c, Cert.KernelIdeal.Fr.V_main_v1 m c]

/-- The kernel's gated-encoder output of the arrays its region finds is the same function of the launched arguments,
    the two bias vectors reshaped. -/
theorem gate_entry (m : (ℓ : Loc Cert.KernelIdeal.nD Cert.KernelIdeal.τ Cert.KernelIdeal.sig) → Buf (Elt Ideal) ℓ)
    (c : Dev Cert.KernelIdeal.nD) :
    Cert.KernelIdeal.Spec.gate (F := Ideal) (Cert.KernelIdeal.Fr.V m c Cert.KernelIdeal.main_arg0)
        (Cert.KernelIdeal.Fr.V m c Cert.KernelIdeal.main_arg1) (Cert.KernelIdeal.Fr.V m c Cert.KernelIdeal.main_arg2)
        (Cert.KernelIdeal.Fr.V m c Cert.KernelIdeal.main_arg3) (Cert.KernelIdeal.Fr.V m c Cert.KernelIdeal.main_v0)
        (Cert.KernelIdeal.Fr.V m c Cert.KernelIdeal.main_arg7) (Cert.KernelIdeal.Fr.V m c Cert.KernelIdeal.main_v2)
      = Cert.KernelIdeal.Spec.gate (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (shapeCast S1x64 (m ((c.tc : Thread Cert.KernelIdeal.nD Cert.KernelIdeal.τ).loc Cert.KernelIdeal.main_arg4))
            Cert.KernelIdeal.Facts₀.shapeCasts_S64_S1x64)
          (m ((c.tc : Thread Cert.KernelIdeal.nD Cert.KernelIdeal.τ).loc Cert.KernelIdeal.main_arg7))
          (shapeCast S1x16 (m ((c.tc : Thread Cert.KernelIdeal.nD Cert.KernelIdeal.τ).loc Cert.KernelIdeal.main_arg8))
            Cert.KernelIdeal.Facts₀.shapeCasts_S16_S1x16) := by
  rw [Cert.KernelIdeal.Fr.V_main_arg0 m c, Cert.KernelIdeal.Fr.V_main_arg1 m c, Cert.KernelIdeal.Fr.V_main_arg2 m c,
    Cert.KernelIdeal.Fr.V_main_arg3 m c, Cert.KernelIdeal.Fr.V_main_v0 m c, Cert.KernelIdeal.Fr.V_main_arg7 m c,
    Cert.KernelIdeal.Fr.V_main_v2 m c]

/-- At the extended reals, from memories agreeing on the arguments, the kernel and the reference end with equal
    results and unchanged arguments. -/
theorem algebraic : Cert.algebraic_KernelIdeal_ReferenceIdeal := by
  intro m ρ m' ρ' _ hagree
  refine ⟨fun c => Cert.KernelIdeal.Spec.logits (F := Ideal) (Cert.KernelIdeal.Fr.V m c Cert.KernelIdeal.main_arg0)
        (Cert.KernelIdeal.Fr.V m c Cert.KernelIdeal.main_arg1) (Cert.KernelIdeal.Fr.V m c Cert.KernelIdeal.main_arg3)
        (Cert.KernelIdeal.Fr.V m c Cert.KernelIdeal.main_v0) (Cert.KernelIdeal.Fr.V m c Cert.KernelIdeal.main_arg5)
        (Cert.KernelIdeal.Fr.V m c Cert.KernelIdeal.main_v1),
      fun c => Cert.KernelIdeal.Spec.gate (F := Ideal) (Cert.KernelIdeal.Fr.V m c Cert.KernelIdeal.main_arg0)
        (Cert.KernelIdeal.Fr.V m c Cert.KernelIdeal.main_arg1) (Cert.KernelIdeal.Fr.V m c Cert.KernelIdeal.main_arg2)
        (Cert.KernelIdeal.Fr.V m c Cert.KernelIdeal.main_arg3) (Cert.KernelIdeal.Fr.V m c Cert.KernelIdeal.main_v0)
        (Cert.KernelIdeal.Fr.V m c Cert.KernelIdeal.main_arg7) (Cert.KernelIdeal.Fr.V m c Cert.KernelIdeal.main_v2),
      ?_, ?_⟩
  · exact (θ_run Cert.KernelIdeal.defs _ _).mono
      (fun _ h c => ⟨(h c).1.trans (Cert.KernelIdeal.Fr.final10 m c), (h c).2.1.trans (Cert.KernelIdeal.Fr.final11 m c), (h c).2.2⟩)
      (Cert.KernelIdeal.Fr.run_main (F := Ideal) m ρ)
  · refine (θ_run Cert.ReferenceIdeal.defs _ _).mono (fun _ h c => ⟨(h c).1.trans ?_, (h c).2.1.trans ?_, (h c).2.2⟩)
      (Cert.ReferenceIdeal.ValueP.run (F := Ideal) m' ρ')
    · obtain ⟨h0, h1, h2, h3, h4, h5, h6, h7, h8⟩ := hagree c
      refine (Cert.ReferenceIdeal.ReadP.val_main_v23_eq m' c).trans ?_
      refine (Cert.Bridge.ref_logits _ _ _ _ _ _).trans ?_
      rw [h0, h1, h3, h4, h5, h6]
      exact (logits_entry m c).symm
    · obtain ⟨h0, h1, h2, h3, h4, h5, h6, h7, h8⟩ := hagree c
      refine (Cert.ReferenceIdeal.ReadP.val_main_v22_eq _ _ _ _ _ _ _).trans ?_
      refine (Cert.Bridge.ref_gate _ _ _ _ _ _ _).trans ?_
      rw [h0, h1, h2, h3, h4, h7, h8]
      exact (gate_entry m c).symm

end Cert.Proof.Claims

end
-- ==== Proof.FrK.Base.lean ====
/-
  The fused kernel's program, laid out for its frame proof: what the TensorCore's arrays hold when the one kernel
  region is entered (the three bias vectors reshaped to one-row matrices by the host lines before it, everything else
  as launched), each window's block of its array at a grid point, and the schedule of the 2 × 25 grid read in closed
  form. Points 0 … 24 are the first pass over the adjacency matrix (point 0 also forms x · W1), points 25 … 49 the
  second; the log-softmax window stays on block 0 and is left alone through the first pass, the gated-encoder window
  moves with the first pass, then stays on its last block, untouched, through the second, and is written back for
  the last time at the last point.
-/
import proofs.«157386_g86887188398715_cont_sun_m_547_22_alg».proof.Proof.Gen.Kernel.Launch
import proofs.«157386_g86887188398715_cont_sun_m_547_22_alg».proof.Proof.Gen.Kernel.Skeleton
import proofs.«157386_g86887188398715_cont_sun_m_547_22_alg».proof.Proof.Gen.Kernel.Points
import Idealize.ShloMosaic.Lib.Pipeline.FrameBody
import Idealize.ShloMosaic.Lib.Pipeline.FrameSuffix
import Idealize.ShloMosaic.Lib.Pipeline.TableIdle
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the three reshapes of the bias vectors. -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

/-- @main is the three reshapes, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; first | exact hostOps0_sub | exact ⟨hostOps0_sub, trivial⟩)
    (by simp only [List.Forall]; first | exact hostOps0_fresh | exact ⟨hostOps0_fresh, trivial⟩) main_chain

/-! No reshape writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not, for any proof data
    whose array is the entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The body's three branches, decided over the grid -/

/-- First branch (point (0, 0): form x · W1). -/
abbrev cond1 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem hcond1 : ∀ t : Fin cfg0.N, cond1 (grid0.coords t) ↔ t.val = 0 :=
  (by decide +kernel : ∀ t : Fin grid0.N, cond1 (grid0.coords t) ↔ t.val = 0)
/-- Second branch (first pass). -/
abbrev cond2 (i : grid0.Coords) : Prop := k0_cond2 i = 1#1
theorem hcond2 : ∀ t : Fin cfg0.N, cond2 (grid0.coords t) ↔ t.val < 25 :=
  (by decide +kernel : ∀ t : Fin grid0.N, cond2 (grid0.coords t) ↔ t.val < 25)
/-- Third branch (second pass). -/
abbrev cond3 (i : grid0.Coords) : Prop := k0_cond3 i = 1#1
theorem hcond3 : ∀ t : Fin cfg0.N, cond3 (grid0.coords t) ↔ 25 ≤ t.val :=
  (by decide +kernel : ∀ t : Fin grid0.N, cond3 (grid0.coords t) ↔ 25 ≤ t.val)

/-- The second coordinate of a first-pass point is the point's number. -/
theorem coord1_lo : ∀ t : Fin cfg0.N, t.val < 25 → ((grid0.coords t) 1).val = t.val :=
  (by decide +kernel : ∀ t : Fin grid0.N, t.val < 25 → ((grid0.coords t) 1).val = t.val)
/-- Of a second-pass point, the number less 25. -/
theorem coord1_hi : ∀ t : Fin cfg0.N, 25 ≤ t.val → ((grid0.coords t) 1).val = t.val - 25 :=
  (by decide +kernel : ∀ t : Fin grid0.N, 25 ≤ t.val → ((grid0.coords t) 1).val = t.val - 25)

/-! ## Where the two output windows are idle, and when they are written back -/

theorem live_in : ∀ (w : Fin 12), w.val < 10 → ∀ t : Fin cfg0.N, cfg0.idle w (grid0.coords t) = false := by decide +kernel
theorem idle10_lo : ∀ t : Fin cfg0.N, t.val < 25 → cfg0.idle 10 (grid0.coords t) = true := by decide +kernel
theorem live10_hi : ∀ t : Fin cfg0.N, 25 ≤ t.val → cfg0.idle 10 (grid0.coords t) = false := by decide +kernel
theorem live11_lo : ∀ t : Fin cfg0.N, t.val < 25 → cfg0.idle 11 (grid0.coords t) = false := by decide +kernel
theorem idle11_hi : ∀ t : Fin cfg0.N, 25 ≤ t.val → cfg0.idle 11 (grid0.coords t) = true := by decide +kernel
theorem flush10 : ∀ t : Fin cfg0.N, (cfg0.win 10).flush t = decide (25 ≤ t.val) :=
  (by decide +kernel : ∀ t : Fin grid0.N, win0_10.flush t = decide (25 ≤ t.val))
theorem flush11 : ∀ t : Fin cfg0.N, (cfg0.win 11).flush t = decide (t.val < 24 ∨ t.val = 49) :=
  (by decide +kernel : ∀ t : Fin grid0.N, win0_11.flush t = decide (t.val < 24 ∨ t.val = 49))
/-- The log-softmax window's block at a second-pass point, the gated-encoder window's at a first-pass point. -/
theorem index10_hi : ∀ t : Fin cfg0.N, 25 ≤ t.val → win0_10.index t (0 : Fin 2) = t.val - 25 ∧ win0_10.index t (1 : Fin 2) = 0 :=
  (by decide +kernel : ∀ t : Fin grid0.N, 25 ≤ t.val → win0_10.index t (0 : Fin 2) = t.val - 25 ∧ win0_10.index t (1 : Fin 2) = 0)
theorem index11 : ∀ t : Fin cfg0.N, win0_11.index t (0 : Fin 2) = min t.val 24 ∧ win0_11.index t (1 : Fin 2) = 0 :=
  (by decide +kernel : ∀ t : Fin grid0.N, win0_11.index t (0 : Fin 2) = min t.val 24 ∧ win0_11.index t (1 : Fin 2) = 0)
theorem index9 : ∀ t : Fin cfg0.N, win0_9.index t (0 : Fin 2) = min t.val 24 ∧ win0_9.index t (1 : Fin 2) = 0 :=
  (by decide +kernel : ∀ t : Fin grid0.N, win0_9.index t (0 : Fin 2) = min t.val 24 ∧ win0_9.index t (1 : Fin 2) = 0)
theorem index0 : ∀ t : Fin cfg0.N, win0_0.index t (0 : Fin 2) = 2 * (t.val % 25) ∧ win0_0.index t (1 : Fin 2) = 0 :=
  (by decide +kernel : ∀ t : Fin grid0.N, win0_0.index t (0 : Fin 2) = 2 * (t.val % 25) ∧ win0_0.index t (1 : Fin 2) = 0)
theorem index1 : ∀ t : Fin cfg0.N, win0_1.index t (0 : Fin 2) = 2 * (t.val % 25) + 1 ∧ win0_1.index t (1 : Fin 2) = 0 :=
  (by decide +kernel : ∀ t : Fin grid0.N, win0_1.index t (0 : Fin 2) = 2 * (t.val % 25) + 1 ∧ win0_1.index t (1 : Fin 2) = 0)

/-- Whether an output window's buffer holds nothing the body stored when the body runs at position `n`: the
    log-softmax window's through the first pass and after each write-back, -/
theorem fresh10 : ∀ n : Fin 51, cfg0.fresh 10 n.val = true := by decide +kernel
/-- the gated-encoder window's until the first pass ends. -/
theorem fresh11 : ∀ n : Fin 51, cfg0.fresh 11 n.val = decide (n.val ≤ 24 ∨ n.val = 50) := by decide +kernel

/-! ## The staging and scratch memrefs the body is called with -/

abbrev ms0 (t : Fin cfg0.N) : Memref sig .tc .vmem S200x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S200x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S10000x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S64x40 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x40 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S16x64 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x16 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S400x16 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S400x40 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S400x16 .f32 := win0_11.stage (cfg0.slots t 11)
abbrev hs11 (t : Fin cfg0.N) : (ms11 t).IsWhole := hstage0_11 ((cfg0.slots t 11).cast nbuf0_11)
/-- The two scratch arrays: x · W1, and the rows of h · W2 gathered through the first pass. -/
abbrev sc0 : Memref sig .tc .vmem S10000x64 .f32 := Memref.whole cc0_scratch0
abbrev sc1 : Memref sig .tc .vmem S10000x40 .f32 := Memref.whole cc0_scratch1

/-- The core's scoped buffers besides the staging buffers are the two scratch arrays, each owned at some contents. -/
theorem scoped_eq (c : Dev nD) :
    (Pipeline.scopedRest spec0 c : sProp 𝕄)
      = iprop((∃ d, owns (c : Thread nD τ) sc0 fullShare d) ∗ (∃ d, owns (c : Thread nD τ) sc1 fullShare d)) := by
  rw [scopedRest0_eq]; simp only [sc0, sc1, owns_whole]; try rfl

end Cert.Kernel.Fr

end
-- ==== Proof.FrK.RunA.lean ====
/-
  The kernel body at the FIRST point of the grid: it first forms x · W1 from the whole of x and W1 and stores it over
  the whole first scratch array, then does what every first-pass point does, reading that array back. What the stores
  leave is found by running the body.
-/
import proofs.«157386_g86887188398715_cont_sun_m_547_22_alg».proof.Proof.FrK.Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body at the first point on whole memrefs: the inputs at their contents, the gated-encoder window's buffer and the
    first scratch array at anything, the second scratch array at contents `xs1`, run to the continuation holding the inputs as
    they were, the window's buffer and the first scratch array with the body's stores written, and the second scratch array
    at `xs1` with the body's two stores written over it. -/
noncomputable def runA (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x40 .f32) (harg7 : arg7.IsWhole) (arg8 : Memref sig .tc .vmem S1x40 .f32) (harg8 : arg8.IsWhole) (arg9 : Memref sig .tc .vmem S16x64 .f32) (harg9 : arg9.IsWhole) (arg10 : Memref sig .tc .vmem S1x16 .f32) (harg10 : arg10.IsWhole) (arg11 : Memref sig .tc .vmem S400x16 .f32) (harg11 : arg11.IsWhole) (arg12 : Memref sig .tc .vmem S400x40 .f32) (harg12 : arg12.IsWhole) (arg13 : Memref sig .tc .vmem S400x16 .f32) (harg13 : arg13.IsWhole) (arg14 : Memref sig .tc .vmem S10000x64 .f32) (harg14 : arg14.IsWhole) (arg15 : Memref sig .tc .vmem S10000x40 .f32) (harg15 : arg15.IsWhole)
    (hc1 : cond1 i) (hc2 : cond2 i) (hc3 : ¬cond3 i)
    (x0 x1 : Vec F S200x10000 .f32) (x2 : Vec F S10000x128 .f32) (x3 : Vec F S128x64 .f32) (x4 : Vec F S1x64 .f32) (x5 : Vec F S64x40 .f32)
    (x7 : Vec F S16x64 .f32) (x8 : Vec F S1x16 .f32) (x9 : Vec F S400x16 .f32) (xs1 : Vec F S10000x40 .f32) :
    Σ' (L11 : List (View.Piece (Elt F) S400x16 .f32)) (LS0 : List (View.Piece (Elt F) S10000x64 .f32)), { LS1 : List (View.Piece (Elt F) S10000x40 .f32) //
      ∀ (d11 : Vec F S400x16 .f32) (ds0 : Vec F S10000x64 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare x5 ∗ owns (c : Thread nD τ) arg9 fullShare x7 ∗ owns (c : Thread nD τ) arg10 fullShare x8
            ∗ owns (c : Thread nD τ) arg11 fullShare x9 ∗ owns (c : Thread nD τ) arg13 fullShare d11
            ∗ owns (c : Thread nD τ) arg14 fullShare ds0 ∗ owns (c : Thread nD τ) arg15 fullShare xs1
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4
                ∗ owns (c : Thread nD τ) arg7 fullShare x5 ∗ owns (c : Thread nD τ) arg9 fullShare x7 ∗ owns (c : Thread nD τ) arg10 fullShare x8
                ∗ owns (c : Thread nD τ) arg11 fullShare x9
                ∗ (∃ f, arg13.view.loc (c : Thread nD τ) ↦[arg13.view.set]{fullShare} arg13.view.writes (Elt F) f L11)
                ∗ (∃ f, arg14.view.loc (c : Thread nD τ) ↦[arg14.view.set]{fullShare} arg14.view.writes (Elt F) f LS0)
                ∗ (arg15.view.loc (c : Thread nD τ) ↦[arg15.view.set]{fullShare} arg15.view.writes (Elt F) (harg15.unread xs1) LS1)) -∗ K ⟨⟩))
          ⊢ wp frame (wpE (defs₀ (F := F)) Variants.none c none) E (cc0__fused i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun d11 ds0 E K => ?run⟩
  case run =>
    simp only [cc0__fused_eq_skeleton]; unfold cc0__fused_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f7, %hf7, H7⟩, ⟨%f8, %hf8, H8⟩, ⟨%f9, %hf9, H9⟩, ⟨%f11, %hf11, H11⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    obtain rfl := harg9.eq_unread hf7; obtain rfl := harg10.eq_unread hf8; obtain rfl := harg11.eq_unread hf9
    obtain rfl := harg15.eq_unread hfs1
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H11]
    · iexists _; iexact H11
    isplitl [HS0]
    · iexists _; iexact HS0
    iexact HS1

end Cert.Kernel.Fr

end
-- ==== Proof.FrK.RunB.lean ====
/-
  The kernel body at a point of the FIRST pass other than the first point: from the two strips of the adjacency
  matrix, x · W1 in the first scratch array, b1, W2, We, be and the block of att, it stores two strips of h · W2 into
  the second scratch array (rows 400 i … 400 i + 399 at point i, the rest of that array left as it was) and the two
  halves of the gated-encoder block. What the stores leave is found by running the body.
-/
import proofs.«157386_g86887188398715_cont_sun_m_547_22_alg».proof.Proof.FrK.Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The first-pass body (not the first point) on whole memrefs: the inputs and the first scratch array at their contents, the
    gated-encoder window's buffer at anything, the second scratch array at contents `xs1`, run to the continuation holding
    the inputs and the first scratch as they were, the window's buffer with the body's two stores written, and the second
    scratch array at `xs1` with the body's two stores written over it. -/
noncomputable def runB (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x40 .f32) (harg7 : arg7.IsWhole) (arg8 : Memref sig .tc .vmem S1x40 .f32) (harg8 : arg8.IsWhole) (arg9 : Memref sig .tc .vmem S16x64 .f32) (harg9 : arg9.IsWhole) (arg10 : Memref sig .tc .vmem S1x16 .f32) (harg10 : arg10.IsWhole) (arg11 : Memref sig .tc .vmem S400x16 .f32) (harg11 : arg11.IsWhole) (arg12 : Memref sig .tc .vmem S400x40 .f32) (harg12 : arg12.IsWhole) (arg13 : Memref sig .tc .vmem S400x16 .f32) (harg13 : arg13.IsWhole) (arg14 : Memref sig .tc .vmem S10000x64 .f32) (harg14 : arg14.IsWhole) (arg15 : Memref sig .tc .vmem S10000x40 .f32) (harg15 : arg15.IsWhole)
    (hc1 : ¬cond1 i) (hc2 : cond2 i) (hc3 : ¬cond3 i)
    (x0 x1 : Vec F S200x10000 .f32) (x4 : Vec F S1x64 .f32) (x5 : Vec F S64x40 .f32) (x7 : Vec F S16x64 .f32) (x8 : Vec F S1x16 .f32)
    (x9 : Vec F S400x16 .f32) (xs0 : Vec F S10000x64 .f32) (xs1 : Vec F S10000x40 .f32) :
    Σ' (L11 : List (View.Piece (Elt F) S400x16 .f32)), { LS1 : List (View.Piece (Elt F) S10000x40 .f32) //
      ∀ (d11 : Vec F S400x16 .f32) (E : Set ℕ) (K : PUnit → sProp 𝕄),
        iprop(owns (c : Thread nD τ) arg2 fullShare x0 ∗ owns (c : Thread nD τ) arg3 fullShare x1 ∗ owns (c : Thread nD τ) arg6 fullShare x4
            ∗ owns (c : Thread nD τ) arg7 fullShare x5 ∗ owns (c : Thread nD τ) arg9 fullShare x7 ∗ owns (c : Thread nD τ) arg10 fullShare x8
            ∗ owns (c : Thread nD τ) arg11 fullShare x9 ∗ owns (c : Thread nD τ) arg13 fullShare d11
            ∗ owns (c : Thread nD τ) arg14 fullShare xs0 ∗ owns (c : Thread nD τ) arg15 fullShare xs1
            ∗ (iprop(owns (c : Thread nD τ) arg2 fullShare x0 ∗ owns (c : Thread nD τ) arg3 fullShare x1 ∗ owns (c : Thread nD τ) arg6 fullShare x4
                ∗ owns (c : Thread nD τ) arg7 fullShare x5 ∗ owns (c : Thread nD τ) arg9 fullShare x7 ∗ owns (c : Thread nD τ) arg10 fullShare x8
                ∗ owns (c : Thread nD τ) arg11 fullShare x9
                ∗ (∃ f, arg13.view.loc (c : Thread nD τ) ↦[arg13.view.set]{fullShare} arg13.view.writes (Elt F) f L11)
                ∗ owns (c : Thread nD τ) arg14 fullShare xs0
                ∗ (arg15.view.loc (c : Thread nD τ) ↦[arg15.view.set]{fullShare} arg15.view.writes (Elt F) (harg15.unread xs1) LS1)) -∗ K ⟨⟩))
          ⊢ wp frame (wpE (defs₀ (F := F)) Variants.none c none) E (cc0__fused i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun d11 E K => ?run⟩
  case run =>
    simp only [cc0__fused_eq_skeleton]; unfold cc0__fused_skel
    simp only [k0_part1_eq_skeleton, k0_part2_eq_skeleton]
    unfold owns
    iintro ⟨⟨%f0, %hf0, H0⟩, ⟨%f1, %hf1, H1⟩, ⟨%f4, %hf4, H4⟩, ⟨%f5, %hf5, H5⟩, ⟨%f7, %hf7, H7⟩, ⟨%f8, %hf8, H8⟩, ⟨%f9, %hf9, H9⟩, ⟨%f11, %hf11, H11⟩, ⟨%fs0, %hfs0, HS0⟩, ⟨%fs1, %hfs1, HS1⟩, Hk⟩
    obtain rfl := harg2.eq_unread hf0; obtain rfl := harg3.eq_unread hf1; obtain rfl := harg6.eq_unread hf4; obtain rfl := harg7.eq_unread hf5
    obtain rfl := harg9.eq_unread hf7; obtain rfl := harg10.eq_unread hf8; obtain rfl := harg11.eq_unread hf9
    obtain rfl := harg14.eq_unread hfs0; obtain rfl := harg15.eq_unread hfs1
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact harg6.read_unread _
      iexact H4
    isplitl [H5]
    · iexists _; isplitr; · ipureintro; exact harg7.read_unread _
      iexact H5
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H11]
    · iexists _; iexact H11
    isplitl [HS0]
    · iexists _; isplitr; · ipureintro; exact harg14.read_unread _
      iexact HS0
    iexact HS1

end Cert.Kernel.Fr

end
-- ==== Proof.FrK.RunC.lean ====
/-
  The kernel body at a point of the SECOND pass (none of the first pass's branches taken): from the two strips of the
  adjacency matrix in its first two windows, the bias row b2 and the gathered rows of h · W2 in the second scratch
  array, it stores the two halves of the log-softmax block, rows 0 … 199 and 200 … 399, and touches nothing else.
  What the two stores leave in the block's buffer is found by running the body.
-/
import proofs.«157386_g86887188398715_cont_sun_m_547_22_alg».proof.Proof.FrK.Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The second-pass body on whole memrefs: the strips, b2 and the scratch at their contents and the log-softmax window's
    buffer at anything run to the continuation holding them as they were and that buffer with the body's two stores
    written (the pieces, last first, are what the run finds). -/
noncomputable def runC (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x40 .f32) (harg7 : arg7.IsWhole) (arg8 : Memref sig .tc .vmem S1x40 .f32) (harg8 : arg8.IsWhole) (arg9 : Memref sig .tc .vmem S16x64 .f32) (harg9 : arg9.IsWhole) (arg10 : Memref sig .tc .vmem S1x16 .f32) (harg10 : arg10.IsWhole) (arg11 : Memref sig .tc .vmem S400x16 .f32) (harg11 : arg11.IsWhole) (arg12 : Memref sig .tc .vmem S400x40 .f32) (harg12 : arg12.IsWhole) (arg13 : Memref sig .tc .vmem S400x16 .f32) (harg13 : arg13.IsWhole) (arg14 : Memref sig .tc .vmem S10000x64 .f32) (harg14 : arg14.IsWhole) (arg15 : Memref sig .tc .vmem S10000x40 .f32) (harg15 : arg15.IsWhole)
    (hc1 : ¬cond1 i) (hc2 : ¬cond2 i) (hc3 : cond3 i)
    (x0 x1 : Vec F S200x10000 .f32) (x6 : Vec F S1x40 .f32) (xs1 : Vec F S10000x40 .f32) :
    { L10 : List (View.Piece (Elt F) S400x40 .f32) //
      ∀ (d10 : Vec F S400x40 .f32) (E : Set ℕ) (K : PUnit → sProp 𝕄),
        iprop(owns (c : Thread nD τ) arg2 fullShare x0 ∗ owns (c : Thread nD τ) arg3 fullShare x1 ∗ owns (c : Thread nD τ) arg8 fullShare x6
            ∗ owns (c : Thread nD τ) arg12 fullShare d10 ∗ owns (c : Thread nD τ) arg15 fullShare xs1
            ∗ (iprop(owns (c : Thread nD τ) arg2 fullShare x0 ∗ owns (c : Thread nD τ) arg3 fullShare x1 ∗ owns (c : Thread nD τ) arg8 fullShare x6
                ∗ (∃ f, arg12.view.loc (c : Thread nD τ) ↦[arg12.view.set]{fullShare} arg12.view.writes (Elt F) f L10)
                ∗ owns (c : Thread nD τ) arg15 fullShare xs1) -∗ K ⟨⟩))
          ⊢ wp frame (wpE (defs₀ (F := F)) Variants.none c none) E (cc0__fused i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun d10 E K => ?run⟩
  case run =>
    simp only [cc0__fused_eq_skeleton]; unfold cc0__fused_skel
    simp only [k0_part1_eq_skeleton, k0_part2_eq_skeleton]
    unfold owns
    iintro ⟨⟨%f0, %hf0, H0⟩, ⟨%f1, %hf1, H1⟩, ⟨%f6, %hf6, H6⟩, ⟨%f10, %hf10, H10⟩, ⟨%fs1, %hfs1, HS1⟩, Hk⟩
    obtain rfl := harg2.eq_unread hf0; obtain rfl := harg3.eq_unread hf1; obtain rfl := harg8.eq_unread hf6; obtain rfl := harg15.eq_unread hfs1
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H6]
    · iexists _; isplitr; · ipureintro; exact harg8.read_unread _
      iexact H6
    isplitl [H10]
    · iexists _; iexact H10
    iexists _; isplitr; · ipureintro; exact harg15.read_unread _
    iexact HS1

end Cert.Kernel.Fr

end
-- ==== Proof.FrK.Pieces.lean ====
/-
  What the body's stores are, case by case, in closed form. Every store of the kernel is one of: a half (rows 0 … 199 or
  200 … 399) of the 400-row block of the log-softmax window or of the gated-encoder window; the whole first scratch
  array; two 200-row strips of the second scratch array at rows 400 i and 400 i + 200 of point i. The values stored
  are the kernel's own arithmetic of the blocks it loaded: the second strip's through the strip's own matrix product
  with x · W1, the first's directly.
-/
import proofs.«157386_g86887188398715_cont_sun_m_547_22_alg».proof.Proof.FrK.RunA
import proofs.«157386_g86887188398715_cont_sun_m_547_22_alg».proof.Proof.FrK.RunB
import proofs.«157386_g86887188398715_cont_sun_m_547_22_alg».proof.Proof.FrK.RunC
import Idealize.ShloMosaic.Lib.Pipeline.Value

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the body stores through -/

abbrev rTop16 : Rect S400x16 := Rect.unit (s := S400x16) ![0, 0] S200x16.size inb_S400x16_S200x16_0_0
abbrev rBot16 : Rect S400x16 := Rect.unit (s := S400x16) ![200, 0] S200x16.size inb_S400x16_S200x16_200_0
abbrev rTop40 : Rect S400x40 := Rect.unit (s := S400x40) ![0, 0] S200x40.size inb_S400x40_S200x40_0_0
abbrev rBot40 : Rect S400x40 := Rect.unit (s := S400x40) ![200, 0] S200x40.size inb_S400x40_S200x40_200_0
abbrev rS1 : Rect S10000x64 := Rect.unit (s := S10000x64) ![0, 0] S10000x64.size inb_S10000x64_S10000x64_0_0
/-- Rows 400 i … 400 i + 199 of the second scratch array at a first-pass point with second coordinate i, -/
abbrev rS2a (i : grid0.Coords) (h2 : cond2 i) : Rect S10000x40 :=
  Rect.unit (s := S10000x40) (k0_off1 i 0#32) S200x40.size (k0_off1_inb i h2 0)
/-- and rows 400 i + 200 … 400 i + 399. -/
abbrev rS2b (i : grid0.Coords) (h2 : cond2 i) : Rect S10000x40 :=
  Rect.unit (s := S10000x40) (k0_off1 i 200#32) S200x40.size (k0_off1_inb i h2 1)

theorem hz2 : (![0, 0] : Fin 2 → ℕ) = fun _ => 0 := by funext a; fin_cases a <;> rfl

/-! ## The pieces each case's run found -/

/-- Second pass: the two halves of the log-softmax block. -/
theorem runC_pieces (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x40 .f32) (harg7 : arg7.IsWhole) (arg8 : Memref sig .tc .vmem S1x40 .f32) (harg8 : arg8.IsWhole) (arg9 : Memref sig .tc .vmem S16x64 .f32) (harg9 : arg9.IsWhole) (arg10 : Memref sig .tc .vmem S1x16 .f32) (harg10 : arg10.IsWhole) (arg11 : Memref sig .tc .vmem S400x16 .f32) (harg11 : arg11.IsWhole) (arg12 : Memref sig .tc .vmem S400x40 .f32) (harg12 : arg12.IsWhole) (arg13 : Memref sig .tc .vmem S400x16 .f32) (harg13 : arg13.IsWhole) (arg14 : Memref sig .tc .vmem S10000x64 .f32) (harg14 : arg14.IsWhole) (arg15 : Memref sig .tc .vmem S10000x40 .f32) (harg15 : arg15.IsWhole)
    (hc1 : ¬cond1 i) (hc2 : ¬cond2 i) (hc3 : cond3 i)
    (x0 x1 : Vec F S200x10000 .f32) (x6 : Vec F S1x40 .f32) (xs1 : Vec F S10000x40 .f32) :
    (runC c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 x0 x1 x6 xs1).1
      = [⟨rBot40, k0_pay10 x1 xs1 x6⟩, ⟨rTop40, k0_pay9 x0 xs1 x6⟩] := by
  unfold runC; dsimp only
  sl_unfold_words
  simp only [View.readAt_eq_ld, Memref.IsWhole.read_unread, View.ld_unit_zero (S := S200x10000) hz2, View.ld_unit_zero (S := S10000x40) hz2, View.ld_unit_zero (S := S1x40) hz2]
  (try rfl)

/-- First pass, not the first point: the two halves of the gated-encoder block, -/
theorem runB_pieces11 (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x40 .f32) (harg7 : arg7.IsWhole) (arg8 : Memref sig .tc .vmem S1x40 .f32) (harg8 : arg8.IsWhole) (arg9 : Memref sig .tc .vmem S16x64 .f32) (harg9 : arg9.IsWhole) (arg10 : Memref sig .tc .vmem S1x16 .f32) (harg10 : arg10.IsWhole) (arg11 : Memref sig .tc .vmem S400x16 .f32) (harg11 : arg11.IsWhole) (arg12 : Memref sig .tc .vmem S400x40 .f32) (harg12 : arg12.IsWhole) (arg13 : Memref sig .tc .vmem S400x16 .f32) (harg13 : arg13.IsWhole) (arg14 : Memref sig .tc .vmem S10000x64 .f32) (harg14 : arg14.IsWhole) (arg15 : Memref sig .tc .vmem S10000x40 .f32) (harg15 : arg15.IsWhole)
    (hc1 : ¬cond1 i) (hc2 : cond2 i) (hc3 : ¬cond3 i)
    (x0 x1 : Vec F S200x10000 .f32) (x4 : Vec F S1x64 .f32) (x5 : Vec F S64x40 .f32) (x7 : Vec F S16x64 .f32) (x8 : Vec F S1x16 .f32)
    (x9 : Vec F S400x16 .f32) (xs0 : Vec F S10000x64 .f32) (xs1 : Vec F S10000x40 .f32) :
    (runB c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 x0 x1 x4 x5 x7 x8 x9 xs0 xs1).1
      = [⟨rBot16, k0_pay4 (k0_pay8 x1 xs0) x4 x7 x8 (View.ld x9 rBot16)⟩, ⟨rTop16, k0_pay7 x0 xs0 x4 x7 x8 (View.ld x9 rTop16)⟩] := by
  unfold runB; dsimp only
  sl_unfold_words
  simp only [View.readAt_eq_ld, Memref.IsWhole.read_unread, View.ld_unit_zero (S := S200x10000) hz2, View.ld_unit_zero (S := S10000x64) hz2, View.ld_unit_zero (S := S1x64) hz2, View.ld_unit_zero (S := S64x40) hz2, View.ld_unit_zero (S := S16x64) hz2, View.ld_unit_zero (S := S1x16) hz2, View.ld_unit_zero (S := S10000x40) hz2]
  (try rfl)

/-- and the two strips of the second scratch array. -/
theorem runB_piecesS1 (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x40 .f32) (harg7 : arg7.IsWhole) (arg8 : Memref sig .tc .vmem S1x40 .f32) (harg8 : arg8.IsWhole) (arg9 : Memref sig .tc .vmem S16x64 .f32) (harg9 : arg9.IsWhole) (arg10 : Memref sig .tc .vmem S1x16 .f32) (harg10 : arg10.IsWhole) (arg11 : Memref sig .tc .vmem S400x16 .f32) (harg11 : arg11.IsWhole) (arg12 : Memref sig .tc .vmem S400x40 .f32) (harg12 : arg12.IsWhole) (arg13 : Memref sig .tc .vmem S400x16 .f32) (harg13 : arg13.IsWhole) (arg14 : Memref sig .tc .vmem S10000x64 .f32) (harg14 : arg14.IsWhole) (arg15 : Memref sig .tc .vmem S10000x40 .f32) (harg15 : arg15.IsWhole)
    (hc1 : ¬cond1 i) (hc2 : cond2 i) (hc3 : ¬cond3 i)
    (x0 x1 : Vec F S200x10000 .f32) (x4 : Vec F S1x64 .f32) (x5 : Vec F S64x40 .f32) (x7 : Vec F S16x64 .f32) (x8 : Vec F S1x16 .f32)
    (x9 : Vec F S400x16 .f32) (xs0 : Vec F S10000x64 .f32) (xs1 : Vec F S10000x40 .f32) :
    (runB c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 x0 x1 x4 x5 x7 x8 x9 xs0 xs1).2.1
      = [⟨rS2b i hc2, k0_pay3 (k0_pay8 x1 xs0) x4 x5⟩, ⟨rS2a i hc2, k0_pay6 x0 xs0 x4 x5⟩] := by
  unfold runB; dsimp only
  sl_unfold_words
  simp only [View.readAt_eq_ld, Memref.IsWhole.read_unread, View.ld_unit_zero (S := S200x10000) hz2, View.ld_unit_zero (S := S10000x64) hz2, View.ld_unit_zero (S := S1x64) hz2, View.ld_unit_zero (S := S64x40) hz2, View.ld_unit_zero (S := S16x64) hz2, View.ld_unit_zero (S := S1x16) hz2, View.ld_unit_zero (S := S10000x40) hz2]
  (try rfl)

/-- First point: the same with x · W1 just formed, -/
theorem runA_pieces11 (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x40 .f32) (harg7 : arg7.IsWhole) (arg8 : Memref sig .tc .vmem S1x40 .f32) (harg8 : arg8.IsWhole) (arg9 : Memref sig .tc .vmem S16x64 .f32) (harg9 : arg9.IsWhole) (arg10 : Memref sig .tc .vmem S1x16 .f32) (harg10 : arg10.IsWhole) (arg11 : Memref sig .tc .vmem S400x16 .f32) (harg11 : arg11.IsWhole) (arg12 : Memref sig .tc .vmem S400x40 .f32) (harg12 : arg12.IsWhole) (arg13 : Memref sig .tc .vmem S400x16 .f32) (harg13 : arg13.IsWhole) (arg14 : Memref sig .tc .vmem S10000x64 .f32) (harg14 : arg14.IsWhole) (arg15 : Memref sig .tc .vmem S10000x40 .f32) (harg15 : arg15.IsWhole)
    (hc1 : cond1 i) (hc2 : cond2 i) (hc3 : ¬cond3 i)
    (x0 x1 : Vec F S200x10000 .f32) (x2 : Vec F S10000x128 .f32) (x3 : Vec F S128x64 .f32) (x4 : Vec F S1x64 .f32) (x5 : Vec F S64x40 .f32)
    (x7 : Vec F S16x64 .f32) (x8 : Vec F S1x16 .f32) (x9 : Vec F S400x16 .f32) (xs1 : Vec F S10000x40 .f32) :
    (runA c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 x0 x1 x2 x3 x4 x5 x7 x8 x9 xs1).1
      = [⟨rBot16, k0_pay4 (k0_pay8 x1 (k0_pay1 x2 x3)) x4 x7 x8 (View.ld x9 rBot16)⟩, ⟨rTop16, k0_pay7 x0 (k0_pay1 x2 x3) x4 x7 x8 (View.ld x9 rTop16)⟩] := by
  unfold runA; dsimp only
  sl_unfold_words
  simp only [View.readAt_eq_ld, Memref.IsWhole.read_unread, View.readCov_unit_zero (S := S10000x64) _ hz2, View.ld_unit_zero (S := S200x10000) hz2, View.ld_unit_zero (S := S10000x128) hz2, View.ld_unit_zero (S := S128x64) hz2, View.ld_unit_zero (S := S10000x64) hz2, View.ld_unit_zero (S := S1x64) hz2, View.ld_unit_zero (S := S64x40) hz2, View.ld_unit_zero (S := S16x64) hz2, View.ld_unit_zero (S := S1x16) hz2, View.ld_unit_zero (S := S10000x40) hz2]
  (try rfl)

/-- the whole first scratch array, -/
theorem runA_piecesS0 (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x40 .f32) (harg7 : arg7.IsWhole) (arg8 : Memref sig .tc .vmem S1x40 .f32) (harg8 : arg8.IsWhole) (arg9 : Memref sig .tc .vmem S16x64 .f32) (harg9 : arg9.IsWhole) (arg10 : Memref sig .tc .vmem S1x16 .f32) (harg10 : arg10.IsWhole) (arg11 : Memref sig .tc .vmem S400x16 .f32) (harg11 : arg11.IsWhole) (arg12 : Memref sig .tc .vmem S400x40 .f32) (harg12 : arg12.IsWhole) (arg13 : Memref sig .tc .vmem S400x16 .f32) (harg13 : arg13.IsWhole) (arg14 : Memref sig .tc .vmem S10000x64 .f32) (harg14 : arg14.IsWhole) (arg15 : Memref sig .tc .vmem S10000x40 .f32) (harg15 : arg15.IsWhole)
    (hc1 : cond1 i) (hc2 : cond2 i) (hc3 : ¬cond3 i)
    (x0 x1 : Vec F S200x10000 .f32) (x2 : Vec F S10000x128 .f32) (x3 : Vec F S128x64 .f32) (x4 : Vec F S1x64 .f32) (x5 : Vec F S64x40 .f32)
    (x7 : Vec F S16x64 .f32) (x8 : Vec F S1x16 .f32) (x9 : Vec F S400x16 .f32) (xs1 : Vec F S10000x40 .f32) :
    (runA c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 x0 x1 x2 x3 x4 x5 x7 x8 x9 xs1).2.1 = [⟨rS1, k0_pay1 x2 x3⟩] := by
  unfold runA; dsimp only
  sl_unfold_words
  simp only [View.readAt_eq_ld, Memref.IsWhole.read_unread, View.readCov_unit_zero (S := S10000x64) _ hz2, View.ld_unit_zero (S := S200x10000) hz2, View.ld_unit_zero (S := S10000x128) hz2, View.ld_unit_zero (S := S128x64) hz2, View.ld_unit_zero (S := S10000x64) hz2, View.ld_unit_zero (S := S1x64) hz2, View.ld_unit_zero (S := S64x40) hz2, View.ld_unit_zero (S := S16x64) hz2, View.ld_unit_zero (S := S1x16) hz2, View.ld_unit_zero (S := S10000x40) hz2]
  (try rfl)

/-- and the two strips of the second. -/
theorem runA_piecesS1 (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x40 .f32) (harg7 : arg7.IsWhole) (arg8 : Memref sig .tc .vmem S1x40 .f32) (harg8 : arg8.IsWhole) (arg9 : Memref sig .tc .vmem S16x64 .f32) (harg9 : arg9.IsWhole) (arg10 : Memref sig .tc .vmem S1x16 .f32) (harg10 : arg10.IsWhole) (arg11 : Memref sig .tc .vmem S400x16 .f32) (harg11 : arg11.IsWhole) (arg12 : Memref sig .tc .vmem S400x40 .f32) (harg12 : arg12.IsWhole) (arg13 : Memref sig .tc .vmem S400x16 .f32) (harg13 : arg13.IsWhole) (arg14 : Memref sig .tc .vmem S10000x64 .f32) (harg14 : arg14.IsWhole) (arg15 : Memref sig .tc .vmem S10000x40 .f32) (harg15 : arg15.IsWhole)
    (hc1 : cond1 i) (hc2 : cond2 i) (hc3 : ¬cond3 i)
    (x0 x1 : Vec F S200x10000 .f32) (x2 : Vec F S10000x128 .f32) (x3 : Vec F S128x64 .f32) (x4 : Vec F S1x64 .f32) (x5 : Vec F S64x40 .f32)
    (x7 : Vec F S16x64 .f32) (x8 : Vec F S1x16 .f32) (x9 : Vec F S400x16 .f32) (xs1 : Vec F S10000x40 .f32) :
    (runA c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 x0 x1 x2 x3 x4 x5 x7 x8 x9 xs1).2.2.1
      = [⟨rS2b i hc2, k0_pay3 (k0_pay8 x1 (k0_pay1 x2 x3)) x4 x5⟩, ⟨rS2a i hc2, k0_pay6 x0 (k0_pay1 x2 x3) x4 x5⟩] := by
  unfold runA; dsimp only
  sl_unfold_words
  simp only [View.readAt_eq_ld, Memref.IsWhole.read_unread, View.readCov_unit_zero (S := S10000x64) _ hz2, View.ld_unit_zero (S := S200x10000) hz2, View.ld_unit_zero (S := S10000x128) hz2, View.ld_unit_zero (S := S128x64) hz2, View.ld_unit_zero (S := S10000x64) hz2, View.ld_unit_zero (S := S1x64) hz2, View.ld_unit_zero (S := S64x40) hz2, View.ld_unit_zero (S := S16x64) hz2, View.ld_unit_zero (S := S1x16) hz2, View.ld_unit_zero (S := S10000x40) hz2]
  (try rfl)

end Cert.Kernel.Fr

end
-- ==== Proof.FrK.Data.lean ====
/-
  The proof data of the kernel's one pipeline.

  Scratch: after the first point the first scratch array holds x · W1 for good; the second is filled from the top,
  400 rows a point, through the first pass: after point n its rows below 400 (n + 1) are rows of h · W2 (row r from
  the adjacency strip of point r / 400: its first strip for r % 400 < 200, its second otherwise) and the rest is
  whatever the array held at entry, which nobody reads; from point 24 on it is h · W2 whole.
  Windows: an input's buffer holds its block; the log-softmax window's buffer holds, after a second-pass point, the two
  halves computed from that point's strips and the whole of h · W2; the gated-encoder window's holds, after a first-pass
  point, the two halves computed from that point's strips, x · W1 and the block of att, and through the second pass
  what the last first-pass point left there.
-/
import proofs.«157386_g86887188398715_cont_sun_m_547_22_alg».proof.Proof.FrK.Pieces
import Idealize.ShloMosaic.Lib.ValueIdx

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-! ## Points -/

/-- The grid's first point. -/
abbrev t0 : Fin cfg0.N := ⟨0, by decide⟩
/-- Point `n` of the first pass. -/
abbrev pt (n : Fin 25) : Fin cfg0.N := ⟨n.val, by have := n.isLt; have h : cfg0.N = 50 := N_0; omega⟩
/-- A point, held at the last first-pass point once the first pass is over. -/
abbrev clamp24 (t : Fin cfg0.N) : Fin cfg0.N := ⟨min t.val 24, by have h : cfg0.N = 50 := N_0; omega⟩

/-! ## The scratch arrays -/

/-- x · W1, as the first point forms it from the whole blocks of x and W1. -/
def S1 (c : Dev nD) : Vec F S10000x64 .f32 := k0_pay1 (iblk m c 2 t0) (iblk m c 3 t0)

/-- Rows 400 n … 400 n + 199 of h · W2: from the first strip of point n, -/
def s2Top (c : Dev nD) (n : Fin 25) : Vec F S200x40 .f32 :=
  k0_pay6 (iblk m c 0 (pt n)) (S1 m c) (iblk m c 4 (pt n)) (iblk m c 5 (pt n))
/-- and rows 400 n + 200 … 400 n + 399, from its second strip. -/
def s2Bot (c : Dev nD) (n : Fin 25) : Vec F S200x40 .f32 :=
  k0_pay3 (k0_pay8 (iblk m c 1 (pt n)) (S1 m c)) (iblk m c 4 (pt n)) (iblk m c 5 (pt n))

/-- h · W2, all 10000 rows, as the first pass gathers it. -/
def S2 (c : Dev nD) : Vec F S10000x40 .f32 := fun y =>
  if h : (y 0).val % 400 < 200 then
    s2Top m c (⟨(y 0).val / 400, by have h0 : (y 0).val < 10000 := (y 0).isLt; omega⟩ : Fin 25)
      (ix2 (⟨(y 0).val % 400, h⟩ : Fin 200) (y 1))
  else
    s2Bot m c (⟨(y 0).val / 400, by have h0 : (y 0).val < 10000 := (y 0).isLt; omega⟩ : Fin 25)
      (ix2 (⟨(y 0).val % 400 - 200, by have := Nat.mod_lt (y 0).val (show 0 < 400 by decide); omega⟩ : Fin 200) (y 1))

/-! ## The output windows' buffers -/

/-- One staging buffer of each output window, through which its contents are stated (the choice does not matter). -/
abbrev VO10 : View sig .tc .vmem S400x40 .f32 := (Memref.whole cc0_stg10_0 : Memref sig .tc .vmem S400x40 .f32).view
abbrev VO11 : View sig .tc .vmem S400x16 .f32 := (Memref.whole cc0_stg11_0 : Memref sig .tc .vmem S400x16 .f32).view

/-- The two halves a second-pass point stores into the log-softmax block, last first. -/
def L10 (c : Dev nD) (t : Fin cfg0.N) : List (View.Piece (Elt F) S400x40 .f32) :=
  [⟨rBot40, k0_pay10 (iblk m c 1 t) (S2 m c) (iblk m c 6 t)⟩, ⟨rTop40, k0_pay9 (iblk m c 0 t) (S2 m c) (iblk m c 6 t)⟩]
/-- What the log-softmax window's buffer holds after a second-pass point. -/
def out10 (c : Dev nD) (t : Fin cfg0.N) : Vec F S400x40 .f32 := VO10.read (Elt F) (VO10.writes (Elt F) VO10.junk (L10 m c t))

/-- The two halves a first-pass point stores into the gated-encoder block, last first. -/
def L11 (c : Dev nD) (t : Fin cfg0.N) : List (View.Piece (Elt F) S400x16 .f32) :=
  [⟨rBot16, k0_pay4 (k0_pay8 (iblk m c 1 t) (S1 m c)) (iblk m c 4 t) (iblk m c 7 t) (iblk m c 8 t) (View.ld (iblk m c 9 t : Vec F S400x16 .f32) rBot16)⟩,
   ⟨rTop16, k0_pay7 (iblk m c 0 t) (S1 m c) (iblk m c 4 t) (iblk m c 7 t) (iblk m c 8 t) (View.ld (iblk m c 9 t : Vec F S400x16 .f32) rTop16)⟩]
/-- What the gated-encoder window's buffer holds after a point: what the point stored if it is of the first pass, else
    what the last first-pass point stored. -/
def out11 (c : Dev nD) (t : Fin cfg0.N) : Vec F S400x16 .f32 :=
  VO11.read (Elt F) (VO11.writes (Elt F) VO11.junk (L11 m c (clamp24 t)))

/-- Two halves cover a 400-row block. -/
theorem cover40 (p1 p0 : Vec F S200x40 .f32) (y : S400x40.Idx) :
    ∃ pc ∈ ([⟨rBot40, p1⟩, ⟨rTop40, p0⟩] : List (View.Piece (Elt F) S400x40 .f32)), y ∈ pc.1.set :=
  View.cover_of_tiledL [⟨rBot40, p1⟩, ⟨rTop40, p0⟩] S200x40.size (by sl_kernel_rfl) y
theorem cover16 (p1 p0 : Vec F S200x16 .f32) (y : S400x16.Idx) :
    ∃ pc ∈ ([⟨rBot16, p1⟩, ⟨rTop16, p0⟩] : List (View.Piece (Elt F) S400x16 .f32)), y ∈ pc.1.set :=
  View.cover_of_tiledL [⟨rBot16, p1⟩, ⟨rTop16, p0⟩] S200x16.size (by sl_kernel_rfl) y
/-- The one whole-array store covers the first scratch array. -/
theorem coverS1 (p : Vec F S10000x64 .f32) (y : S10000x64.Idx) :
    ∃ pc ∈ ([⟨rS1, p⟩] : List (View.Piece (Elt F) S10000x64 .f32)), y ∈ pc.1.set :=
  ⟨_, List.mem_singleton_self _, View.mem_set_unit_zero hz2 inb_S10000x64_S10000x64_0_0 y⟩

/-! ## The invariant between points -/

/-- Before position `n`: at the region's entry both scratch arrays hold anything; afterwards the first holds x · W1 and
    the second's rows below 400 n are rows of h · W2. -/
def PhiS (c : Dev nD) : (n : ℕ) → n ≤ cfg0.N → sProp 𝕄
  | 0, _ => iprop((∃ d, owns (c : Thread nD τ) sc0 fullShare d) ∗ (∃ d, owns (c : Thread nD τ) sc1 fullShare d))
  | n + 1, _ => iprop(owns (c : Thread nD τ) sc0 fullShare (S1 m c)
      ∗ (∃ s2 : Vec F S10000x40 .f32, ⌜∀ y : S10000x40.Idx, (y 0).val < 400 * (n + 1) → s2 y = S2 m c y⌝ ∗ owns (c : Thread nD τ) sc1 fullShare s2))

theorem PhiS_zero (c : Dev nD) (n : ℕ) (h : n ≤ cfg0.N) (hz : n = 0) :
    PhiS m c n h = iprop((∃ d, owns (c : Thread nD τ) sc0 fullShare d) ∗ (∃ d, owns (c : Thread nD τ) sc1 fullShare d)) := by
  subst hz; rfl
theorem PhiS_succ (c : Dev nD) (n : ℕ) (hn : n < cfg0.N) :
    PhiS m c (n + 1) hn = iprop(owns (c : Thread nD τ) sc0 fullShare (S1 m c)
      ∗ (∃ s2 : Vec F S10000x40 .f32, ⌜∀ y : S10000x40.Idx, (y 0).val < 400 * (n + 1) → s2 y = S2 m c y⌝ ∗ owns (c : Thread nD τ) sc1 fullShare s2)) := rfl
theorem PhiS_pos (c : Dev nD) (n : ℕ) (h : n ≤ cfg0.N) (hz : n ≠ 0) :
    PhiS m c n h = iprop(owns (c : Thread nD τ) sc0 fullShare (S1 m c)
      ∗ (∃ s2 : Vec F S10000x40 .f32, ⌜∀ y : S10000x40.Idx, (y 0).val < 400 * n → s2 y = S2 m c y⌝ ∗ owns (c : Thread nD τ) sc1 fullShare s2)) := by
  cases n with
  | zero => exact absurd rfl hz
  | succ n => rfl

/-! ## The pipeline's proof data -/

/-- The arrays as the region finds them; after the body at a point each input's buffer at its block, the two outputs' at
    `out10` / `out11`; the invariant above; nothing owed; the adjacency matrix, which two windows read, held half by each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out10 m c t
    | ⟨11, _⟩ => out11 m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = out10 m c t := by dsimp only [dats]
theorem after11 (c : Dev nD) (t : Fin cfg0.N) : (dats m 0 c).after 11 t = out11 m c t := by dsimp only [dats]

/-! Each input's current staging buffer holds its block at every point. -/
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d

/-- The log-softmax window's buffer holds nothing the body stored whenever the body runs: it is written back after
    every point that stores into it. -/
theorem before10 (c : Dev nD) (t : Fin cfg0.N) (d) : (dats m 0 c).before 10 t d = d := by
  have h := (dats m 0 c).before_out_traj 10 rfl (fun _ _ => rfl)
    (fun t' _ _ hfr => absurd (fresh10 ⟨t'.val, by have := t'.isLt; have h : cfg0.N = 50 := N_0; omega⟩) (by rw [hfr]; exact Bool.false_ne_true)) t.val t rfl d
  rw [h, if_pos (fresh10 ⟨t.val, by have := t.isLt; have h : cfg0.N = 50 := N_0; omega⟩)]

/-- The gated-encoder window's buffer through the second pass holds what the point before left. -/
theorem before11_hi (c : Dev nD) (t : Fin cfg0.N) (ht : 25 ≤ t.val) (d) :
    (dats m 0 c).before 11 t d = out11 m c t := by
  have hN : cfg0.N = 50 := N_0
  have h := (dats m 0 c).before_out_traj 11 rfl (fun _ _ => rfl)
    (fun t' ht0 hi _ => by
      rw [after11, after11]
      have h25 : 25 ≤ t'.val := by
        by_contra hlt
        have := live11_lo t' (by omega)
        rw [this] at hi; exact Bool.false_ne_true hi
      unfold out11
      have e : clamp24 t' = clamp24 (⟨t'.val - 1, by omega⟩ : Fin cfg0.N) := Fin.ext (by show min t'.val 24 = min (t'.val - 1) 24; omega)
      rw [e]) t.val t rfl d
  have hfr' : cfg0.fresh 11 t.val = false :=
    (fresh11 ⟨t.val, by have := t.isLt; omega⟩).trans
      (decide_eq_false (show ¬(t.val ≤ 24 ∨ t.val = 50) by have := t.isLt; omega))
  rw [h, hfr', if_neg Bool.false_ne_true, after11]
  unfold out11
  have e : clamp24 (⟨t.val - 1, by have := t.isLt; omega⟩ : Fin cfg0.N) = clamp24 t := Fin.ext (by show min (t.val - 1) 24 = min t.val 24; omega)
  rw [e]

end Cert.Kernel.Fr

end
-- ==== Proof.FrK.S2Step.lean ====
/-
  One first-pass point's two stores into the second scratch array, read back: rows below 400 t keep what they held,
  rows 400 t … 400 t + 399 become rows of h · W2; so if the rows below 400 t were rows of h · W2 before point t, the
  rows below 400 (t + 1) are after it.
-/
import proofs.«157386_g86887188398715_cont_sun_m_547_22_alg».proof.Proof.FrK.Data
import Idealize.ShloMosaic.Lib.WritesUnit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The first strip of first-pass point t starts at row 400 t, -/
theorem offTop (t : Fin cfg0.N) (hlt : t.val < 25) : k0_off1 (grid0.coords t) 0#32 = ![400 * t.val, 0] := by
  have h := k0_off1_eq (grid0.coords t) (⟨0, by decide⟩ : Fin 2)
  rw [coord1_lo t hlt] at h
  exact h
/-- the second at row 400 t + 200. -/
theorem offBot (t : Fin cfg0.N) (hlt : t.val < 25) : k0_off1 (grid0.coords t) 200#32 = ![400 * t.val + 200, 0] := by
  have h := k0_off1_eq (grid0.coords t) (⟨1, by decide⟩ : Fin 2)
  rw [coord1_lo t hlt] at h
  exact h

/-- The second scratch array after point `t` of the first pass, read at a row below 400 (t + 1). -/
theorem s2_step (c : Dev nD) (t : Fin cfg0.N) (hlt : t.val < 25) (h2 : cond2 (grid0.coords t))
    (hw : sc1.IsWhole) (s2 : Vec F S10000x40 .f32)
    (hs2 : ∀ y : S10000x40.Idx, (y 0).val < 400 * t.val → s2 y = S2 m c y)
    (y : S10000x40.Idx) (hy : (y 0).val < 400 * (t.val + 1)) :
    sc1.view.read (Elt F) (sc1.view.writes (Elt F) (hw.unread s2)
        [⟨rS2b (grid0.coords t) h2, k0_pay3 (k0_pay8 (iblk m c 1 t) (S1 m c)) (iblk m c 4 t) (iblk m c 5 t)⟩,
         ⟨rS2a (grid0.coords t) h2, k0_pay6 (iblk m c 0 t) (S1 m c) (iblk m c 4 t) (iblk m c 5 t)⟩]) y
      = S2 m c y := by
  have hy0 : (y 0).val < 10000 := (y 0).isLt
  have ha := offTop t hlt
  have hb := offBot t hlt
  by_cases h1 : (y 0).val < 400 * t.val
  · refine (View.read_writes_cons_rows_of_not_mem (o := 400 * t.val + 200) (W := 200) sc1.view (hw.unread s2) _ _ _ y hb rfl
      (Or.inl (by omega))).trans ?_
    refine (View.read_writes_cons_rows_of_not_mem (o := 400 * t.val) (W := 200) sc1.view (hw.unread s2) _ _ _ y ha rfl
      (Or.inl h1)).trans ?_
    rw [View.writes_nil, hw.read_unread]
    exact hs2 y h1
  · have ept : pt (⟨(y 0).val / 400, by omega⟩ : Fin 25) = t := Fin.ext (by show (y 0).val / 400 = t.val; omega)
    by_cases h3 : (y 0).val < 400 * t.val + 200
    · have hmod : (y 0).val % 400 < 200 := by omega
      refine (View.read_writes_cons_rows_of_not_mem (o := 400 * t.val + 200) (W := 200) sc1.view (hw.unread s2) _ _ _ y hb rfl
        (Or.inl h3)).trans ?_
      refine (View.read_writes_cons_rows_of_mem (o := 400 * t.val) sc1.view (hw.unread s2) _ _ _ y
        (ix2 (⟨(y 0).val - 400 * t.val, by omega⟩ : Fin 200) (y 1)) ha
        (by show (y 0).val = 400 * t.val + ((y 0).val - 400 * t.val); omega) rfl).trans ?_
      unfold S2
      rw [dif_pos hmod]
      unfold s2Top
      rw [ept]
      exact congrArg _ (funext fun a => by
        match a with
        | ⟨0, _⟩ => exact Fin.ext (by show (y 0).val - 400 * t.val = (y 0).val % 400; omega)
        | ⟨1, _⟩ => rfl)
    · have hmod : ¬ (y 0).val % 400 < 200 := by omega
      refine (View.read_writes_cons_rows_of_mem (o := 400 * t.val + 200) sc1.view (hw.unread s2) _ _ _ y
        (ix2 (⟨(y 0).val - (400 * t.val + 200), by omega⟩ : Fin 200) (y 1)) hb
        (by show (y 0).val = 400 * t.val + 200 + ((y 0).val - (400 * t.val + 200)); omega) rfl).trans ?_
      unfold S2
      rw [dif_neg hmod]
      unfold s2Bot
      rw [ept]
      exact congrArg _ (funext fun a => by
        match a with
        | ⟨0, _⟩ => exact Fin.ext (by show (y 0).val - (400 * t.val + 200) = (y 0).val % 400 - 200; omega)
        | ⟨1, _⟩ => rfl)

end Cert.Kernel.Fr

end
-- ==== Proof.FrK.Body.lean ====
/-
  The body obligation: at every grid point the kernel body, handed the invariant and every window's current buffer at what
  it then holds, runs to the invariant of the next point and every buffer at what the proof data says it leaves.
  Three cases. At the first point the body forms x · W1 over the whole first scratch array, then does a first-pass
  point's work. At a first-pass point it stores two strips of h · W2 into the second scratch array, below which that
  array already holds h · W2, and the two halves of the gated-encoder block; the log-softmax window is left as found.
  At a second-pass point the second scratch array is h · W2 whole, the body stores the two halves of the log-softmax
  block, and the gated-encoder window is left as found: it still holds what the last first-pass point stored, which is
  what the grid's last point writes back.
-/
import proofs.«157386_g86887188398715_cont_sun_m_547_22_alg».proof.Proof.FrK.S2Step

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two output windows' write-backs, where the cases need them -/

theorem noflush10_lo : ∀ t : Fin cfg0.N, t.val < 25 → (cfg0.win 10).flush t = false :=
  (by decide +kernel : ∀ t : Fin grid0.N, t.val < 25 → win0_10.flush t = false)
theorem flush11_mid : ∀ t : Fin cfg0.N, 24 ≤ t.val → t.val < 49 → (cfg0.win 11).flush t = false :=
  (by decide +kernel : ∀ t : Fin grid0.N, 24 ≤ t.val → t.val < 49 → win0_11.flush t = false)
theorem flush11_last : ∀ t : Fin cfg0.N, t.val = 49 → (cfg0.win 11).flush t = true :=
  (by decide +kernel : ∀ t : Fin grid0.N, t.val = 49 → win0_11.flush t = true)

/-! An input window is never idle: the body leaves its buffer at its block. -/
theorem leaves_in0 (c : Dev nD) (t : Fin cfg0.N) :
    (dats m 0 c).leavesExact 0 t = owns (c : Thread nD τ) (ms0 t) fullShare (iblk m c 0 t) := by
  unfold Dat.leavesExact; rw [live_in 0 (by decide) t, after0]
theorem leaves_in1 (c : Dev nD) (t : Fin cfg0.N) :
    (dats m 0 c).leavesExact 1 t = owns (c : Thread nD τ) (ms1 t) fullShare (iblk m c 1 t) := by
  unfold Dat.leavesExact; rw [live_in 1 (by decide) t, after1]
theorem leaves_in2 (c : Dev nD) (t : Fin cfg0.N) :
    (dats m 0 c).leavesExact 2 t = owns (c : Thread nD τ) (ms2 t) fullShare (iblk m c 2 t) := by
  unfold Dat.leavesExact; rw [live_in 2 (by decide) t, after2]
theorem leaves_in3 (c : Dev nD) (t : Fin cfg0.N) :
    (dats m 0 c).leavesExact 3 t = owns (c : Thread nD τ) (ms3 t) fullShare (iblk m c 3 t) := by
  unfold Dat.leavesExact; rw [live_in 3 (by decide) t, after3]
theorem leaves_in4 (c : Dev nD) (t : Fin cfg0.N) :
    (dats m 0 c).leavesExact 4 t = owns (c : Thread nD τ) (ms4 t) fullShare (iblk m c 4 t) := by
  unfold Dat.leavesExact; rw [live_in 4 (by decide) t, after4]
theorem leaves_in5 (c : Dev nD) (t : Fin cfg0.N) :
    (dats m 0 c).leavesExact 5 t = owns (c : Thread nD τ) (ms5 t) fullShare (iblk m c 5 t) := by
  unfold Dat.leavesExact; rw [live_in 5 (by decide) t, after5]
theorem leaves_in6 (c : Dev nD) (t : Fin cfg0.N) :
    (dats m 0 c).leavesExact 6 t = owns (c : Thread nD τ) (ms6 t) fullShare (iblk m c 6 t) := by
  unfold Dat.leavesExact; rw [live_in 6 (by decide) t, after6]
theorem leaves_in7 (c : Dev nD) (t : Fin cfg0.N) :
    (dats m 0 c).leavesExact 7 t = owns (c : Thread nD τ) (ms7 t) fullShare (iblk m c 7 t) := by
  unfold Dat.leavesExact; rw [live_in 7 (by decide) t, after7]
theorem leaves_in8 (c : Dev nD) (t : Fin cfg0.N) :
    (dats m 0 c).leavesExact 8 t = owns (c : Thread nD τ) (ms8 t) fullShare (iblk m c 8 t) := by
  unfold Dat.leavesExact; rw [live_in 8 (by decide) t, after8]
theorem leaves_in9 (c : Dev nD) (t : Fin cfg0.N) :
    (dats m 0 c).leavesExact 9 t = owns (c : Thread nD τ) (ms9 t) fullShare (iblk m c 9 t) := by
  unfold Dat.leavesExact; rw [live_in 9 (by decide) t, after9]

/-! ## The obligation at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3, leaves_in4, leaves_in5, leaves_in6, leaves_in7, leaves_in8, leaves_in9]
  have hN : t.val < 50 := lt_of_lt_of_eq t.isLt (show cfg0.N = 50 from N_0)
  by_cases hC : 25 ≤ t.val
  · -- a second-pass point
    have hc1 : ¬cond1 (grid0.coords t) := fun h => by have := (hcond1 t).mp h; omega
    have hc2 : ¬cond2 (grid0.coords t) := fun h => by have := (hcond2 t).mp h; omega
    have hc3 : cond3 (grid0.coords t) := (hcond3 t).mpr hC
    rw [show (dats m 0 c).leavesExact 10 t = owns (c : Thread nD τ) (ms10 t) fullShare (out10 m c t) from by
      unfold Dat.leavesExact; rw [live10_hi t hC, after10]]
    rw [PhiS_castSucc m c t, PhiS_pos m c _ _ (by omega)]
    simp only [before11_hi m c t hC]
    by_cases h49 : t.val = 49
    · rw [show (dats m 0 c).leavesExact 11 t = owns (c : Thread nD τ) (ms11 t) fullShare (out11 m c t) from by
        unfold Dat.leavesExact; rw [idle11_hi t hC, flush11_last t h49, after11]]
      iintro ⟨⟨HS0, ⟨%s2, %hrows, HS1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      have es2 : s2 = S2 m c := funext fun y => hrows y (by have h : (y 0).val < 10000 := (y 0).isLt; omega)
      subst es2
      iapply ((runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) hc1 hc2 hc3 (iblk m c 0 t) (iblk m c 1 t) (iblk m c 6 t) (S2 m c)).2 d10 Set.univ _)
      isplitl [H0]; · iexact H0
      isplitl [H1]; · iexact H1
      isplitl [H6]; · iexact H6
      isplitl [H10]; · iexact H10
      isplitl [HS1]; · iexact HS1
      iintro ⟨H0, H1, H6, ⟨%f10, H10⟩, HS1⟩
      isplitl [HS0 HS1]
      · isplitl [HS0]; · iexact HS0
        iexists (S2 m c); isplitr; · ipureintro; exact fun _ _ => rfl
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; rw [runC_pieces]; exact View.read_writes_of_cover _ _ _ _ _ (cover40 _ _)
      iexact H11
    · rw [Dat.leavesExact_idle (dats m 0 c) 11 t (idle11_hi t hC) (flush11_mid t (by omega) (by omega))]
      simp only [before11_hi m c t hC]
      iintro ⟨⟨HS0, ⟨%s2, %hrows, HS1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      have es2 : s2 = S2 m c := funext fun y => hrows y (by have h : (y 0).val < 10000 := (y 0).isLt; omega)
      subst es2
      iapply ((runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) hc1 hc2 hc3 (iblk m c 0 t) (iblk m c 1 t) (iblk m c 6 t) (S2 m c)).2 d10 Set.univ _)
      isplitl [H0]; · iexact H0
      isplitl [H1]; · iexact H1
      isplitl [H6]; · iexact H6
      isplitl [H10]; · iexact H10
      isplitl [HS1]; · iexact HS1
      iintro ⟨H0, H1, H6, ⟨%f10, H10⟩, HS1⟩
      isplitl [HS0 HS1]
      · isplitl [HS0]; · iexact HS0
        iexists (S2 m c); isplitr; · ipureintro; exact fun _ _ => rfl
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; rw [runC_pieces]; exact View.read_writes_of_cover _ _ _ _ _ (cover40 _ _)
      iexists d11; iexact H11
  · have hlt : t.val < 25 := by omega
    have hc2 : cond2 (grid0.coords t) := (hcond2 t).mpr hlt
    have hc3 : ¬cond3 (grid0.coords t) := fun h => by have := (hcond3 t).mp h; omega
    rw [Dat.leavesExact_idle (dats m 0 c) 10 t (idle10_lo t hlt) (noflush10_lo t hlt)]
    simp only [before10]
    rw [show (dats m 0 c).leavesExact 11 t = owns (c : Thread nD τ) (ms11 t) fullShare (out11 m c t) from by
      unfold Dat.leavesExact; rw [live11_lo t hlt, after11]]
    have hcl : clamp24 t = t := Fin.ext (by show min t.val 24 = t.val; omega)
    by_cases hA : t.val = 0
    · -- the first point
      have hc1 : cond1 (grid0.coords t) := (hcond1 t).mpr hA
      have ht0 : t = t0 := Fin.ext hA
      rw [PhiS_castSucc m c t, PhiS_zero m c _ _ hA]
      iintro ⟨⟨⟨%ds0, HS0⟩, ⟨%ds1, HS1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) hc1 hc2 hc3 (iblk m c 0 t) (iblk m c 1 t) (iblk m c 2 t) (iblk m c 3 t) (iblk m c 4 t) (iblk m c 5 t) (iblk m c 7 t) (iblk m c 8 t) (iblk m c 9 t) ds1).2.2.2 _ ds0 Set.univ _)
      isplitl [H0]; · iexact H0
      isplitl [H1]; · iexact H1
      isplitl [H2]; · iexact H2
      isplitl [H3]; · iexact H3
      isplitl [H4]; · iexact H4
      isplitl [H5]; · iexact H5
      isplitl [H7]; · iexact H7
      isplitl [H8]; · iexact H8
      isplitl [H9]; · iexact H9
      isplitl [H11]; · iexact H11
      isplitl [HS0]; · iexact HS0
      isplitl [HS1]; · iexact HS1
      iintro ⟨H0, H1, H2, H3, H4, H5, H7, H8, H9, ⟨%f11, H11⟩, ⟨%fs0, HS0⟩, HS1⟩
      isplitl [HS0 HS1]
      · isplitl [HS0]
        · unfold owns; iexists _; isplitr
          swap; · iexact HS0
          ipureintro; rw [runA_piecesS0, View.read_writes_eq_canon _ _ _ (coverS1 _), View.canon_unit_zero hz2, ht0]; rfl
        iexists _; isplitr
        swap
        · unfold owns; iexists _; isplitr
          swap; · iexact HS1
          ipureintro; rfl
        ipureintro; intro y hy
        rw [runA_piecesS1]
        subst ht0
        exact s2_step m c t0 hlt hc2 _ ds1 (fun y' hy' => absurd hy' (by omega)) y hy
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists d10; iexact H10
      unfold owns; iexists _; isplitr
      swap; · iexact H11
      ipureintro; rw [runA_pieces11]; unfold out11 L11; rw [hcl]; subst ht0
      exact View.read_writes_of_cover _ _ _ _ _ (cover16 _ _)
    · -- a later first-pass point
      have hc1 : ¬cond1 (grid0.coords t) := fun h => hA ((hcond1 t).mp h)
      rw [PhiS_castSucc m c t, PhiS_pos m c _ _ hA]
      iintro ⟨⟨HS0, ⟨%s2, %hrows, HS1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) hc1 hc2 hc3 (iblk m c 0 t) (iblk m c 1 t) (iblk m c 4 t) (iblk m c 5 t) (iblk m c 7 t) (iblk m c 8 t) (iblk m c 9 t) (S1 m c) s2).2.2 _ Set.univ _)
      isplitl [H0]; · iexact H0
      isplitl [H1]; · iexact H1
      isplitl [H4]; · iexact H4
      isplitl [H5]; · iexact H5
      isplitl [H7]; · iexact H7
      isplitl [H8]; · iexact H8
      isplitl [H9]; · iexact H9
      isplitl [H11]; · iexact H11
      isplitl [HS0]; · iexact HS0
      isplitl [HS1]; · iexact HS1
      iintro ⟨H0, H1, H4, H5, H7, H8, H9, ⟨%f11, H11⟩, HS0, HS1⟩
      isplitl [HS0 HS1]
      · isplitl [HS0]; · iexact HS0
        iexists _; isplitr
        swap
        · unfold owns; iexists _; isplitr
          swap; · iexact HS1
          ipureintro; rfl
        ipureintro; intro y hy
        rw [runB_piecesS1]
        exact s2_step m c t hlt hc2 _ s2 hrows y hy
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists d10; iexact H10
      unfold owns; iexists _; isplitr
      swap; · iexact H11
      ipureintro; rw [runB_pieces11]; unfold out11 L11; rw [hcl]
      exact View.read_writes_of_cover _ _ _ _ _ (cover16 _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Fr

end
-- ==== Proof.FrK.Run.lean ====
/-
  The run of the whole program: the three reshapes, then the kernel region. The adjacency matrix is read through two
  windows, each holding half of it; every other array is held whole by its one window. Every weakly fair execution
  terminates, faults nowhere, leaves the two result arrays at what the pipeline's write-backs make of the proof data, and
  leaves every argument array as it was.
-/
import proofs.«157386_g86887188398715_cont_sun_m_547_22_alg».proof.Proof.FrK.Body
import Idealize.ShloMosaic.Lib.Pipeline.Launch

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's arrays at entry, each a whole buffer at its window's share and at the contents the region finds. -/
theorem arrays_entry (c : Dev nD) :
    (dats m 0 c).arrays ((dats m 0 c).arrAt · 0)
      = bigSep Finset.univ fun w : Fin 12 =>
          (((c : Thread nD τ).loc (Pipeline.arrRef spec0 w)) ↦{(dats m 0 c).share w} V m c (Pipeline.arrRef spec0 w) : sProp 𝕄) := by
  unfold Dat.arrays
  exact bigSep_congr fun w _ => by rw [(arr_whole0 w).set_eq_univ]; rfl

/-- The eleven buffers behind the twelve windows' arrays. -/
theorem arrRef_image :
    Finset.univ.image (Pipeline.arrRef spec0)
      = [main_arg1, main_arg0, main_arg3, main_v0, main_arg5, main_v1, main_arg7, main_v2, main_arg2, main_v3_0, main_v3_1].toFinset := by
  decide

/-- At the region's entry the buffers behind the windows' arrays, each whole, are the pipeline's arrays at the shares the
    proof data names: the adjacency matrix split in two halves, one for each of its windows. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  classical
  rw [arrays_entry, bigSep_W0]
  unfold Pipeline.arrBufs
  rw [bigSep_eq_bigSepL_of_eq _ arrRef_image (by decide)]
  refine (show (iprop((((c : Thread nD τ).loc main_arg1) ↦{fullShare} V m c main_arg1)
      ∗ (((c : Thread nD τ).loc main_arg0) ↦{fullShare} V m c main_arg0)
      ∗ (((c : Thread nD τ).loc main_arg3) ↦{fullShare} V m c main_arg3)
      ∗ (((c : Thread nD τ).loc main_v0) ↦{fullShare} V m c main_v0)
      ∗ (((c : Thread nD τ).loc main_arg5) ↦{fullShare} V m c main_arg5)
      ∗ (((c : Thread nD τ).loc main_v1) ↦{fullShare} V m c main_v1)
      ∗ (((c : Thread nD τ).loc main_arg7) ↦{fullShare} V m c main_arg7)
      ∗ (((c : Thread nD τ).loc main_v2) ↦{fullShare} V m c main_v2)
      ∗ (((c : Thread nD τ).loc main_arg2) ↦{fullShare} V m c main_arg2)
      ∗ (((c : Thread nD τ).loc main_v3_0) ↦{fullShare} V m c main_v3_0)
      ∗ (((c : Thread nD τ).loc main_v3_1) ↦{fullShare} V m c main_v3_1)) : sProp 𝕄) ⊢ (iprop((((c : Thread nD τ).loc main_arg1) ↦{fullShare.left} V m c main_arg1)
      ∗ (((c : Thread nD τ).loc main_arg1) ↦{fullShare.right} V m c main_arg1)
      ∗ (((c : Thread nD τ).loc main_arg0) ↦{fullShare} V m c main_arg0)
      ∗ (((c : Thread nD τ).loc main_arg3) ↦{fullShare} V m c main_arg3)
      ∗ (((c : Thread nD τ).loc main_v0) ↦{fullShare} V m c main_v0)
      ∗ (((c : Thread nD τ).loc main_arg5) ↦{fullShare} V m c main_arg5)
      ∗ (((c : Thread nD τ).loc main_v1) ↦{fullShare} V m c main_v1)
      ∗ (((c : Thread nD τ).loc main_arg7) ↦{fullShare} V m c main_arg7)
      ∗ (((c : Thread nD τ).loc main_v2) ↦{fullShare} V m c main_v2)
      ∗ (((c : Thread nD τ).loc main_arg2) ↦{fullShare} V m c main_arg2)
      ∗ (((c : Thread nD τ).loc main_v3_0) ↦{fullShare} V m c main_v3_0)
      ∗ (((c : Thread nD τ).loc main_v3_1) ↦{fullShare} V m c main_v3_1)) : sProp 𝕄) from ?_)
  iintro ⟨H1, H0, H3, Hv0, H5, Hv1, H7, Hv2, H2, Ho0, Ho1⟩
  -- the adjacency matrix, held whole, is cut in two halves, one for each window that reads it
  ihave H1 := (pointsTo_share (PosShare.mem_left_op_right fullShare)).1 $$ H1
  icases H1 with ⟨H1l, H1r⟩
  isplitl [H1l]; · iexact H1l
  isplitl [H1r]; · iexact H1r
  isplitl [H0]; · iexact H0
  isplitl [H3]; · iexact H3
  isplitl [Hv0]; · iexact Hv0
  isplitl [H5]; · iexact H5
  isplitl [Hv1]; · iexact Hv1
  isplitl [H7]; · iexact H7
  isplitl [Hv2]; · iexact Hv2
  isplitl [H2]; · iexact H2
  isplitl [Ho0]; · iexact Ho0
  iexact Ho1

/-- Before the first point the invariant asks the two scratch arrays at anything: the core's scoped buffers besides the
    staging buffers. -/
theorem phi_entry (c : Dev nD) :
    iprop(emp ∗ Pipeline.scopedRest spec0 c) ⊢ (dats m 0 c).Φ 0 := by
  rw [scoped_eq, show (dats m 0 c).Φ 0 = PhiS m c 0 (Nat.zero_le _) from rfl, PhiS_zero m c 0 _ rfl]
  iintro ⟨-, H⟩; iexact H

/-- After the last point the invariant gives the two scratch arrays back, their contents forgotten. -/
theorem phi_exit (c : Dev nD) :
    (dats m 0 c).Φ (Fin.last cfg0.N) ⊢ iprop(emp ∗ Pipeline.scopedRest spec0 c) := by
  rw [scoped_eq, show (dats m 0 c).Φ (Fin.last cfg0.N) = PhiS m c cfg0.N (Nat.le_refl _) from rfl,
    PhiS_pos m c cfg0.N _ (by rw [show cfg0.N = 50 from N_0]; decide)]
  iintro ⟨H1, %s2, -, H2⟩
  isplitr; · iempintro
  isplitl [H1]
  · iexists _; iexact H1
  · iexists _; iexact H2

/-- THE RUN: every weakly fair execution of @main terminates, nothing faulting; the two results end at the proof data's
    arrays after every write-back, the nine arguments unchanged. -/
theorem run_main : θ_run defs (onTc (τ := τ) (main (F := F))) ⟨m, fun _ => 0, ρ⟩ (fun r => ∀ c : Dev nD,
      r.2.mem ((c.tc : Thread nD τ).loc main_v3_0) = (dats m 0 c).arrAt 10 cfg0.N
      ∧ r.2.mem ((c.tc : Thread nD τ).loc main_v3_1) = (dats m 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj))
    (hu₀ := BI.Entails.refl _)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := phi_entry m) (hout := phi_exit m)
    (QY := fun c s => ∀ b ∈ (Finset.univ.filter fun b : Ref sig .tc => ¬ b.isScoped) \ Finset.univ.image (Pipeline.arrRef spec0),
      s.mem ((c : Thread nD τ).loc b) = V m c b)
    (hY := fun c s' => by
      iintro ⟨-, HU, HSI⟩
      unfold Pipeline.unscopedRest
      imodintro
      iapply (pointsTo_read_all _ (fun b => (c : Thread nD τ).loc b) (V m c) s')
      isplitl [HU] <;> iassumption)
    (hQ := fun s h c =>
      ⟨(h c).1 10, (h c).1 11,
        ((h c).1 2).trans (((dats m 0 c).arrAt_in 2 rfl _).trans ((A_eq m c 2).trans (V_main_arg0 m c))),
        ((h c).1 0).trans (((dats m 0 c).arrAt_in 0 rfl _).trans ((A_eq m c 0).trans (V_main_arg1 m c))),
        ((h c).1 9).trans (((dats m 0 c).arrAt_in 9 rfl _).trans ((A_eq m c 9).trans (V_main_arg2 m c))),
        ((h c).1 3).trans (((dats m 0 c).arrAt_in 3 rfl _).trans ((A_eq m c 3).trans (V_main_arg3 m c))),
        ((h c).2 main_arg4 (by decide)).trans (V_main_arg4 m c),
        ((h c).1 5).trans (((dats m 0 c).arrAt_in 5 rfl _).trans ((A_eq m c 5).trans (V_main_arg5 m c))),
        ((h c).2 main_arg6 (by decide)).trans (V_main_arg6 m c),
        ((h c).1 7).trans (((dats m 0 c).arrAt_in 7 rfl _).trans ((A_eq m c 7).trans (V_main_arg7 m c))),
        ((h c).2 main_arg8 (by decide)).trans (V_main_arg8 m c)⟩)

/-- THE FRAME: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2.2) (run_main m ρ)

end Cert.Kernel.Fr

end
-- ==== Proof.lean ====
/-
  A fused two-layer graph convolution with an attention-gated encoder,
      h   = max(adj · (x · W1) + b1, 0),
      out = log_softmax(adj · (h · W2) + b2)  along each row,
      y   = sigmoid(h · Weᵀ + be) ⊙ att,
  as ONE pipelined kernel over a 2 × 25 grid against the plain array program.

  The kernel walks the 10000 × 10000 adjacency matrix twice, two 200-row strips a point. On the first pass a strip gives
  its rows of h at once (x · W1 is formed at the very first point and kept), hence its rows of h · W2, gathered in a
  scratch array, and its rows of y; on the second pass a strip gives its rows of the logits from the gathered h · W2,
  and the row-wise log-softmax of them. Every row of either result is a function of that row of adj (and of att) and
  of whole small arrays, the same function in both programs: a matrix product's row is the product of the row, the
  maximum, the sum of exponentials and the logarithm are taken along the row, and the reference's sigmoid, spelt
  1 / (1 + exp(−z)), is the kernel's logistic by definition on the extended reals. No law that needs finite inputs is
  used: the two programs add and multiply the same numbers in the same arrangement.

  The frames (both readings of the kernel run to the end, fault nowhere, leave the arguments as they were) are proved
  through the pipeline rule from the body's behaviour at the three kinds of grid point; the two windows on the one
  adjacency matrix each hold half of it. The log-softmax window is parked on its first block, unwritten, through the
  first pass, and the gated-encoder window on its last block, untouched, through the second: what is written back
  last is what the last first-pass point stored.
-/
import proofs.«157386_g86887188398715_cont_sun_m_547_22_alg».proof.Defs
import proofs.«157386_g86887188398715_cont_sun_m_547_22_alg».proof.Proof.Claims
import proofs.«157386_g86887188398715_cont_sun_m_547_22_alg».proof.Proof.FrK.Run

noncomputable section

namespace Cert.Proof

open Idealize.ShloMosaic Idealize.SL.Sem

/-- The word-level kernel runs and leaves its arguments unchanged: the frame argument, read at the bit-exact instance. -/
theorem frame_p : Cert.frame_Kernel := fun m ρ _ => Cert.Kernel.Fr.frame (F := Bits) m ρ

theorem claim : Cert.Claim :=
  ⟨Cert.Kernel.Gen.facts, Cert.KernelIdeal.Gen.facts, Cert.ReferenceIdeal.Gen.facts, Cert.Pre_finite_inputs.Gen.facts,
    frame_p, Claims.frame_pi, Claims.frame_ri, Claims.preserves, Claims.algebraic⟩

end Cert.Proof

end
